-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000x128 : Shape := ⟨2, ![600000, 128]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S2x600000 : S_.BroadcastsInDim S2x600000 (![] : Fin 0 → Fin S2x600000.rank)
  reducesTo_S2x600000_S_d0_1 : S2x600000.ReducesTo [0, 1] S_

variable [Facts]

def fn_part3 {F : FTy → Type} [FloatOps F] (main_arg1 : IVec S2x600000 32) (main_arg12 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_c_22 : IVec S_ 32 := constantI S_ 32 0#32
  let main_v59 : IVec S2x600000 32 := broadcastInDim S2x600000 ![] bcast_S_S2x600000 main_c_22
  let main_v60 : IVec S2x600000 1 := cmpi .sge main_arg1 main_v59
  let main_c_23 : IVec S_ 32 := constantI S_ 32 50000#32
  let main_v61 : IVec S2x600000 32 := broadcastInDim S2x600000 ![] bcast_S_S2x600000 main_c_23
  let main_v62 : IVec S2x600000 1 := cmpi .slt main_arg1 main_v61
  let main_v63 : IVec S2x600000 1 := andi main_v60 main_v62
  let main_c_24 : IVec S_ 1 := constantI S_ 1 1#1
  let main_v64 : IVec S_ 1 := (fun x v => Host.reduce IntOp.andi x v reducesTo_S2x600000_S_d0_1 h_S_) main_v63 main_c_24
  let main_v65 : IVec S_ 1 := andi main_v58 main_v64
  main_v65

def fn_part2 {F : FTy → Type} [FloatOps F] (main_arg1 : IVec S2x600000 32) (main_arg8 : FVec F S128 .f32) (main_arg9 : FVec F S128x128 .f32) (main_arg10 : FVec F S128 .f32) (main_arg11 : FVec F S128 .f32) (main_arg12 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg1 main_arg12 main_v48 main_v49 main_v50

def fn_part1 {F : FTy → Type} [FloatOps F] (main_arg1 : IVec S2x600000 32) (main_arg5 : FVec F S128x128 .f32) (main_arg6 : FVec F S128 .f32) (main_arg7 : FVec F S256x128 .f32) (main_arg8 : FVec F S128 .f32) (main_arg9 : FVec F S128x128 .f32) (main_arg10 : FVec F S128 .f32) (main_arg11 : FVec F S128 .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg1 main_arg8 main_arg9 main_arg10 main_arg11 main_arg12 main_v33

def fn {F : FTy → Type} [FloatOps F] (main_arg0 : FVec F S50000x128 .f32) (main_arg1 : IVec S2x600000 32) (main_arg2 : FVec F S600000x128 .f32) (main_arg3 : FVec F S384x128 .f32) (main_arg4 : FVec F S128 .f32) (main_arg5 : FVec F S128x128 .f32) (main_arg6 : FVec F S128 .f32) (main_arg7 : FVec F S256x128 .f32) (main_arg8 : FVec F S128 .f32) (main_arg9 : FVec F S128x128 .f32) (main_arg10 : FVec F S128 .f32) (main_arg11 : FVec F S128 .f32) (main_arg12 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x128 .f32 := Host.absf main_arg2
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S384x128 .f32 := Host.absf main_arg3
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_arg11 main_arg12 main_v13 main_v16
-- ==== Kernel.lean ====
abbrev S50000x128 : Shape := ⟨2, ![50000, 128]⟩
abbrev S2x600000 : Shape := ⟨2, ![2, 600000]⟩
abbrev S600000x128 : Shape := ⟨2, ![600000, 128]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1 : Shape := ⟨1, ![1]⟩
abbrev S1x1 : Shape := ⟨2, ![1, 1]⟩
abbrev S1x128 : Shape := ⟨2, ![1, 128]⟩
abbrev S6000x128 : Shape := ⟨2, ![6000, 128]⟩
abbrev S10000x128 : Shape := ⟨2, ![10000, 128]⟩

abbrev nBuf : Space → Nat
  | .hbm => 134
  | .vmem => 25
  | .smem => 0
  | _ => 0

abbrev hbmTy0_0 (i : Nat) : BufTy := match i % 128 with
  | 0 => ⟨S50000x128, .f32⟩
  | 1 => ⟨S2x600000, .i32⟩
  | 2 => ⟨S600000x128, .f32⟩
  | 3 => ⟨S384x128, .f32⟩
  | 4 => ⟨S128, .f32⟩
  | 5 => ⟨S128x128, .f32⟩
  | 6 => ⟨S128, .f32⟩
  | 7 => ⟨S256x128, .f32⟩
  | 8 => ⟨S128, .f32⟩
  | 9 => ⟨S128x128, .f32⟩
  | 10 => ⟨S128, .f32⟩
  | 11 => ⟨S128, .f32⟩
  | 12 => ⟨S128, .f32⟩
  | 13 => ⟨S1x600000, .i32⟩
  | 14 => ⟨S600000, .i32⟩
  | 15 => ⟨S1x600000, .i32⟩
  | 16 => ⟨S600000, .i32⟩
  | 17 => ⟨S_, .i32⟩
  | 18 => ⟨S600000, .i32⟩
  | 19 => ⟨S600000, .i1⟩
  | 20 => ⟨S_, .i32⟩
  | 21 => ⟨S600000, .i32⟩
  | 22 => ⟨S600000, .i32⟩
  | 23 => ⟨S600000, .i32⟩
  | 24 => ⟨S600000x1, .i32⟩
  | 25 => ⟨S1, .i32⟩
  | 26 => ⟨S_, .i32⟩
  | 27 => ⟨S600000x1, .i32⟩
  | 28 => ⟨S600000x1, .i1⟩
  | 29 => ⟨S1x1, .i32⟩
  | 30 => ⟨S600000x1, .i32⟩
  | 31 => ⟨S600000x1, .i1⟩
  | 32 => ⟨S600000x1, .i1⟩
  | 33 => ⟨S_, .i1⟩
  | 34 => ⟨S600000, .i1⟩
  | 35 => ⟨S600000x128, .f32⟩
  | 36 => ⟨S600000x128, .i1⟩
  | 37 => ⟨S_, .f32⟩
  | 38 => ⟨S600000x128, .f32⟩
  | 39 => ⟨S600000x128, .f32⟩
  | 40 => ⟨S_, .i32⟩
  | 41 => ⟨S600000, .i32⟩
  | 42 => ⟨S600000, .i1⟩
  | 43 => ⟨S_, .i32⟩
  | 44 => ⟨S600000, .i32⟩
  | 45 => ⟨S600000, .i32⟩
  | 46 => ⟨S600000, .i32⟩
  | 47 => ⟨S600000x1, .i32⟩
  | 48 => ⟨S1, .i32⟩
  | 49 => ⟨S_, .i32⟩
  | 50 => ⟨S600000x1, .i32⟩
  | 51 => ⟨S600000x1, .i1⟩
  | 52 => ⟨S1x1, .i32⟩
  | 53 => ⟨S600000x1, .i32⟩
  | 54 => ⟨S600000x1, .i1⟩
  | 55 => ⟨S600000x1, .i1⟩
  | 56 => ⟨S_, .i1⟩
  | 57 => ⟨S600000, .i1⟩
  | 58 => ⟨S600000x128, .f32⟩
  | 59 => ⟨S600000x128, .i1⟩
  | 60 => ⟨S_, .f32⟩
  | 61 => ⟨S600000x128, .f32⟩
  | 62 => ⟨S600000x128, .f32⟩
  | 63 => ⟨S600000x128, .bf16⟩
  | 64 => ⟨S600000x128, .bf16⟩
  | 65 => ⟨S600000x128, .bf16⟩
  | 66 => ⟨S128x128, .f32⟩
  | 67 => ⟨S128x128, .bf16⟩
  | 68 => ⟨S128x128, .f32⟩
  | 69 => ⟨S128x128, .bf16⟩
  | 70 => ⟨S128x128, .f32⟩
  | 71 => ⟨S128x128, .bf16⟩
  | 72 => ⟨S128x128, .bf16⟩
  | 73 => ⟨S1x128, .f32⟩
  | 74 => ⟨S1x128, .f32⟩
  | 75 => ⟨S600000x128, .f32⟩
  | 76 => ⟨S_, .f32⟩
  | 77 => ⟨S50000x128, .f32⟩
  | 78 => ⟨S600000x1, .i32⟩
  | 79 => ⟨S50000x128, .f32⟩
  | 80 => ⟨S50000x128, .bf16⟩
  | 81 => ⟨S50000x128, .bf16⟩
  | 82 => ⟨S128x128, .f32⟩
  | 83 => ⟨S128x128, .bf16⟩
  | 84 => ⟨S128x128, .f32⟩
  | 85 => ⟨S128x128, .bf16⟩
  | 86 => ⟨S128x128, .bf16⟩
  | 87 => ⟨S1x128, .f32⟩
  | 88 => ⟨S1x128, .f32⟩
  | 89 => ⟨S50000x128, .f32⟩
  | 90 => ⟨S_, .f32⟩
  | 91 => ⟨S128, .f32⟩
  | 92 => ⟨S_, .f32⟩
  | 93 => ⟨S128, .f32⟩
  | 94 => ⟨S128, .f32⟩
  | 95 => ⟨S_, .i32⟩
  | 96 => ⟨S_, .f32⟩
  | 97 => ⟨S128, .f32⟩
  | 98 => ⟨S1x128, .f32⟩
  | 99 => ⟨S_, .f32⟩
  | 100 => ⟨S1x128, .f32⟩
  | 101 => ⟨S1x128, .f32⟩
  | 102 => ⟨S50000x128, .f32⟩
  | 103 => ⟨S50000x128, .f32⟩
  | 104 => ⟨S50000x128, .f32⟩
  | 105 => ⟨S_, .f32⟩
  | 106 => ⟨S_, .f32⟩
  | 107 => ⟨S_, .f32⟩
  | 108 => ⟨S_, .f32⟩
  | 109 => ⟨S128, .f32⟩
  | 110 => ⟨S128, .f32⟩
  | 111 => ⟨S128, .f32⟩
  | 112 => ⟨S_, .f32⟩
  | 113 => ⟨S_, .i1⟩
  | 114 => ⟨S_, .f32⟩
  | 115 => ⟨S_, .f32⟩
  | 116 => ⟨S128, .f32⟩
  | 117 => ⟨S128, .f32⟩
  | 118 => ⟨S1x128, .f32⟩
  | 119 => ⟨S50000x128, .f32⟩
  | 120 => ⟨S50000x128, .f32⟩
  | 121 => ⟨S_, .f32⟩
  | 122 => ⟨S128, .f32⟩
  | 123 => ⟨S128, .f32⟩
  | 124 => ⟨S128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S1x128, .f32⟩
  | 4 => ⟨S50000x128, .f32⟩
  | 5 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S6000x128, .bf16⟩
  | .local _ .vmem, ⟨1, _⟩ => ⟨S6000x128, .bf16⟩
  | .local _ .vmem, ⟨2, _⟩ => ⟨S6000x128, .bf16⟩
  | .local _ .vmem, ⟨3, _⟩ => ⟨S6000x128, .bf16⟩
  | .local _ .vmem, ⟨4, _⟩ => ⟨S6000x128, .bf16⟩
  | .local _ .vmem, ⟨5, _⟩ => ⟨S6000x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S1x128, .f32⟩
  | .local _ .vmem, ⟨10, _⟩ => ⟨S128x128, .bf16⟩
  | .local _ .vmem, ⟨11, _⟩ => ⟨S1x128, .f32⟩
  | .local _ .vmem, ⟨12, _⟩ => ⟨S6000x128, .f32⟩
  | .local _ .vmem, ⟨13, _⟩ => ⟨S6000x128, .f32⟩
  | .local _ .vmem, ⟨14, _⟩ => ⟨S10000x128, .bf16⟩
  | .local _ .vmem, ⟨15, _⟩ => ⟨S10000x128, .bf16⟩
  | .local _ .vmem, ⟨16, _⟩ => ⟨S10000x128, .bf16⟩
  | .local _ .vmem, ⟨17, _⟩ => ⟨S10000x128, .bf16⟩
  | .local _ .vmem, ⟨18, _⟩ => ⟨S128x128, .bf16⟩
  | .local _ .vmem, ⟨19, _⟩ => ⟨S128x128, .bf16⟩
  | .local _ .vmem, ⟨20, _⟩ => ⟨S1x128, .f32⟩
  | .local _ .vmem, ⟨21, _⟩ => ⟨S128x128, .bf16⟩
  | .local _ .vmem, ⟨22, _⟩ => ⟨S1x128, .f32⟩
  | .local _ .vmem, ⟨23, _⟩ => ⟨S10000x128, .f32⟩
  | .local _ .vmem, ⟨24, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v4 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v5 : Ref sig .tc := ⟨.hbm, 62, rfl⟩
abbrev main_v6 : Ref sig .tc := ⟨.hbm, 63, rfl⟩
abbrev main_v7 : Ref sig .tc := ⟨.hbm, 64, rfl⟩
abbrev main_v8 : Ref sig .tc := ⟨.hbm, 65, rfl⟩
abbrev main_v9 : Ref sig .tc := ⟨.hbm, 66, rfl⟩
abbrev main_v10 : Ref sig .tc := ⟨.hbm, 67, rfl⟩
abbrev main_v11 : Ref sig .tc := ⟨.hbm, 68, rfl⟩
abbrev main_v12 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_cst : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_cst_0 : Ref sig .tc := ⟨.hbm, 90, rfl⟩
abbrev main_v32 : Ref sig .tc := ⟨.hbm, 91, rfl⟩
abbrev main_cst_1 : Ref sig .tc := ⟨.hbm, 92, rfl⟩
abbrev main_v33 : Ref sig .tc := ⟨.hbm, 93, rfl⟩
abbrev main_v34 : Ref sig .tc := ⟨.hbm, 94, rfl⟩
abbrev main_c : Ref sig .tc := ⟨.hbm, 95, rfl⟩
abbrev main_call2_cst : Ref sig .tc := ⟨.hbm, 96, rfl⟩
abbrev main_call2_v0 : Ref sig .tc := ⟨.hbm, 97, rfl⟩
abbrev main_call2_v1 : Ref sig .tc := ⟨.hbm, 98, rfl⟩
abbrev main_call2_cst_0 : Ref sig .tc := ⟨.hbm, 99, rfl⟩
abbrev main_call2_v2 : Ref sig .tc := ⟨.hbm, 100, rfl⟩
abbrev main_call2_v3 : Ref sig .tc := ⟨.hbm, 101, rfl⟩
abbrev main_call2_v4 : Ref sig .tc := ⟨.hbm, 102, rfl⟩
abbrev main_call2_v5 : Ref sig .tc := ⟨.hbm, 103, rfl⟩
abbrev main_call2_v6 : Ref sig .tc := ⟨.hbm, 104, rfl⟩
abbrev main_call2_v7 : Ref sig .tc := ⟨.hbm, 105, rfl⟩
abbrev main_call2_cst_1 : Ref sig .tc := ⟨.hbm, 106, rfl⟩
abbrev main_call2_v8 : Ref sig .tc := ⟨.hbm, 107, rfl⟩
abbrev main_call2_cst_2 : Ref sig .tc := ⟨.hbm, 108, rfl⟩
abbrev main_call2_v9 : Ref sig .tc := ⟨.hbm, 109, rfl⟩
abbrev main_call2_v10 : Ref sig .tc := ⟨.hbm, 110, rfl⟩
abbrev main_call2_v11 : Ref sig .tc := ⟨.hbm, 111, rfl⟩
abbrev main_call2_cst_3 : Ref sig .tc := ⟨.hbm, 112, rfl⟩
abbrev main_call2_v12 : Ref sig .tc := ⟨.hbm, 113, rfl⟩
abbrev main_call2_cst_4 : Ref sig .tc := ⟨.hbm, 114, rfl⟩
abbrev main_call2_call0_v0 : Ref sig .tc := ⟨.hbm, 115, rfl⟩
abbrev main_call2_call0_v1 : Ref sig .tc := ⟨.hbm, 116, rfl⟩
abbrev main_v35 : Ref sig .tc := ⟨.hbm, 117, rfl⟩
abbrev main_v36 : Ref sig .tc := ⟨.hbm, 118, rfl⟩
abbrev main_v37 : Ref sig .tc := ⟨.hbm, 119, rfl⟩
abbrev main_v38 : Ref sig .tc := ⟨.hbm, 120, rfl⟩
abbrev main_cst_2 : Ref sig .tc := ⟨.hbm, 121, rfl⟩
abbrev main_v39 : Ref sig .tc := ⟨.hbm, 122, rfl⟩
abbrev main_v40 : Ref sig .tc := ⟨.hbm, 123, rfl⟩
abbrev main_v41 : Ref sig .tc := ⟨.hbm, 124, rfl⟩
abbrev main_v42 : Ref sig .tc := ⟨.hbm, 125, rfl⟩
abbrev main_v43 : Ref sig .tc := ⟨.hbm, 126, rfl⟩
abbrev main_v44 : Ref sig .tc := ⟨.hbm, 127, rfl⟩
abbrev main_v45 : Ref sig .tc := ⟨.hbm, 128, rfl⟩
abbrev main_v46 : Ref sig .tc := ⟨.hbm, 129, rfl⟩
abbrev main_v47 : Ref sig .tc := ⟨.hbm, 130, rfl⟩
abbrev main_v48 : Ref sig .tc := ⟨.hbm, 131, rfl⟩
abbrev main_v49 : Ref sig .tc := ⟨.hbm, 132, rfl⟩
abbrev main_v50 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem7_1 : DmaSem sig := 24

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S6000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  bitsLt_bf16_f32 : FTy.bits .bf16 < FTy.bits .f32
  slices_S384x128_S128x128_0_0 : S384x128.Slices ![0, 0] S128x128
  slices_S384x128_S128x128_128_0 : S384x128.Slices ![128, 0] S128x128
  slices_S384x128_S128x128_256_0 : S384x128.Slices ![256, 0] S128x128
  shapeCasts_S128_S1x128 : S128.ShapeCasts S1x128
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6000x128 : S1x128.Broadcasts S6000x128
  bcast_S_S50000x128 : S_.BroadcastsInDim S50000x128 (![] : Fin 0 → Fin S50000x128.rank)
  slices_S256x128_S128x128_0_0 : S256x128.Slices ![0, 0] S128x128
  slices_S256x128_S128x128_128_0 : S256x128.Slices ![128, 0] S128x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S1x128_S10000x128 : S1x128.Broadcasts S10000x128
  reducesTo_S50000x128_S128_d0 : S50000x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  dot_S6000x128_S128x128_S6000x128_1_0_0_1_n_n_wf : DotDims.WF S6000x128 S128x128 S6000x128 [1] [0] [0] [1] [] []
  scatter_S50000x128_S600000x1_S600000x128_1_0_0_1_wf : ScatterDims.WF S50000x128 S600000x1 S600000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x128.size a ≤ S600000x128.size a
  hwx0_0 : ∀ i : grid0.Coords, EltTy.bits .bf16 = 32 ∨ (Rect.block (s := S600000x128) S6000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x128.size a ≤ S600000x128.size a
  hwx0_1 : ∀ i : grid0.Coords, EltTy.bits .bf16 = 32 ∨ (Rect.block (s := S600000x128) S6000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6000x128.size a ≤ S600000x128.size a
  hwx0_2 : ∀ i : grid0.Coords, EltTy.bits .bf16 = 32 ∨ (Rect.block (s := S600000x128) S6000x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S6000x128.size a ≤ S600000x128.size a
  hwx0_9 : ∀ i : grid0.Coords, EltTy.bits .f32 = 32 ∨ (Rect.block (s := S600000x128) S6000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .bf16 = 32 ∨ (Rect.block (s := S50000x128) S10000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S50000x128.size a
  hwx1_1 : ∀ i : grid1.Coords, EltTy.bits .bf16 = 32 ∨ (Rect.block (s := S50000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x128.size a ≤ S50000x128.size a
  hwx1_7 : ∀ i : grid1.Coords, EltTy.bits .f32 = 32 ∨ (Rect.block (s := S50000x128) S10000x128.size (cc1_transform_7 i) (hinb1_7 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S6000x128_S128x128_S6000x128_1_0_0_1_n_n : DotDims S6000x128 S128x128 S6000x128 where
  lhsContracting := [1]
  rhsContracting := [0]
  lhsNonContracting := [0]
  rhsNonContracting := [1]
  lhsBatch := []
  rhsBatch := []
  wf := dot_S6000x128_S128x128_S6000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v6) S6000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S6000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S6000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18) S6000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v22) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v31) S10000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000x128 : Shape := ⟨2, ![600000, 128]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x384 : Shape := ⟨2, ![600000, 384]⟩
abbrev S1x128 : Shape := ⟨2, ![1, 128]⟩
abbrev S50000x256 : Shape := ⟨2, ![50000, 256]⟩

abbrev nBuf : Space → Nat
  | .hbm => 129
  | .vmem => 0
  | .smem => 0
  | _ => 0

abbrev hbmTy0_0 (i : Nat) : BufTy := match i % 128 with
  | 0 => ⟨S50000x128, .f32⟩
  | 1 => ⟨S2x600000, .i32⟩
  | 2 => ⟨S600000x128, .f32⟩
  | 3 => ⟨S384x128, .f32⟩
  | 4 => ⟨S128, .f32⟩
  | 5 => ⟨S128x128, .f32⟩
  | 6 => ⟨S128, .f32⟩
  | 7 => ⟨S256x128, .f32⟩
  | 8 => ⟨S128, .f32⟩
  | 9 => ⟨S128x128, .f32⟩
  | 10 => ⟨S128, .f32⟩
  | 11 => ⟨S128, .f32⟩
  | 12 => ⟨S128, .f32⟩
  | 13 => ⟨S1x600000, .i32⟩
  | 14 => ⟨S600000, .i32⟩
  | 15 => ⟨S1x600000, .i32⟩
  | 16 => ⟨S600000, .i32⟩
  | 17 => ⟨S_, .i32⟩
  | 18 => ⟨S600000, .i32⟩
  | 19 => ⟨S600000, .i1⟩
  | 20 => ⟨S_, .i32⟩
  | 21 => ⟨S600000, .i32⟩
  | 22 => ⟨S600000, .i32⟩
  | 23 => ⟨S600000, .i32⟩
  | 24 => ⟨S600000x1, .i32⟩
  | 25 => ⟨S600000x128, .f32⟩
  | 26 => ⟨S_, .i32⟩
  | 27 => ⟨S600000, .i32⟩
  | 28 => ⟨S600000, .i1⟩
  | 29 => ⟨S_, .i32⟩
  | 30 => ⟨S600000, .i32⟩
  | 31 => ⟨S600000, .i32⟩
  | 32 => ⟨S600000, .i32⟩
  | 33 => ⟨S600000x1, .i32⟩
  | 34 => ⟨S600000x128, .f32⟩
  | 35 => ⟨S600000x384, .f32⟩
  | 36 => ⟨S600000x128, .f32⟩
  | 37 => ⟨S1x128, .f32⟩
  | 38 => ⟨S600000x128, .f32⟩
  | 39 => ⟨S600000x128, .f32⟩
  | 40 => ⟨S_, .f32⟩
  | 41 => ⟨S600000x128, .f32⟩
  | 42 => ⟨S600000x128, .f32⟩
  | 43 => ⟨S600000x128, .f32⟩
  | 44 => ⟨S600000x128, .f32⟩
  | 45 => ⟨S600000x128, .i1⟩
  | 46 => ⟨S600000x128, .f32⟩
  | 47 => ⟨S600000x128, .f32⟩
  | 48 => ⟨S600000x128, .f32⟩
  | 49 => ⟨S600000x128, .f32⟩
  | 50 => ⟨S600000x128, .f32⟩
  | 51 => ⟨S600000x128, .f32⟩
  | 52 => ⟨S600000x128, .f32⟩
  | 53 => ⟨S600000x128, .f32⟩
  | 54 => ⟨S600000x128, .f32⟩
  | 55 => ⟨S1x128, .f32⟩
  | 56 => ⟨S600000x128, .f32⟩
  | 57 => ⟨S600000x128, .f32⟩
  | 58 => ⟨S_, .f32⟩
  | 59 => ⟨S50000x128, .f32⟩
  | 60 => ⟨S600000x1, .i32⟩
  | 61 => ⟨S50000x128, .f32⟩
  | 62 => ⟨S50000x256, .f32⟩
  | 63 => ⟨S50000x128, .f32⟩
  | 64 => ⟨S1x128, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S50000x128, .f32⟩
  | 71 => ⟨S50000x128, .f32⟩
  | 72 => ⟨S50000x128, .i1⟩
  | 73 => ⟨S50000x128, .f32⟩
  | 74 => ⟨S50000x128, .f32⟩
  | 75 => ⟨S50000x128, .f32⟩
  | 76 => ⟨S50000x128, .f32⟩
  | 77 => ⟨S50000x128, .f32⟩
  | 78 => ⟨S50000x128, .f32⟩
  | 79 => ⟨S50000x128, .f32⟩
  | 80 => ⟨S50000x128, .f32⟩
  | 81 => ⟨S50000x128, .f32⟩
  | 82 => ⟨S1x128, .f32⟩
  | 83 => ⟨S50000x128, .f32⟩
  | 84 => ⟨S50000x128, .f32⟩
  | 85 => ⟨S_, .f32⟩
  | 86 => ⟨S128, .f32⟩
  | 87 => ⟨S_, .f32⟩
  | 88 => ⟨S128, .f32⟩
  | 89 => ⟨S128, .f32⟩
  | 90 => ⟨S_, .i32⟩
  | 91 => ⟨S_, .f32⟩
  | 92 => ⟨S128, .f32⟩
  | 93 => ⟨S1x128, .f32⟩
  | 94 => ⟨S_, .f32⟩
  | 95 => ⟨S1x128, .f32⟩
  | 96 => ⟨S1x128, .f32⟩
  | 97 => ⟨S50000x128, .f32⟩
  | 98 => ⟨S50000x128, .f32⟩
  | 99 => ⟨S50000x128, .f32⟩
  | 100 => ⟨S_, .f32⟩
  | 101 => ⟨S_, .f32⟩
  | 102 => ⟨S_, .f32⟩
  | 103 => ⟨S_, .f32⟩
  | 104 => ⟨S128, .f32⟩
  | 105 => ⟨S128, .f32⟩
  | 106 => ⟨S128, .f32⟩
  | 107 => ⟨S_, .f32⟩
  | 108 => ⟨S_, .i1⟩
  | 109 => ⟨S_, .f32⟩
  | 110 => ⟨S_, .f32⟩
  | 111 => ⟨S128, .f32⟩
  | 112 => ⟨S128, .f32⟩
  | 113 => ⟨S1x128, .f32⟩
  | 114 => ⟨S50000x128, .f32⟩
  | 115 => ⟨S50000x128, .f32⟩
  | 116 => ⟨S_, .f32⟩
  | 117 => ⟨S128, .f32⟩
  | 118 => ⟨S128, .f32⟩
  | 119 => ⟨S128, .f32⟩
  | 120 => ⟨S1x128, .f32⟩
  | 121 => ⟨S50000x128, .f32⟩
  | 122 => ⟨S50000x128, .f32⟩
  | 123 => ⟨S1x128, .f32⟩
  | 124 => ⟨S50000x128, .f32⟩
  | 125 => ⟨S50000x128, .f32⟩
  | 126 => ⟨S1x128, .f32⟩
  | 127 => ⟨S50000x128, .f32⟩
  | _ => ⟨S50000x128, .f32⟩

abbrev hbmTy0_1 (i : Nat) : BufTy := match i % 128 with
  | 0 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call0_cst : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_cst : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_call1_cst : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_v6 : Ref sig .tc := ⟨.hbm, 74, rfl⟩
abbrev main_call1_v7 : Ref sig .tc := ⟨.hbm, 75, rfl⟩
abbrev main_call1_v8 : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_cst_3 : Ref sig .tc := ⟨.hbm, 85, rfl⟩
abbrev main_v41 : Ref sig .tc := ⟨.hbm, 86, rfl⟩
abbrev main_cst_4 : Ref sig .tc := ⟨.hbm, 87, rfl⟩
abbrev main_v42 : Ref sig .tc := ⟨.hbm, 88, rfl⟩
abbrev main_v43 : Ref sig .tc := ⟨.hbm, 89, rfl⟩
abbrev main_c_5 : Ref sig .tc := ⟨.hbm, 90, rfl⟩
abbrev main_call2_cst : Ref sig .tc := ⟨.hbm, 91, rfl⟩
abbrev main_call2_v0 : Ref sig .tc := ⟨.hbm, 92, rfl⟩
abbrev main_call2_v1 : Ref sig .tc := ⟨.hbm, 93, rfl⟩
abbrev main_call2_cst_0 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_v6 : Ref sig .tc := ⟨.hbm, 99, rfl⟩
abbrev main_call2_v7 : Ref sig .tc := ⟨.hbm, 100, rfl⟩
abbrev main_call2_cst_1 : Ref sig .tc := ⟨.hbm, 101, rfl⟩
abbrev main_call2_v8 : Ref sig .tc := ⟨.hbm, 102, rfl⟩
abbrev main_call2_cst_2 : Ref sig .tc := ⟨.hbm, 103, rfl⟩
abbrev main_call2_v9 : Ref sig .tc := ⟨.hbm, 104, rfl⟩
abbrev main_call2_v10 : Ref sig .tc := ⟨.hbm, 105, rfl⟩
abbrev main_call2_v11 : Ref sig .tc := ⟨.hbm, 106, rfl⟩
abbrev main_call2_cst_3 : Ref sig .tc := ⟨.hbm, 107, rfl⟩
abbrev main_call2_v12 : Ref sig .tc := ⟨.hbm, 108, rfl⟩
abbrev main_call2_cst_4 : Ref sig .tc := ⟨.hbm, 109, rfl⟩
abbrev main_call2_call0_v0 : Ref sig .tc := ⟨.hbm, 110, rfl⟩
abbrev main_call2_call0_v1 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_cst_6 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev main_v59 : Ref sig .tc := ⟨.hbm, 128, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S600000x128_S600000x384_d1 : Shape.Concatenates [S600000x128, S600000x128, S600000x128] S600000x384 1
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  gather_S50000x128_S600000x1_S600000x128_1_0_n_n_0_1_1128_wf : GatherDims.WF S50000x128 S600000x1 S600000x128 [1] [0] [] [0] [] 1 ![1, 128]
  dot_S600000x384_S384x128_S600000x128_1_0_0_1_n_n_wf : DotDims.WF S600000x384 S384x128 S600000x128 [1] [0] [0] [1] [] []
  dot_S600000x128_S128x128_S600000x128_1_0_0_1_n_n_wf : DotDims.WF S600000x128 S128x128 S600000x128 [1] [0] [0] [1] [] []
  scatter_S50000x128_S600000x1_S600000x128_1_0_0_1_wf : ScatterDims.WF S50000x128 S600000x1 S600000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x384_S384x128_S600000x128_1_0_0_1_n_n : DotDims S600000x384 S384x128 S600000x128 where
  lhsContracting := [1]
  rhsContracting := [0]
  lhsNonContracting := [0]
  rhsNonContracting := [1]
  lhsBatch := []
  rhsBatch := []
  wf := dot_S600000x384_S384x128_S600000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KStages.lean ====
/-
  The kernel program's host stages as array functions: the two index rows of the edge list, the negative-index wrap,
  `jnp.take` with its out-of-range fill, the scatter-add onto the source nodes, and batch normalisation.
-/
import proofs.«419319_j7275674599845_1_alg».proof.KernelIdeal

noncomputable section

namespace Cert.KernelIdeal.St

open Idealize.ShloMosaic Cert.KernelIdeal Cert.KernelIdeal.Facts₀ Cert.KernelIdeal.Facts

variable {F : FTy → Type} [FloatOps F] [Facts]

/-- Row `r` of the edge list as a vector of 600000 node ids. -/
def idxRow0 (ei : IVec S2x600000 32) : IVec S600000 32 :=
  shapeCast S600000 (extractStridedSlice S1x600000 ![0, 0] ei slices_S2x600000_S1x600000_0_0) shapeCasts_S1x600000_S600000
def idxRow1 (ei : IVec S2x600000 32) : IVec S600000 32 :=
  shapeCast S600000 (extractStridedSlice S1x600000 ![1, 0] ei slices_S2x600000_S1x600000_1_0) shapeCasts_S1x600000_S600000

/-- A negative id counts from the end: `r + 50000` where `r < 0`; then one index column per edge. -/
def wrap (r : IVec S600000 32) : IVec S600000x1 32 :=
  broadcastInDim S600000x1 ![0] bcast_S600000_S600000x1_0
    (select (cmpi .slt r (broadcastInDim S600000 ![] bcast_S_S600000 (constantI S_ 32 0#32)))
      (addi r (broadcastInDim S600000 ![] bcast_S_S600000 (constantI S_ 32 50000#32))) r)

/-- Which edges' wrapped ids lie in `[0, 49999]`: `jnp.take`'s fill mask, one bit per edge. -/
def inRange (r : IVec S600000 32) : IVec S600000 1 :=
  Host.reduce IntOp.andi
    (andi (cmpi .sge (wrap r) (broadcastInDim S600000x1 ![] bcast_S_S600000x1 (constantI S_ 32 0#32)))
      (cmpi .sle (wrap r) (broadcastInDim S600000x1 ![0, 1] bcast_S1x1_S600000x1_0_1
        (broadcastInDim S1x1 ![1] bcast_S1_S1x1_1 (constantI S1 32 49999#32)))))
    (constantI S_ 1 1#1) reducesTo_S600000x1_S600000_d1 h_S_

/-- `jnp.take(nf, r, axis=0)`: the gathered rows where the wrapped id is in range, the fill pattern elsewhere. -/
def take (nf : FVec F S50000x128 .f32) (r : IVec S600000 32) : FVec F S600000x128 .f32 :=
  select (broadcastInDim S600000x128 ![0] bcast_S600000_S600000x128_0 (inRange r))
    (Host.gather gather_S50000x128_S600000x1_S600000x128_1_0_n_n_0_1_1128 nf (wrap r))
    (broadcastInDim S600000x128 ![] bcast_S_S600000x128 (constant S_ .f32 0x7FC00000#32))

/-- Messages summed onto their source nodes (an id outside the node range drops its message). -/
def agg (ms : FVec F S600000x128 .f32) (r : IVec S600000 32) : FVec F S50000x128 .f32 :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 r) ms

/-- The column means over the 50000 nodes. -/
def colMean (x : FVec F S50000x128 .f32) : FVec F S128 .f32 :=
  Host.divf (Host.reduceAdd x (constant S_ .f32 0x00000000#32) reducesTo_S50000x128_S128_d0 h_S_)
    (broadcastInDim S128 ![] bcast_S_S128 (constant S_ .f32 0x47435000#32))

/-- The biased column variances as `jnp.var` computes them (its guard on the divisor included). -/
def colVar (x : FVec F S50000x128 .f32) : FVec F S128 .f32 :=
  select (broadcastInDim S128 ![] bcast_S_S128
      (cmpf .ogt (subf (constant (F := F) S_ .f32 0x47435000#32) (sitofp (F := F) .f32 (constantI S_ 32 0#32))) (constant (F := F) S_ .f32 0x00000000#32)))
    (Host.divf
      (Host.reduceAdd
        (mulf
          (subf x (broadcastInDim S50000x128 ![0, 1] bcast_S1x128_S50000x128_0_1
            (Host.divf (broadcastInDim S1x128 ![1] bcast_S128_S1x128_1
                (Host.reduceAdd x (constant S_ .f32 0x00000000#32) reducesTo_S50000x128_S128_d0 h_S_))
              (broadcastInDim S1x128 ![] bcast_S_S1x128 (constant S_ .f32 0x47435000#32)))))
          (subf x (broadcastInDim S50000x128 ![0, 1] bcast_S1x128_S50000x128_0_1
            (Host.divf (broadcastInDim S1x128 ![1] bcast_S128_S1x128_1
                (Host.reduceAdd x (constant S_ .f32 0x00000000#32) reducesTo_S50000x128_S128_d0 h_S_))
              (broadcastInDim S1x128 ![] bcast_S_S1x128 (constant S_ .f32 0x47435000#32))))))
        (constant S_ .f32 0x00000000#32) reducesTo_S50000x128_S128_d0 h_S_)
      (broadcastInDim S128 ![] bcast_S_S128
        (subf (constant S_ .f32 0x47435000#32) (sitofp .f32 (constantI S_ 32 0#32)))))
    (broadcastInDim S128 ![] bcast_S_S128 (id (constant S_ .f32 0x7FC00000#32)))

/-- Batch normalisation over the node axis, then the affine map. -/
def bn (x : FVec F S50000x128 .f32) (gamma beta : FVec F S128 .f32) : FVec F S50000x128 .f32 :=
  addf
    (mulf
      (mulf
        (subf x (broadcastInDim S50000x128 ![0, 1] bcast_S1x128_S50000x128_0_1 (broadcastInDim S1x128 ![1] bcast_S128_S1x128_1 (colMean x))))
        (broadcastInDim S50000x128 ![0, 1] bcast_S1x128_S50000x128_0_1 (broadcastInDim S1x128 ![1] bcast_S128_S1x128_1
          (Host.rsqrt (addf (colVar x) (broadcastInDim S128 ![] bcast_S_S128 (constant S_ .f32 0x3727C5AC#32)))))))
      (broadcastInDim S50000x128 ![0, 1] bcast_S1x128_S50000x128_0_1 (broadcastInDim S1x128 ![1] bcast_S128_S1x128_1 gamma)))
    (broadcastInDim S50000x128 ![0, 1] bcast_S1x128_S50000x128_0_1 (broadcastInDim S1x128 ![1] bcast_S128_S1x128_1 beta))

end Cert.KernelIdeal.St

end
-- ==== Proof.Spec.lean ====
/-
  The arithmetic both programs share, on the extended reals, one row at a time.

  A row of the message network and a row of the update network are the same two-layer perceptron: a linear map of the
  row's inputs plus a bias, the softplus `max(x, 0) + log(1 + exp(-|x - 0|))`, a second linear map plus a bias. The
  kernel takes the first linear map as a sum of partial products, one per input block, each over 128 features; the
  reference takes it as one product over the concatenated row. Addition on the extended reals is commutative and
  associative, so a sum over 384 (or 256) features splits into its blocks of 128 without any finiteness.
-/
import Idealize.ShloMosaic.PureOps.Ideal
import Idealize.ShloMosaic.PureOps.Ideal.Laws
import Mathlib.Algebra.BigOperators.Fin

noncomputable section

namespace Cert.Spec

open Idealize.ShloMosaic

/-- Softplus as both programs spell it: `max(x, 0) + log1p(exp(-|x - 0|))`, with `|y| = max y (-y)`. -/
def sp (x : EReal) : EReal := max x 0 + Ideal.log1p (Ideal.exp (-(max (x - 0) (-(x - 0)))))

/-- A row of three input blocks, the kernel's arrangement: three partial products summed left to right, the bias,
    softplus, the second product, the second bias; entry `j` of the result. -/
def mlp3K (x0 x1 x2 : Fin 128 → EReal) (w0 w1 w2 : Fin 128 → Fin 128 → EReal) (b1 : Fin 128 → EReal)
    (w : Fin 128 → Fin 128 → EReal) (b2 : Fin 128 → EReal) (j : Fin 128) : EReal :=
  (∑ k : Fin 128, sp ((((∑ i : Fin 128, x0 i * w0 i k) + (∑ i : Fin 128, x1 i * w1 i k)) + (∑ i : Fin 128, x2 i * w2 i k)) + b1 k) * w k j) + b2 j

/-- A row of two input blocks, the kernel's arrangement. -/
def mlp2K (x0 x1 : Fin 128 → EReal) (w0 w1 : Fin 128 → Fin 128 → EReal) (b1 : Fin 128 → EReal)
    (w : Fin 128 → Fin 128 → EReal) (b2 : Fin 128 → EReal) (j : Fin 128) : EReal :=
  (∑ k : Fin 128, sp (((∑ i : Fin 128, x0 i * w0 i k) + (∑ i : Fin 128, x1 i * w1 i k)) + b1 k) * w k j) + b2 j

/-- The reference's arrangement: one product over the whole row of `n` features. -/
def mlpR {n : Nat} (x : Fin n → EReal) (W : Fin n → Fin 128 → EReal) (b1 : Fin 128 → EReal)
    (w : Fin 128 → Fin 128 → EReal) (b2 : Fin 128 → EReal) (j : Fin 128) : EReal :=
  (∑ k : Fin 128, sp ((∑ i : Fin n, x i * W i k) + b1 k) * w k j) + b2 j

/-- Three blocks of 128 laid side by side. -/
def cat3 (x0 x1 x2 : Fin 128 → EReal) : Fin 384 → EReal := fun i =>
  if h : i.val < 128 then x0 ⟨i.val, h⟩
  else if h2 : i.val < 256 then x1 ⟨i.val - 128, by omega⟩
  else x2 ⟨i.val - 256, by omega⟩

/-- Two blocks of 128 laid side by side. -/
def cat2 (x0 x1 : Fin 128 → EReal) : Fin 256 → EReal := fun i =>
  if h : i.val < 128 then x0 ⟨i.val, h⟩ else x1 ⟨i.val - 128, by omega⟩

/-- A sum over 384 features is the sum of its three blocks of 128 (commutativity and associativity only). -/
theorem sum_split3 (f : Fin 384 → EReal) :
    (∑ i : Fin 384, f i) = ((∑ i : Fin 128, f ⟨i.val, by omega⟩) + (∑ i : Fin 128, f ⟨128 + i.val, by omega⟩))
      + (∑ i : Fin 128, f ⟨256 + i.val, by omega⟩) := by
  have h1 : (∑ i : Fin 384, f i)
      = (∑ i : Fin 256, f ⟨i.val, by omega⟩) + (∑ i : Fin 128, f ⟨256 + i.val, by omega⟩) :=
    Fin.sum_univ_add (a := 256) (b := 128) f
  have h2 : (∑ i : Fin 256, f ⟨i.val, by omega⟩)
      = (∑ i : Fin 128, f ⟨i.val, by omega⟩) + (∑ i : Fin 128, f ⟨128 + i.val, by omega⟩) :=
    Fin.sum_univ_add (a := 128) (b := 128) (fun i : Fin 256 => f ⟨i.val, by omega⟩)
  rw [h1, h2]

/-- A sum over 256 features is the sum of its two blocks of 128. -/
theorem sum_split2 (f : Fin 256 → EReal) :
    (∑ i : Fin 256, f i) = (∑ i : Fin 128, f ⟨i.val, by omega⟩) + (∑ i : Fin 128, f ⟨128 + i.val, by omega⟩) := by
  exact Fin.sum_univ_add (a := 128) (b := 128) f

/-- The first block of three laid side by side. -/
theorem cat3_lo (x0 x1 x2 : Fin 128 → EReal) (i : Fin 128) :
    cat3 x0 x1 x2 ⟨i.val, by omega⟩ = x0 i := by
  have h : i.val < 128 := i.isLt
  simp only [cat3, dif_pos h]

/-- The second block of three laid side by side. -/
theorem cat3_mid (x0 x1 x2 : Fin 128 → EReal) (i : Fin 128) :
    cat3 x0 x1 x2 ⟨128 + i.val, by omega⟩ = x1 i := by
  have h1 : ¬ (128 + i.val < 128) := by omega
  have h2 : 128 + i.val < 256 := by omega
  simp only [cat3, dif_neg h1, dif_pos h2]
  congr 1
  apply Fin.ext
  simp

/-- The third block of three laid side by side. -/
theorem cat3_hi (x0 x1 x2 : Fin 128 → EReal) (i : Fin 128) :
    cat3 x0 x1 x2 ⟨256 + i.val, by omega⟩ = x2 i := by
  have h1 : ¬ (256 + i.val < 128) := by omega
  have h2 : ¬ (256 + i.val < 256) := by omega
  simp only [cat3, dif_neg h1, dif_neg h2]
  congr 1
  apply Fin.ext
  simp

/-- The first block of two laid side by side. -/
theorem cat2_lo (x0 x1 : Fin 128 → EReal) (i : Fin 128) :
    cat2 x0 x1 ⟨i.val, by omega⟩ = x0 i := by
  have h : i.val < 128 := i.isLt
  simp only [cat2, dif_pos h]

/-- The second block of two laid side by side. -/
theorem cat2_hi (x0 x1 : Fin 128 → EReal) (i : Fin 128) :
    cat2 x0 x1 ⟨128 + i.val, by omega⟩ = x1 i := by
  have h1 : ¬ (128 + i.val < 128) := by omega
  simp only [cat2, dif_neg h1]
  congr 1
  apply Fin.ext
  simp

/-- The reference's row over three concatenated blocks is the kernel's row over the blocks and the matching
    row-blocks of the weight matrix. -/
theorem mlpR_cat3 (x0 x1 x2 : Fin 128 → EReal) (W : Fin 384 → Fin 128 → EReal) (b1 : Fin 128 → EReal)
    (w : Fin 128 → Fin 128 → EReal) (b2 : Fin 128 → EReal) (j : Fin 128) :
    mlpR (cat3 x0 x1 x2) W b1 w b2 j
      = mlp3K x0 x1 x2 (fun i k => W ⟨i.val, by omega⟩ k) (fun i k => W ⟨128 + i.val, by omega⟩ k)
          (fun i k => W ⟨256 + i.val, by omega⟩ k) b1 w b2 j := by
  unfold mlpR mlp3K
  congr 1
  apply Finset.sum_congr rfl
  intro k _
  rw [sum_split3]
  simp only [cat3_lo, cat3_mid, cat3_hi]

/-- The same for two concatenated blocks. -/
theorem mlpR_cat2 (x0 x1 : Fin 128 → EReal) (W : Fin 256 → Fin 128 → EReal) (b1 : Fin 128 → EReal)
    (w : Fin 128 → Fin 128 → EReal) (b2 : Fin 128 → EReal) (j : Fin 128) :
    mlpR (cat2 x0 x1) W b1 w b2 j
      = mlp2K x0 x1 (fun i k => W ⟨i.val, by omega⟩ k) (fun i k => W ⟨128 + i.val, by omega⟩ k) b1 w b2 j := by
  unfold mlpR mlp2K
  congr 1
  apply Finset.sum_congr rfl
  intro k _
  rw [sum_split2]
  simp only [cat2_lo, cat2_hi]

end Cert.Spec

end
-- ==== Proof.KOut.lean ====
/-
  The kernel program's result as one function of its thirteen arguments: the message array (the message network's row
  on every edge over the two taken rows and the edge's attributes), its scatter-add onto the source nodes, the
  updated-node array (the update network's row on every node), and batch normalisation.
-/
import proofs.«419319_j7275674599845_1_alg».proof.Proof.KStages
import proofs.«419319_j7275674599845_1_alg».proof.Proof.Gen.KernelIdeal
import proofs.«419319_j7275674599845_1_alg».proof.Proof.Spec
import Idealize.ShloMosaic.Lib.ValueIdx

noncomputable section
namespace Cert.KernelIdeal.KValue
open Idealize.ShloMosaic Idealize.ShloMosaic.ValueIdx Cert.KernelIdeal

/-- The message array: on every edge the message network's row over the taken source row, the taken target row and the
    edge's attributes, with the three row-blocks of the first weight matrix. -/
def msgArr (a0 : FVec Ideal S50000x128 .f32) (a1 : IVec S2x600000 32) (a2 : FVec Ideal S600000x128 .f32) (a3 : FVec Ideal S384x128 .f32)
    (a4 : FVec Ideal S128 .f32) (a5 : FVec Ideal S128x128 .f32) (a6 : FVec Ideal S128 .f32) : S600000x128.Idx → EReal := fun i =>
  Spec.mlp3K (fun k => St.take a0 (St.idxRow0 a1) (ix2 (i 0) k)) (fun k => St.take a0 (St.idxRow1 a1) (ix2 (i 0) k)) (fun k => a2 (ix2 (i 0) k))
    (fun a k => extractStridedSlice S128x128 ![0, 0] a3 Facts₀.slices_S384x128_S128x128_0_0 (ix2 a k))
    (fun a k => extractStridedSlice S128x128 ![128, 0] a3 Facts₀.slices_S384x128_S128x128_128_0 (ix2 a k))
    (fun a k => extractStridedSlice S128x128 ![256, 0] a3 Facts₀.slices_S384x128_S128x128_256_0 (ix2 a k))
    (fun k => shapeCast S1x128 a4 Facts₀.shapeCasts_S128_S1x128 (ix2 (0 : Fin 1) k)) (fun a k => a5 (ix2 a k))
    (fun k => shapeCast S1x128 a6 Facts₀.shapeCasts_S128_S1x128 (ix2 (0 : Fin 1) k)) (i 1)

/-- The updated-node array: on every node the update network's row over its features and its aggregate, with the two
    row-blocks of the first weight matrix. -/
def updArr (a0 ag : FVec Ideal S50000x128 .f32) (a7 : FVec Ideal S256x128 .f32) (a8 : FVec Ideal S128 .f32)
    (a9 : FVec Ideal S128x128 .f32) (a10 : FVec Ideal S128 .f32) : S50000x128.Idx → EReal := fun i =>
  Spec.mlp2K (fun k => a0 (ix2 (i 0) k)) (fun k => ag (ix2 (i 0) k))
    (fun a k => extractStridedSlice S128x128 ![0, 0] a7 Facts₀.slices_S256x128_S128x128_0_0 (ix2 a k))
    (fun a k => extractStridedSlice S128x128 ![128, 0] a7 Facts₀.slices_S256x128_S128x128_128_0 (ix2 a k))
    (fun k => shapeCast S1x128 a8 Facts₀.shapeCasts_S128_S1x128 (ix2 (0 : Fin 1) k)) (fun a k => a9 (ix2 a k))
    (fun k => shapeCast S1x128 a10 Facts₀.shapeCasts_S128_S1x128 (ix2 (0 : Fin 1) k)) (i 1)

/-- The kernel program's result as a function of its thirteen arguments. -/
def out (a0 : FVec Ideal S50000x128 .f32) (a1 : IVec S2x600000 32) (a2 : FVec Ideal S600000x128 .f32) (a3 : FVec Ideal S384x128 .f32)
    (a4 : FVec Ideal S128 .f32) (a5 : FVec Ideal S128x128 .f32) (a6 : FVec Ideal S128 .f32) (a7 : FVec Ideal S256x128 .f32) (a8 : FVec Ideal S128 .f32)
    (a9 : FVec Ideal S128x128 .f32) (a10 : FVec Ideal S128 .f32) (a11 : FVec Ideal S128 .f32) (a12 : FVec Ideal S128 .f32) : FVec Ideal S50000x128 .f32 :=
  St.bn (updArr a0 (St.agg (msgArr a0 a1 a2 a3 a4 a5 a6) (St.idxRow0 a1)) a7 a8 a9 a10) a11 a12

end Cert.KernelIdeal.KValue
end
-- ==== Proof.KHost0.lean ====
/-
  The arrays region 0 of the kernel's @main finds, as functions of the launch contents: the host operations before the
  region composed (the index rows, the two takes, the format changes, the three row-blocks of the first weight matrix,
  the biases as 1 × 128 rows).
-/
import proofs.«419319_j7275674599845_1_alg».proof.Proof.Gen.KernelIdeal.Frame
import proofs.«419319_j7275674599845_1_alg».proof.Proof.KStages
import Idealize.ShloMosaic.Lib.StableHlo.Run

set_option maxRecDepth 16384

noncomputable section
namespace Cert.KernelIdeal.KHost
open Idealize.ShloMosaic Idealize.ShloMosaic.StableHlo Idealize.ShloMosaic.TcCoe Cert.KernelIdeal Cert.KernelIdeal.Gen
variable {F : FTy → Type} [FloatOps F]

-- the reductions and gathers are folds and searches over their operands' elements: kept folded while two spellings of one term are compared
attribute [local irreducible] Host.reduce Host.gather

/-- The contents after the four stretches of host operations before region 0, over any contents before them. -/
abbrev pre0 (V0 : Valuation τ sig (Elt F)) : Valuation τ sig (Elt F) :=
  after hostOps0_3 (after hostOps0_2 (after hostOps0_1 (after hostOps0 V0)))

set_option maxRecDepth 100000 in
set_option maxHeartbeats 4000000 in
theorem pre0_v1 (V0 : Valuation τ sig (Elt F)) :
    pre0 V0 (Proc.devRef .tc main_v1)
      = St.idxRow0 (V0 (Proc.devRef .tc main_arg1)) := by
  simp only [pre0, hostOps0, hostOps0_1, hostOps0_2, hostOps0_3]
  after_results_simp
  first | done | rfl | (simp only [St.take, St.inRange, St.wrap, St.idxRow0, St.idxRow1]; rfl)

set_option maxRecDepth 100000 in
set_option maxHeartbeats 4000000 in
theorem pre0_v6 (V0 : Valuation τ sig (Elt F)) :
    pre0 V0 (Proc.devRef .tc main_v6)
      = truncf .bf16 (St.take (V0 (Proc.devRef .tc main_arg0)) (St.idxRow0 (V0 (Proc.devRef .tc main_arg1)))) Facts₀.bitsLt_bf16_f32 := by
  simp only [pre0, hostOps0, hostOps0_1, hostOps0_2, hostOps0_3]
  after_results_simp
  first | done | rfl | (simp only [St.take, St.inRange, St.wrap, St.idxRow0, St.idxRow1]; rfl)

set_option maxRecDepth 100000 in
set_option maxHeartbeats 4000000 in
theorem pre0_v7 (V0 : Valuation τ sig (Elt F)) :
    pre0 V0 (Proc.devRef .tc main_v7)
      = truncf .bf16 (St.take (V0 (Proc.devRef .tc main_arg0)) (St.idxRow1 (V0 (Proc.devRef .tc main_arg1)))) Facts₀.bitsLt_bf16_f32 := by
  simp only [pre0, hostOps0, hostOps0_1, hostOps0_2, hostOps0_3]
  after_results_simp
  first | done | rfl | (simp only [St.take, St.inRange, St.wrap, St.idxRow0, St.idxRow1]; rfl)

set_option maxRecDepth 100000 in
set_option maxHeartbeats 4000000 in
theorem pre0_v8 (V0 : Valuation τ sig (Elt F)) :
    pre0 V0 (Proc.devRef .tc main_v8)
      = truncf .bf16 (V0 (Proc.devRef .tc main_arg2)) Facts₀.bitsLt_bf16_f32 := by
  simp only [pre0, hostOps0, hostOps0_1, hostOps0_2, hostOps0_3]
  after_results_simp
  first | done | rfl | (simp only [St.take, St.inRange, St.wrap, St.idxRow0, St.idxRow1]; rfl)

set_option maxRecDepth 100000 in
set_option maxHeartbeats 4000000 in
theorem pre0_v10 (V0 : Valuation τ sig (Elt F)) :
    pre0 V0 (Proc.devRef .tc main_v10)
      = truncf .bf16 (extractStridedSlice S128x128 ![0, 0] (V0 (Proc.devRef .tc main_arg3)) Facts₀.slices_S384x128_S128x128_0_0) Facts₀.bitsLt_bf16_f32 := by
  simp only [pre0, hostOps0, hostOps0_1, hostOps0_2, hostOps0_3]
  after_results_simp
  first | done | rfl | (simp only [St.take, St.inRange, St.wrap, St.idxRow0, St.idxRow1]; rfl)

set_option maxRecDepth 100000 in
set_option maxHeartbeats 4000000 in
theorem pre0_v12 (V0 : Valuation τ sig (Elt F)) :
    pre0 V0 (Proc.devRef .tc main_v12)
      = truncf .bf16 (extractStridedSlice S128x128 ![128, 0] (V0 (Proc.devRef .tc main_arg3)) Facts₀.slices_S384x128_S128x128_128_0) Facts₀.bitsLt_bf16_f32 := by
  simp only [pre0, hostOps0, hostOps0_1, hostOps0_2, hostOps0_3]
  after_results_simp
  first | done | rfl | (simp only [St.take, St.inRange, St.wrap, St.idxRow0, St.idxRow1]; rfl)

set_option maxRecDepth 100000 in
set_option maxHeartbeats 4000000 in
theorem pre0_v14 (V0 : Valuation τ sig (Elt F)) :
    pre0 V0 (Proc.devRef .tc main_v14)
      = truncf .bf16 (extractStridedSlice S128x128 ![256, 0] (V0 (Proc.devRef .tc main_arg3)) Facts₀.slices_S384x128_S128x128_256_0) Facts₀.bitsLt_bf16_f32 := by
  simp only [pre0, hostOps0, hostOps0_1, hostOps0_2, hostOps0_3]
  after_results_simp
  first | done | rfl | (simp only [St.take, St.inRange, St.wrap, St.idxRow0, St.idxRow1]; rfl)

set_option maxRecDepth 100000 in
set_option maxHeartbeats 4000000 in
theorem pre0_v15 (V0 : Valuation τ sig (Elt F)) :
    pre0 V0 (Proc.devRef .tc main_v15)
      = truncf .bf16 (V0 (Proc.devRef .tc main_arg5)) Facts₀.bitsLt_bf16_f32 := by
  simp only [pre0, hostOps0, hostOps0_1, hostOps0_2, hostOps0_3]
  after_results_simp
  first | done | rfl | (simp only [St.take, St.inRange, St.wrap, St.idxRow0, St.idxRow1]; rfl)

set_option maxRecDepth 100000 in
set_option maxHeartbeats 4000000 in
theorem pre0_v16 (V0 : Valuation τ sig (Elt F)) :
    pre0 V0 (Proc.devRef .tc main_v16)
      = shapeCast S1x128 (V0 (Proc.devRef .tc main_arg4)) Facts₀.shapeCasts_S128_S1x128 := by
  simp only [pre0, hostOps0, hostOps0_1, hostOps0_2, hostOps0_3]
  after_results_simp
  first | done | rfl | (simp only [St.take, St.inRange, St.wrap, St.idxRow0, St.idxRow1]; rfl)

set_option maxRecDepth 100000 in
set_option maxHeartbeats 4000000 in
theorem pre0_v17 (V0 : Valuation τ sig (Elt F)) :
    pre0 V0 (Proc.devRef .tc main_v17)
      = shapeCast S1x128 (V0 (Proc.devRef .tc main_arg6)) Facts₀.shapeCasts_S128_S1x128 := by
  simp only [pre0, hostOps0, hostOps0_1, hostOps0_2, hostOps0_3]
  after_results_simp
  first | done | rfl | (simp only [St.take, St.inRange, St.wrap, St.idxRow0, St.idxRow1]; rfl)

set_option maxRecDepth 100000 in
set_option maxHeartbeats 4000000 in
theorem pre0_arg0 (V0 : Valuation τ sig (Elt F)) :
    pre0 V0 (Proc.devRef .tc main_arg0)
      = V0 (Proc.devRef .tc main_arg0) := by
  simp only [pre0, hostOps0, hostOps0_1, hostOps0_2, hostOps0_3]
  after_results_simp
  first | done | rfl | (simp only [St.take, St.inRange, St.wrap, St.idxRow0, St.idxRow1]; rfl)

set_option maxRecDepth 100000 in
set_option maxHeartbeats 4000000 in
theorem pre0_arg7 (V0 : Valuation τ sig (Elt F)) :
    pre0 V0 (Proc.devRef .tc main_arg7)
      = V0 (Proc.devRef .tc main_arg7) := by
  simp only [pre0, hostOps0, hostOps0_1, hostOps0_2, hostOps0_3]
  after_results_simp
  first | done | rfl | (simp only [St.take, St.inRange, St.wrap, St.idxRow0, St.idxRow1]; rfl)

set_option maxRecDepth 100000 in
set_option maxHeartbeats 4000000 in
theorem pre0_arg8 (V0 : Valuation τ sig (Elt F)) :
    pre0 V0 (Proc.devRef .tc main_arg8)
      = V0 (Proc.devRef .tc main_arg8) := by
  simp only [pre0, hostOps0, hostOps0_1, hostOps0_2, hostOps0_3]
  after_results_simp
  first | done | rfl | (simp only [St.take, St.inRange, St.wrap, St.idxRow0, St.idxRow1]; rfl)

set_option maxRecDepth 100000 in
set_option maxHeartbeats 4000000 in
theorem pre0_arg9 (V0 : Valuation τ sig (Elt F)) :
    pre0 V0 (Proc.devRef .tc main_arg9)
      = V0 (Proc.devRef .tc main_arg9) := by
  simp only [pre0, hostOps0, hostOps0_1, hostOps0_2, hostOps0_3]
  after_results_simp
  first | done | rfl | (simp only [St.take, St.inRange, St.wrap, St.idxRow0, St.idxRow1]; rfl)

set_option maxRecDepth 100000 in
set_option maxHeartbeats 4000000 in
theorem pre0_arg10 (V0 : Valuation τ sig (Elt F)) :
    pre0 V0 (Proc.devRef .tc main_arg10)
      = V0 (Proc.devRef .tc main_arg10) := by
  simp only [pre0, hostOps0, hostOps0_1, hostOps0_2, hostOps0_3]
  after_results_simp
  first | done | rfl | (simp only [St.take, St.inRange, St.wrap, St.idxRow0, St.idxRow1]; rfl)

set_option maxRecDepth 100000 in
set_option maxHeartbeats 4000000 in
theorem pre0_arg11 (V0 : Valuation τ sig (Elt F)) :
    pre0 V0 (Proc.devRef .tc main_arg11)
      = V0 (Proc.devRef .tc main_arg11) := by
  simp only [pre0, hostOps0, hostOps0_1, hostOps0_2, hostOps0_3]
  after_results_simp
  first | done | rfl | (simp only [St.take, St.inRange, St.wrap, St.idxRow0, St.idxRow1]; rfl)

set_option maxRecDepth 100000 in
set_option maxHeartbeats 4000000 in
theorem pre0_arg12 (V0 : Valuation τ sig (Elt F)) :
    pre0 V0 (Proc.devRef .tc main_arg12)
      = V0 (Proc.devRef .tc main_arg12) := by
  simp only [pre0, hostOps0, hostOps0_1, hostOps0_2, hostOps0_3]
  after_results_simp
  first | done | rfl | (simp only [St.take, St.inRange, St.wrap, St.idxRow0, St.idxRow1]; rfl)

end Cert.KernelIdeal.KHost
end
-- ==== Proof.KHost1.lean ====
/-
  The arrays region 1 of the kernel's @main finds, as functions of the contents region 0 leaves (the scatter-add of the
  messages onto the source nodes, the format changes, the two row-blocks of the update network's first weight matrix,
  the biases as 1 × 128 rows), and the result as batch normalisation of what region 1 leaves.
-/
import proofs.«419319_j7275674599845_1_alg».proof.Proof.Gen.KernelIdeal.Frame
import proofs.«419319_j7275674599845_1_alg».proof.Proof.KStages
import Idealize.ShloMosaic.Lib.StableHlo.Run

set_option maxRecDepth 16384

noncomputable section
namespace Cert.KernelIdeal.KHost
open Idealize.ShloMosaic Idealize.ShloMosaic.StableHlo Idealize.ShloMosaic.TcCoe Cert.KernelIdeal Cert.KernelIdeal.Gen
variable {F : FTy → Type} [FloatOps F]

/-- The contents after the host operations between the two regions, over any contents before them. -/
abbrev mid (V0 : Valuation τ sig (Elt F)) : Valuation τ sig (Elt F) := after hostOps1 V0

/-- The contents after the three stretches of host operations that follow region 1. -/
abbrev post (V0 : Valuation τ sig (Elt F)) : Valuation τ sig (Elt F) :=
  after hostOps2_2 (after hostOps2_1 (after hostOps2 V0))

set_option maxRecDepth 100000 in
set_option maxHeartbeats 4000000 in
theorem mid_v22 (V0 : Valuation τ sig (Elt F)) :
    mid V0 (Proc.devRef .tc main_v22)
      = truncf .bf16 (V0 (Proc.devRef .tc main_arg0)) Facts₀.bitsLt_bf16_f32 := by
  simp only [mid, hostOps1]
  after_results_simp
  try rfl

set_option maxRecDepth 100000 in
set_option maxHeartbeats 4000000 in
theorem mid_v23 (V0 : Valuation τ sig (Elt F)) :
    mid V0 (Proc.devRef .tc main_v23)
      = truncf .bf16 (St.agg (V0 (Proc.devRef .tc main_v18)) (V0 (Proc.devRef .tc main_v1))) Facts₀.bitsLt_bf16_f32 := by
  simp only [mid, hostOps1]
  after_results_simp
  try rfl

set_option maxRecDepth 100000 in
set_option maxHeartbeats 4000000 in
theorem mid_v25 (V0 : Valuation τ sig (Elt F)) :
    mid V0 (Proc.devRef .tc main_v25)
      = truncf .bf16 (extractStridedSlice S128x128 ![0, 0] (V0 (Proc.devRef .tc main_arg7)) Facts₀.slices_S256x128_S128x128_0_0) Facts₀.bitsLt_bf16_f32 := by
  simp only [mid, hostOps1]
  after_results_simp
  try rfl

set_option maxRecDepth 100000 in
set_option maxHeartbeats 4000000 in
theorem mid_v27 (V0 : Valuation τ sig (Elt F)) :
    mid V0 (Proc.devRef .tc main_v27)
      = truncf .bf16 (extractStridedSlice S128x128 ![128, 0] (V0 (Proc.devRef .tc main_arg7)) Facts₀.slices_S256x128_S128x128_128_0) Facts₀.bitsLt_bf16_f32 := by
  simp only [mid, hostOps1]
  after_results_simp
  try rfl

set_option maxRecDepth 100000 in
set_option maxHeartbeats 4000000 in
theorem mid_v28 (V0 : Valuation τ sig (Elt F)) :
    mid V0 (Proc.devRef .tc main_v28)
      = truncf .bf16 (V0 (Proc.devRef .tc main_arg9)) Facts₀.bitsLt_bf16_f32 := by
  simp only [mid, hostOps1]
  after_results_simp
  try rfl

set_option maxRecDepth 100000 in
set_option maxHeartbeats 4000000 in
theorem mid_v29 (V0 : Valuation τ sig (Elt F)) :
    mid V0 (Proc.devRef .tc main_v29)
      = shapeCast S1x128 (V0 (Proc.devRef .tc main_arg8)) Facts₀.shapeCasts_S128_S1x128 := by
  simp only [mid, hostOps1]
  after_results_simp
  try rfl

set_option maxRecDepth 100000 in
set_option maxHeartbeats 4000000 in
theorem mid_v30 (V0 : Valuation τ sig (Elt F)) :
    mid V0 (Proc.devRef .tc main_v30)
      = shapeCast S1x128 (V0 (Proc.devRef .tc main_arg10)) Facts₀.shapeCasts_S128_S1x128 := by
  simp only [mid, hostOps1]
  after_results_simp
  try rfl

set_option maxRecDepth 100000 in
set_option maxHeartbeats 4000000 in
theorem mid_arg11 (V0 : Valuation τ sig (Elt F)) :
    mid V0 (Proc.devRef .tc main_arg11)
      = V0 (Proc.devRef .tc main_arg11) := by
  simp only [mid, hostOps1]
  after_results_simp
  try rfl

set_option maxRecDepth 100000 in
set_option maxHeartbeats 4000000 in
theorem mid_arg12 (V0 : Valuation τ sig (Elt F)) :
    mid V0 (Proc.devRef .tc main_arg12)
      = V0 (Proc.devRef .tc main_arg12) := by
  simp only [mid, hostOps1]
  after_results_simp
  try rfl

set_option maxRecDepth 100000 in
set_option maxHeartbeats 4000000 in
theorem post_v50 (V0 : Valuation τ sig (Elt F)) :
    post V0 (Proc.devRef .tc main_v50)
      = St.bn (V0 (Proc.devRef .tc main_v31)) (V0 (Proc.devRef .tc main_arg11)) (V0 (Proc.devRef .tc main_arg12)) := by
  simp only [post, hostOps2, hostOps2_1, hostOps2_2]
  after_results_simp
  try rfl

end Cert.KernelIdeal.KHost
end
-- ==== Proof.KPay0.lean ====
/-
  One entry of what a grid point of the message kernel stores, as arithmetic on the extended reals.

  A grid point holds three blocks of 6000 rows by 128 features (the gathered source rows, the gathered target rows, the
  edge attributes), three 128 x 128 row-blocks of the first weight matrix, its bias as one row, the second weight matrix
  and its bias. Entry (p, q) of the stored block depends on row p of the three input blocks only: the three products
  of that row with the weight blocks are summed, the bias is added, softplus is applied entry by entry, and the result is
  multiplied by column q of the second weight matrix and shifted by the second bias. On the extended reals a product
  into a zero accumulator is the plain sum over the 128 contracted features, a change of float format is the identity,
  and the guard "x differs from x" of the softplus is never true, so the guarded branch is the softplus formula itself.
-/
import proofs.«419319_j7275674599845_1_alg».proof.Proof.Gen.KernelIdeal.Skeleton
import proofs.«419319_j7275674599845_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.KPay

open Idealize.ShloMosaic Idealize.ShloMosaic.ValueIdx Idealize.SL.Sem
open Cert.KernelIdeal Cert.KernelIdeal.Gen

/-! ## The block product at an entry

The product contracts axis 1 of the 6000 x 128 block with axis 0 of the 128 x 128 block. Its left operand index at
output entry `i` and contraction position `q` is `(i 0, q)`, its right operand index `(q, i 1)`: one statement per
operand axis. -/

theorem lhs_mm0_0 (i : S6000x128.Idx) (q : dot_S6000x128_S128x128_S6000x128_1_0_0_1_n_n.contr.Idx) :
    (dot_S6000x128_S128x128_S6000x128_1_0_0_1_n_n.lhsIdx i q 0).val = (i 0).val := by
  unfold DotDims.lhsIdx
  rw [dif_neg (show ¬(0 : Fin S6000x128.rank) ∈ dot_S6000x128_S128x128_S6000x128_1_0_0_1_n_n.lhsBatch by decide),
    dif_pos (show (0 : Fin S6000x128.rank) ∈ dot_S6000x128_S128x128_S6000x128_1_0_0_1_n_n.lhsNonContracting by decide)]
  rfl
theorem lhs_mm0_1 (i : S6000x128.Idx) (q : dot_S6000x128_S128x128_S6000x128_1_0_0_1_n_n.contr.Idx) :
    (dot_S6000x128_S128x128_S6000x128_1_0_0_1_n_n.lhsIdx i q 1).val = (q ⟨0, by decide⟩).val :=
  dot_S6000x128_S128x128_S6000x128_1_0_0_1_n_n.lhsIdx_val_of_single rfl i q
theorem rhs_mm0_0 (i : S6000x128.Idx) (q : dot_S6000x128_S128x128_S6000x128_1_0_0_1_n_n.contr.Idx) :
    (dot_S6000x128_S128x128_S6000x128_1_0_0_1_n_n.rhsIdx i q 0).val = (q ⟨0, by decide⟩).val :=
  dot_S6000x128_S128x128_S6000x128_1_0_0_1_n_n.rhsIdx_val_of_single rfl i q
theorem rhs_mm0_1 (i : S6000x128.Idx) (q : dot_S6000x128_S128x128_S6000x128_1_0_0_1_n_n.contr.Idx) :
    (dot_S6000x128_S128x128_S6000x128_1_0_0_1_n_n.rhsIdx i q 1).val = (i 1).val := by
  unfold DotDims.rhsIdx
  rw [dif_neg (show ¬(1 : Fin S128x128.rank) ∈ dot_S6000x128_S128x128_S6000x128_1_0_0_1_n_n.rhsBatch by decide),
    dif_pos (show (1 : Fin S128x128.rank) ∈ dot_S6000x128_S128x128_S6000x128_1_0_0_1_n_n.rhsNonContracting by decide)]
  rfl

/-- Entry (p, q) of a block product into the zero block is the sum over the 128 contracted features. -/
theorem mm0_apply (x : FVec Ideal S6000x128 .bf16) (w : FVec Ideal S128x128 .bf16) (p : Fin 6000) (q : Fin 128) :
    matmul dot_S6000x128_S128x128_S6000x128_1_0_0_1_n_n none x w (constant S6000x128 .f32 0x00000000#32) (ix2 p q)
      = ∑ k : Fin 128, x (ix2 p k) * w (ix2 k q) := by
  show FloatOps.matmul _ none x w _ (ix2 p q) = _
  rw [Ideal.matmul_constant_zero_apply,
    ← Equiv.sum_comp (contrEquiv1 dot_S6000x128_S128x128_S6000x128_1_0_0_1_n_n 128 rfl rfl).symm]
  refine Finset.sum_congr rfl fun k _ => ?_
  have hk := contrEquiv1_symm_val dot_S6000x128_S128x128_S6000x128_1_0_0_1_n_n 128 rfl rfl k
  have el : dot_S6000x128_S128x128_S6000x128_1_0_0_1_n_n.lhsIdx (ix2 p q)
      ((contrEquiv1 dot_S6000x128_S128x128_S6000x128_1_0_0_1_n_n 128 rfl rfl).symm k) = ix2 p k :=
    funext fun a => Fin.ext (by
      match a with
      | ⟨0, _⟩ => exact lhs_mm0_0 _ _
      | ⟨1, _⟩ => exact (lhs_mm0_1 _ _).trans hk)
  have er : dot_S6000x128_S128x128_S6000x128_1_0_0_1_n_n.rhsIdx (ix2 p q)
      ((contrEquiv1 dot_S6000x128_S128x128_S6000x128_1_0_0_1_n_n 128 rfl rfl).symm k) = ix2 k q :=
    funext fun a => Fin.ext (by
      match a with
      | ⟨0, _⟩ => exact (rhs_mm0_0 _ _).trans hk
      | ⟨1, _⟩ => exact rhs_mm0_1 _ _)
  rw [el, er]

/-! ## The three payloads -/

/-- The second weight matrix passes through a cast to its own shape. -/
theorem pay3_eq (w : Vec Ideal S128x128 .bf16) : k0_pay3 (F := Ideal) w = w := by
  unfold k0_pay3
  exact shapeCast_self _ _

/-- On the extended reals a value is never different from itself. -/
theorem cmp_one_self (y : EReal) : Ideal.cmp .one y y = 0#1 := by
  simp [Ideal.cmp]

/-- Softplus as the kernel spells it, over any vector, at one index. -/
theorem softplus_apply {s : Shape} (H : FVec Ideal s .f32) (j : s.Idx) :
    truncf .bf16
      (select (cmpf .one (subf H (broadcast s (FloatOps.ofBits .f32 0x00000000#32))) (subf H (broadcast s (FloatOps.ofBits .f32 0x00000000#32))))
        (addf H (broadcast s (FloatOps.ofBits .f32 0x00000000#32)))
        (addf (maximumf H (broadcast s (FloatOps.ofBits .f32 0x00000000#32)))
          (log1p (exp (subf (broadcast s (FloatOps.ofBits .f32 0x00000000#32)) (absf (subf H (broadcast s (FloatOps.ofBits .f32 0x00000000#32)))))))))
      bitsLt_bf16_f32 j = Spec.sp (H j) := by
  show Scalar.select (Ideal.cmp .one (H j - Ideal.ofBits .f32 0x00000000#32) (H j - Ideal.ofBits .f32 0x00000000#32))
      (H j + Ideal.ofBits .f32 0x00000000#32)
      (max (H j) (Ideal.ofBits .f32 0x00000000#32)
        + Ideal.log1p (Ideal.exp (Ideal.ofBits .f32 0x00000000#32
            - max (H j - Ideal.ofBits .f32 0x00000000#32) (-(H j - Ideal.ofBits .f32 0x00000000#32))))) = _
  rw [cmp_one_self, select_zero, Ideal.ofBits_zero_f32, sub_eq_add_neg (0 : EReal), zero_add]
  rfl

/-- The hidden block at (p, k): softplus of the three partial products of row `p` summed left to right, plus the
    bias row at `k`. -/
theorem pay2_apply (x0 x1 x2 : FVec Ideal S6000x128 .bf16) (w0 w1 w2 : FVec Ideal S128x128 .bf16) (b : FVec Ideal S1x128 .f32)
    (p : Fin 6000) (k : Fin 128) :
    k0_pay2 (F := Ideal) x0 x1 x2 w0 w1 w2 b (ix2 p k)
      = Spec.sp ((((∑ i : Fin 128, x0 (ix2 p i) * w0 (ix2 i k)) + (∑ i : Fin 128, x1 (ix2 p i) * w1 (ix2 i k)))
          + (∑ i : Fin 128, x2 (ix2 p i) * w2 (ix2 i k))) + b (ix2 (0 : Fin 1) k)) := by
  unfold k0_pay2
  simp only [shapeCast_self]
  refine (softplus_apply _ (ix2 p k)).trans (congrArg Spec.sp ?_)
  rw [addf_apply, addf_apply, addf_apply, mm0_apply, mm0_apply, mm0_apply, broadcastTo_1b_ab_apply]

/-- The stored block at (p, q): the hidden row `p` times column `q` of the second weight matrix, plus the bias row at `q`. -/
theorem pay1_apply (h : FVec Ideal S6000x128 .bf16) (w : FVec Ideal S128x128 .bf16) (b : Vec Ideal S1x128 .f32)
    (p : Fin 6000) (q : Fin 128) :
    k0_pay1 (F := Ideal) h w b (ix2 p q) = (∑ k : Fin 128, h (ix2 p k) * w (ix2 k q)) + b (ix2 (0 : Fin 1) q) := by
  unfold k0_pay1
  simp only [shapeCast_self]
  rw [addf_apply, mm0_apply, broadcastTo_1b_ab_apply]

/-- One entry of what a grid point stores: the message network's row on the point's row `p` of the three input
    blocks, entry `q`. -/
theorem pay_apply (x0 x1 x2 : FVec Ideal S6000x128 .bf16) (w0 w1 w2 : FVec Ideal S128x128 .bf16) (b1 : FVec Ideal S1x128 .f32)
    (w : FVec Ideal S128x128 .bf16) (b2 : FVec Ideal S1x128 .f32) (p : Fin 6000) (q : Fin 128) :
    k0_pay1 (F := Ideal) (k0_pay2 x0 x1 x2 w0 w1 w2 b1) (k0_pay3 w) b2 (ix2 p q)
      = Spec.mlp3K (fun k => x0 (ix2 p k)) (fun k => x1 (ix2 p k)) (fun k => x2 (ix2 p k))
          (fun a k => w0 (ix2 a k)) (fun a k => w1 (ix2 a k)) (fun a k => w2 (ix2 a k)) (fun k => b1 (ix2 (0 : Fin 1) k))
          (fun a k => w (ix2 a k)) (fun k => b2 (ix2 (0 : Fin 1) k)) q := by
  rw [pay1_apply, pay3_eq]
  unfold Spec.mlp3K
  refine congrArg (· + b2 (ix2 (0 : Fin 1) q)) (Finset.sum_congr rfl fun k _ => ?_)
  rw [pay2_apply]

end Cert.KernelIdeal.KPay

end
-- ==== Proof.KVal0.lean ====
/-
  What region 0 of the kernel's @main leaves in its output array, as one function of the arrays the region finds.
-/
import proofs.«419319_j7275674599845_1_alg».proof.Proof.Gen.KernelIdeal.Frame
import proofs.«419319_j7275674599845_1_alg».proof.Proof.Spec
import proofs.«419319_j7275674599845_1_alg».proof.Proof.KPay0
import Idealize.ShloMosaic.Lib.ValueIdx
import Idealize.ShloMosaic.Lib.Pipeline.Value
import Idealize.ShloMosaic.PureOps.Ideal.Laws

set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- Entry (e, j) of the message array: the message network's row on edge `e`'s three input rows (gathered source
    features, gathered target features, edge attributes), the three row-blocks of the first weight matrix, its bias,
    the second weight matrix and its bias, all as the region finds them. -/
def G0 (c : Dev nD) : S600000x128.Idx → EReal := fun i =>
  Spec.mlp3K (fun k => V c main_v6 (ix2 (i 0) k)) (fun k => V c main_v7 (ix2 (i 0) k)) (fun k => V c main_v8 (ix2 (i 0) k))
    (fun a k => V c main_v10 (ix2 a k)) (fun a k => V c main_v12 (ix2 a k)) (fun a k => V c main_v14 (ix2 a k))
    (fun k => V c main_v16 (ix2 (0 : Fin 1) k)) (fun a k => V c main_v15 (ix2 a k)) (fun k => V c main_v17 (ix2 (0 : Fin 1) k)) (i 1)

/-- The zero offsets of a whole-block access, as a constant function. -/
theorem offsets_zero : (![0, 0] : Fin 2 → Nat) = fun _ => 0 := funext fun a => by fin_cases a <;> rfl

/-- The block index of every window at every grid point, decided over the 100 points: the output block of point `t` is
    row-block `t`, column-block 0; the three row-block inputs move with the output; the weights and biases stay at block
    (0, 0). -/
theorem block_indices : ∀ t : Fin cfg0.N,
    win0_9.index t (0 : Fin 2) = t.val ∧ win0_9.index t (1 : Fin 2) = 0
    ∧ win0_0.index t (0 : Fin 2) = win0_9.index t (0 : Fin 2) ∧ win0_0.index t (1 : Fin 2) = 0
    ∧ win0_1.index t (0 : Fin 2) = win0_9.index t (0 : Fin 2) ∧ win0_1.index t (1 : Fin 2) = 0
    ∧ win0_2.index t (0 : Fin 2) = win0_9.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-! ## The input blocks, read where the output block's rows lie

A block's coordinate in its array is block index times block size plus the coordinate inside the block. Row `p` of
an input row-block at point `t` is therefore array row `r` = (output row-block index) * 6000 + p, all 128 columns; the
weights and biases are whole arrays. -/

/-- The gathered source rows. -/
theorem rd_src (c : Dev nD) (t : Fin cfg0.N) (p : Fin 6000) (k : Fin 128) (r : Fin 600000)
    (hr : r.val = win0_9.index t (0 : Fin 2) * 6000 + 1 * p.val) :
    iblk0 (F := Ideal) V c 0 t (ix2 p k) = V c main_v6 (ix2 r k) := by
  obtain ⟨e90, e91, e00, e01, e10, e11, e20, e21, -⟩ := block_indices t
  show V c main_v6 (((cfg0.win 0).blk t).view.emb (ix2 p k)) = V c main_v6 (ix2 r k)
  refine congrArg (V c main_v6) (funext fun a => Fin.ext ?_)
  match a with
  | ⟨0, _⟩ => show win0_0.index t (0 : Fin 2) * 6000 + 1 * p.val = r.val; omega
  | ⟨1, _⟩ => show win0_0.index t (1 : Fin 2) * 128 + 1 * k.val = k.val; omega

/-- The gathered target rows. -/
theorem rd_dst (c : Dev nD) (t : Fin cfg0.N) (p : Fin 6000) (k : Fin 128) (r : Fin 600000)
    (hr : r.val = win0_9.index t (0 : Fin 2) * 6000 + 1 * p.val) :
    iblk0 (F := Ideal) V c 1 t (ix2 p k) = V c main_v7 (ix2 r k) := by
  obtain ⟨e90, e91, e00, e01, e10, e11, e20, e21, -⟩ := block_indices t
  show V c main_v7 (((cfg0.win 1).blk t).view.emb (ix2 p k)) = V c main_v7 (ix2 r k)
  refine congrArg (V c main_v7) (funext fun a => Fin.ext ?_)
  match a with
  | ⟨0, _⟩ => show win0_1.index t (0 : Fin 2) * 6000 + 1 * p.val = r.val; omega
  | ⟨1, _⟩ => show win0_1.index t (1 : Fin 2) * 128 + 1 * k.val = k.val; omega

/-- The edge attributes. -/
theorem rd_edge (c : Dev nD) (t : Fin cfg0.N) (p : Fin 6000) (k : Fin 128) (r : Fin 600000)
    (hr : r.val = win0_9.index t (0 : Fin 2) * 6000 + 1 * p.val) :
    iblk0 (F := Ideal) V c 2 t (ix2 p k) = V c main_v8 (ix2 r k) := by
  obtain ⟨e90, e91, e00, e01, e10, e11, e20, e21, -⟩ := block_indices t
  show V c main_v8 (((cfg0.win 2).blk t).view.emb (ix2 p k)) = V c main_v8 (ix2 r k)
  refine congrArg (V c main_v8) (funext fun a => Fin.ext ?_)
  match a with
  | ⟨0, _⟩ => show win0_2.index t (0 : Fin 2) * 6000 + 1 * p.val = r.val; omega
  | ⟨1, _⟩ => show win0_2.index t (1 : Fin 2) * 128 + 1 * k.val = k.val; omega

/-- The first row-block of the first weight matrix. -/
theorem rd_w0 (c : Dev nD) (t : Fin cfg0.N) (a : Fin 128) (k : Fin 128) :
    iblk0 (F := Ideal) V c 3 t (ix2 a k) = V c main_v10 (ix2 a k) := by
  obtain ⟨e90, e91, e00, e01, e10, e11, e20, e21, e30, e31, e40, e41, e50, e51, e60, e61, e70, e71, e80, e81⟩ := block_indices t
  show V c main_v10 (((cfg0.win 3).blk t).view.emb (ix2 a k)) = V c main_v10 (ix2 a k)
  refine congrArg (V c main_v10) (funext fun d => Fin.ext ?_)
  match d with
  | ⟨0, _⟩ => show win0_3.index t (0 : Fin 2) * 128 + 1 * a.val = a.val; omega
  | ⟨1, _⟩ => show win0_3.index t (1 : Fin 2) * 128 + 1 * k.val = k.val; omega

/-- Its second row-block. -/
theorem rd_w1 (c : Dev nD) (t : Fin cfg0.N) (a : Fin 128) (k : Fin 128) :
    iblk0 (F := Ideal) V c 4 t (ix2 a k) = V c main_v12 (ix2 a k) := by
  obtain ⟨e90, e91, e00, e01, e10, e11, e20, e21, e30, e31, e40, e41, e50, e51, e60, e61, e70, e71, e80, e81⟩ := block_indices t
  show V c main_v12 (((cfg0.win 4).blk t).view.emb (ix2 a k)) = V c main_v12 (ix2 a k)
  refine congrArg (V c main_v12) (funext fun d => Fin.ext ?_)
  match d with
  | ⟨0, _⟩ => show win0_4.index t (0 : Fin 2) * 128 + 1 * a.val = a.val; omega
  | ⟨1, _⟩ => show win0_4.index t (1 : Fin 2) * 128 + 1 * k.val = k.val; omega

/-- Its third row-block. -/
theorem rd_w2 (c : Dev nD) (t : Fin cfg0.N) (a : Fin 128) (k : Fin 128) :
    iblk0 (F := Ideal) V c 5 t (ix2 a k) = V c main_v14 (ix2 a k) := by
  obtain ⟨e90, e91, e00, e01, e10, e11, e20, e21, e30, e31, e40, e41, e50, e51, e60, e61, e70, e71, e80, e81⟩ := block_indices t
  show V c main_v14 (((cfg0.win 5).blk t).view.emb (ix2 a k)) = V c main_v14 (ix2 a k)
  refine congrArg (V c main_v14) (funext fun d => Fin.ext ?_)
  match d with
  | ⟨0, _⟩ => show win0_5.index t (0 : Fin 2) * 128 + 1 * a.val = a.val; omega
  | ⟨1, _⟩ => show win0_5.index t (1 : Fin 2) * 128 + 1 * k.val = k.val; omega

/-- The first bias. -/
theorem rd_b1 (c : Dev nD) (t : Fin cfg0.N) (k : Fin 128) :
    iblk0 (F := Ideal) V c 6 t (ix2 (0 : Fin 1) k) = V c main_v16 (ix2 (0 : Fin 1) k) := by
  obtain ⟨e90, e91, e00, e01, e10, e11, e20, e21, e30, e31, e40, e41, e50, e51, e60, e61, e70, e71, e80, e81⟩ := block_indices t
  show V c main_v16 (((cfg0.win 6).blk t).view.emb (ix2 (0 : Fin 1) k)) = V c main_v16 (ix2 (0 : Fin 1) k)
  refine congrArg (V c main_v16) (funext fun d => Fin.ext ?_)
  match d with
  | ⟨0, _⟩ => show win0_6.index t (0 : Fin 2) * 1 + 1 * (0 : Fin 1).val = (0 : Fin 1).val; omega
  | ⟨1, _⟩ => show win0_6.index t (1 : Fin 2) * 128 + 1 * k.val = k.val; omega

/-- The second weight matrix. -/
theorem rd_w (c : Dev nD) (t : Fin cfg0.N) (a : Fin 128) (k : Fin 128) :
    iblk0 (F := Ideal) V c 7 t (ix2 a k) = V c main_v15 (ix2 a k) := by
  obtain ⟨e90, e91, e00, e01, e10, e11, e20, e21, e30, e31, e40, e41, e50, e51, e60, e61, e70, e71, e80, e81⟩ := block_indices t
  show V c main_v15 (((cfg0.win 7).blk t).view.emb (ix2 a k)) = V c main_v15 (ix2 a k)
  refine congrArg (V c main_v15) (funext fun d => Fin.ext ?_)
  match d with
  | ⟨0, _⟩ => show win0_7.index t (0 : Fin 2) * 128 + 1 * a.val = a.val; omega
  | ⟨1, _⟩ => show win0_7.index t (1 : Fin 2) * 128 + 1 * k.val = k.val; omega

/-- The second bias. -/
theorem rd_b2 (c : Dev nD) (t : Fin cfg0.N) (k : Fin 128) :
    iblk0 (F := Ideal) V c 8 t (ix2 (0 : Fin 1) k) = V c main_v17 (ix2 (0 : Fin 1) k) := by
  obtain ⟨e90, e91, e00, e01, e10, e11, e20, e21, e30, e31, e40, e41, e50, e51, e60, e61, e70, e71, e80, e81⟩ := block_indices t
  show V c main_v17 (((cfg0.win 8).blk t).view.emb (ix2 (0 : Fin 1) k)) = V c main_v17 (ix2 (0 : Fin 1) k)
  refine congrArg (V c main_v17) (funext fun d => Fin.ext ?_)
  match d with
  | ⟨0, _⟩ => show win0_8.index t (0 : Fin 2) * 1 + 1 * (0 : Fin 1).val = (0 : Fin 1).val; omega
  | ⟨1, _⟩ => show win0_8.index t (1 : Fin 2) * 128 + 1 * k.val = k.val; omega

/-- A row of the message network depends on its nine inputs and the entry only through their values. -/
theorem mlp3K_congr {x0 x1 x2 x0' x1' x2' : Fin 128 → EReal} {w0 w1 w2 w0' w1' w2' : Fin 128 → Fin 128 → EReal}
    {b1 b1' : Fin 128 → EReal} {w w' : Fin 128 → Fin 128 → EReal} {b2 b2' : Fin 128 → EReal} {q q' : Fin 128}
    (h0 : ∀ k, x0 k = x0' k) (h1 : ∀ k, x1 k = x1' k) (h2 : ∀ k, x2 k = x2' k)
    (g0 : ∀ a k, w0 a k = w0' a k) (g1 : ∀ a k, w1 a k = w1' a k) (g2 : ∀ a k, w2 a k = w2' a k)
    (hb1 : ∀ k, b1 k = b1' k) (g : ∀ a k, w a k = w' a k) (hb2 : ∀ k, b2 k = b2' k) (hq : q = q') :
    Spec.mlp3K x0 x1 x2 w0 w1 w2 b1 w b2 q = Spec.mlp3K x0' x1' x2' w0' w1' w2' b1' w' b2' q' := by
  rw [show x0 = x0' from funext h0, show x1 = x1' from funext h1, show x2 = x2' from funext h2,
    show w0 = w0' from funext fun a => funext (g0 a), show w1 = w1' from funext fun a => funext (g1 a),
    show w2 = w2' from funext fun a => funext (g2 a), show b1 = b1' from funext hb1,
    show w = w' from funext fun a => funext (g a), show b2 = b2' from funext hb2, hq]

/-! ## From blocks to the array -/

/-- What grid point `t` writes back is its block of `G0`: entry (p, q) of the stored block is the message network's row
    on array row (row-block index) * 6000 + p, entry q. -/
theorem point_writes_rows (c : Dev nD) (t : Fin cfg0.N) :
    (dat0 (F := Ideal) V c).flushed 9 t = ((cfg0.win 9).blk t).view.read (Elt Ideal) (G0 V c) := by
  show (cfg0.win 9).cut (grid0.coords t) ((dat0 V c).after 9 t) = _
  rw [after0_9]
  unfold out0_9
  rw [View.canon_unit_zero offsets_zero]
  simp only [View.ld_unit_zero (S := S6000x128) offsets_zero, View.ld_unit_zero (S := S128x128) offsets_zero,
    View.ld_unit_zero (S := S1x128) offsets_zero]
  funext j
  obtain ⟨p, q, rfl⟩ : ∃ (p : Fin 6000) (q : Fin 128), j = ix2 p q := ⟨j 0, j 1, eq_ix2 j⟩
  show k0_pay1 (F := Ideal)
      (k0_pay2 (iblk0 V c 0 t) (iblk0 V c 1 t) (iblk0 V c 2 t) (iblk0 V c 3 t) (iblk0 V c 4 t) (iblk0 V c 5 t) (iblk0 V c 6 t))
      (k0_pay3 (iblk0 V c 7 t)) (iblk0 V c 8 t) (ix2 p q)
    = G0 V c (((cfg0.win 9).blk t).view.emb (ix2 p q))
  refine (KPay.pay_apply (iblk0 V c 0 t) (iblk0 V c 1 t) (iblk0 V c 2 t) (iblk0 V c 3 t) (iblk0 V c 4 t) (iblk0 V c 5 t)
    (iblk0 V c 6 t) (iblk0 V c 7 t) (iblk0 V c 8 t) p q).trans ?_
  unfold G0
  obtain ⟨e90, e91, -⟩ := block_indices t
  refine mlp3K_congr (fun k => rd_src V c t p k _ rfl) (fun k => rd_dst V c t p k _ rfl) (fun k => rd_edge V c t p k _ rfl)
    (fun a k => rd_w0 V c t a k) (fun a k => rd_w1 V c t a k) (fun a k => rd_w2 V c t a k) (fun k => rd_b1 V c t k)
    (fun a k => rd_w V c t a k) (fun k => rd_b2 V c t k) (Fin.ext ?_)
  show q.val = win0_9.index t (1 : Fin 2) * 128 + 1 * q.val
  omega

/-- An index of the array is in point `t`'s block iff each coordinate is in the block's range on its axis. -/
theorem mem_row_block (t : Fin cfg0.N) (i : S600000x128.Idx) :
    i ∈ ((cfg0.win 9).blk t).view.set ↔ ∀ a : Fin 2, win0_9.index t a * S6000x128.size a ≤ (i a).val
      ∧ (i a).val < win0_9.index t a * S6000x128.size a + S6000x128.size a := by
  show i ∈ ((View.whole main_v18).slice (win0_9.rect t)).set ↔ _
  rw [View.set_slice_whole, Rect.mem_set_unit]
  exact Iff.rfl

/-- The 100 row-blocks of 6000 rows tile the 600000 rows: row `r` lies in the block of point `r / 6000`. -/
theorem row_blocks_cover (i : S600000x128.Idx) :
    ∃ t : Fin cfg0.N, (cfg0.win 9).flush t = true ∧ i ∈ ((cfg0.win 9).blk t).view.set := by
  have hi0 : (i 0).val < 600000 := idx2_lt0 i
  have hi1 : (i 1).val < 128 := idx2_lt1 i
  obtain ⟨t, ht⟩ : ∃ t : Fin cfg0.N, t.val = (i 0).val / 6000 :=
    ⟨⟨(i 0).val / 6000, by show (i 0).val / 6000 < grid0.N; rw [N_0]; omega⟩, rfl⟩
  obtain ⟨e90, e91, -⟩ := block_indices t
  refine ⟨t, flush0_9 t, ?_⟩
  rw [mem_row_block]
  intro a
  match a with
  | ⟨0, _⟩ =>
    show win0_9.index t (0 : Fin 2) * 6000 ≤ (i 0).val ∧ (i 0).val < win0_9.index t (0 : Fin 2) * 6000 + 6000
    omega
  | ⟨1, _⟩ =>
    show win0_9.index t (1 : Fin 2) * 128 ≤ (i 1).val ∧ (i 1).val < win0_9.index t (1 : Fin 2) * 128 + 128
    omega

/-- Region 0's output array after its 100 grid points is `G0`. -/
theorem arr0 (c : Dev nD) : (dat0 (F := Ideal) V c).arrAt 9 cfg0.N = G0 V c :=
  (dat0 (F := Ideal) V c).arrAt_eq_of_cover 9 (G0 V c) (fun t _ => point_writes_rows V c t) row_blocks_cover

end Cert.KernelIdeal.KVal

end
-- ==== Proof.KPay1.lean ====
/-
  The update network's block payload read at one entry: row p, column q of what a grid point stores is the
  two-layer perceptron of row p of its two input blocks.
-/
import proofs.«419319_j7275674599845_1_alg».proof.Proof.Gen.KernelIdeal.Skeleton
import proofs.«419319_j7275674599845_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.KVal

open Idealize.ShloMosaic Idealize.ShloMosaic.ValueIdx Idealize.SL.Sem
open Cert.KernelIdeal Cert.KernelIdeal.Gen

/-! ## The block product [10000,128] x [128,128] at an entry -/

/-- The left operand's row coordinate is the output's row. -/
theorem lhs_upd_0 (i : S10000x128.Idx) (k : dot_S10000x128_S128x128_S10000x128_1_0_0_1_n_n.contr.Idx) :
    (dot_S10000x128_S128x128_S10000x128_1_0_0_1_n_n.lhsIdx i k 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl

/-- The left operand's column coordinate is the contraction position. -/
theorem lhs_upd_1 (i : S10000x128.Idx) (k : dot_S10000x128_S128x128_S10000x128_1_0_0_1_n_n.contr.Idx) :
    (dot_S10000x128_S128x128_S10000x128_1_0_0_1_n_n.lhsIdx i k 1).val = (k ⟨0, by decide⟩).val :=
  dot_S10000x128_S128x128_S10000x128_1_0_0_1_n_n.lhsIdx_val_of_single rfl i k

/-- The right operand's row coordinate is the contraction position. -/
theorem rhs_upd_0 (i : S10000x128.Idx) (k : dot_S10000x128_S128x128_S10000x128_1_0_0_1_n_n.contr.Idx) :
    (dot_S10000x128_S128x128_S10000x128_1_0_0_1_n_n.rhsIdx i k 0).val = (k ⟨0, by decide⟩).val :=
  dot_S10000x128_S128x128_S10000x128_1_0_0_1_n_n.rhsIdx_val_of_single rfl i k

/-- The right operand's column coordinate is the output's column. -/
theorem rhs_upd_1 (i : S10000x128.Idx) (k : dot_S10000x128_S128x128_S10000x128_1_0_0_1_n_n.contr.Idx) :
    (dot_S10000x128_S128x128_S10000x128_1_0_0_1_n_n.rhsIdx i k 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- A block product into the zero accumulator, at entry (p, q): the sum over the 128 features of row p of the left
    block times column q of the weights. -/
theorem blockProduct_apply (x : FVec Ideal S10000x128 .bf16) (w : FVec Ideal S128x128 .bf16) (p : Fin 10000) (q : Fin 128) :
    matmul dot_S10000x128_S128x128_S10000x128_1_0_0_1_n_n none x w (constant (F := Ideal) S10000x128 .f32 0x00000000#32) (ix2 p q)
      = ∑ k : Fin 128, x (ix2 p k) * w (ix2 k q) := by
  show FloatOps.matmul dot_S10000x128_S128x128_S10000x128_1_0_0_1_n_n none x w (constant S10000x128 .f32 0x00000000#32) (ix2 p q) = _
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q)
      ((contrEquiv1 dot_S10000x128_S128x128_S10000x128_1_0_0_1_n_n 128 rfl rfl).symm k) = ix2 p k := funext fun a => Fin.ext (by
    match a with
    | ⟨0, _⟩ => exact lhs_upd_0 _ _
    | ⟨1, _⟩ => exact (lhs_upd_1 _ _).trans hk)
  have er : dot_S10000x128_S128x128_S10000x128_1_0_0_1_n_n.rhsIdx (ix2 p q)
      ((contrEquiv1 dot_S10000x128_S128x128_S10000x128_1_0_0_1_n_n 128 rfl rfl).symm k) = ix2 k q := funext fun a => Fin.ext (by
    match a with
    | ⟨0, _⟩ => exact (rhs_upd_0 _ _).trans hk
    | ⟨1, _⟩ => exact rhs_upd_1 _ _)
  rw [el, er]

/-! ## The bias row broadcast down the block -/

/-- A 1 x 128 row broadcast to the block reads its column everywhere. -/
theorem biasRow_apply (b : FVec Ideal S1x128 .f32) (h : S1x128.Broadcasts S10000x128) (p : Fin 10000) (q : Fin 128) :
    broadcastTo S10000x128 b h (ix2 p q) = b (ix2 (0 : Fin 1) q) :=
  broadcastTo_apply b h (ix2 p q) (ix2 (0 : Fin 1) q) fun a => by
    match a with
    | ⟨0, _⟩ => rfl
    | ⟨1, _⟩ => rfl

/-! ## Softplus as the body spells it -/

/-- The body's softplus at an entry: the select's guard compares a value with itself for inequality, which is false on
    the extended reals, so the second branch is taken; zero minus y is minus y. -/
theorem softplus_apply (h : FVec Ideal S10000x128 .f32) (hb : FTy.bits .bf16 < FTy.bits .f32) (i : S10000x128.Idx) :
    (truncf .bf16 (select (cmpf .one (subf h (broadcast S10000x128 (Scalar.ofBits (F := Ideal) .f32 0x00000000#32)))
          (subf h (broadcast S10000x128 (Scalar.ofBits (F := Ideal) .f32 0x00000000#32))))
        (addf h (broadcast S10000x128 (Scalar.ofBits (F := Ideal) .f32 0x00000000#32)))
        (addf (maximumf h (broadcast S10000x128 (Scalar.ofBits (F := Ideal) .f32 0x00000000#32)))
          (log1p (exp (subf (broadcast S10000x128 (Scalar.ofBits (F := Ideal) .f32 0x00000000#32))
            (absf (subf h (broadcast S10000x128 (Scalar.ofBits (F := Ideal) .f32 0x00000000#32))))))))) hb
      : FVec Ideal S10000x128 .bf16) i = Spec.sp (h i) := by
  show Scalar.select (Ideal.cmp .one (h i - Ideal.ofBits .f32 0x00000000#32) (h i - Ideal.ofBits .f32 0x00000000#32))
      (h i + Ideal.ofBits .f32 0x00000000#32)
      (max (h i) (Ideal.ofBits .f32 0x00000000#32) + Ideal.log1p (Ideal.exp (Ideal.ofBits .f32 0x00000000#32
        - max (h i - Ideal.ofBits .f32 0x00000000#32) (-(h i - Ideal.ofBits .f32 0x00000000#32))))) = _
  rw [Ideal.ofBits_zero_f32]
  have hc : Ideal.cmp .one (h i - 0) (h i - 0) = 0#1 := by simp [Ideal.cmp]
  rw [hc, select_zero]
  unfold Spec.sp
  rw [sub_eq_add_neg (0 : EReal), zero_add]

/-! ## The payload at an entry -/

/-- Entry (p, q) of what a grid point stores: the two partial products of row p of the two input blocks summed, the
    bias, softplus, the second product, the second bias. -/
theorem pay1_apply (x0 x1 : Vec Ideal S10000x128 .bf16) (x2 x3 : Vec Ideal S128x128 .bf16) (x4 : Vec Ideal S1x128 .f32)
    (x5 : Vec Ideal S128x128 .bf16) (x6 : Vec Ideal S1x128 .f32) (p : Fin 10000) (q : Fin 128) :
    k1_pay1 (F := Ideal) x0 x1 x2 x3 x4 x5 x6 (ix2 p q)
      = Spec.mlp2K (fun k => x0 (ix2 p k)) (fun k => x1 (ix2 p k)) (fun a k => x2 (ix2 a k)) (fun a k => x3 (ix2 a k))
          (fun k => x4 (ix2 (0 : Fin 1) k)) (fun a k => x5 (ix2 a k)) (fun k => x6 (ix2 (0 : Fin 1) k)) q := by
  unfold k1_pay1
  simp only [shapeCast_self]
  rw [addf_apply, blockProduct_apply, biasRow_apply]
  unfold Spec.mlp2K
  refine congrArg (· + x6 (ix2 (0 : Fin 1) q)) (Finset.sum_congr rfl fun k _ => congrArg (· * x5 (ix2 k q)) ?_)
  refine (softplus_apply _ _ (ix2 p k)).trans (congrArg Spec.sp ?_)
  rw [addf_apply, addf_apply, blockProduct_apply, blockProduct_apply, biasRow_apply]

end Cert.KernelIdeal.KVal

end
-- ==== Proof.KVal1.lean ====
/-
  What region 1 of the kernel's @main leaves in its output array, as one function of the arrays the region finds.

  The region's five grid points each store one block of 10000 rows and all 128 columns; block t is rows
  [10000 t, 10000 (t + 1)). The two row-block inputs move with the output block, the weights and biases are read whole
  at every point. So what point t writes back is block t of one function of the arrays, and the five blocks tile the
  50000 rows.
-/
import proofs.«419319_j7275674599845_1_alg».proof.Proof.Gen.KernelIdeal.Frame
import proofs.«419319_j7275674599845_1_alg».proof.Proof.Spec
import proofs.«419319_j7275674599845_1_alg».proof.Proof.KPay1
import Idealize.ShloMosaic.Lib.ValueIdx
import Idealize.ShloMosaic.Lib.Pipeline.Value
import Idealize.ShloMosaic.PureOps.Ideal.Laws

set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- Entry (n, j) of the updated-node array: the update network's row on node `n`'s features and its aggregate, the
    two row-blocks of the first weight matrix, its bias, the second weight matrix and its bias, as the region finds them. -/
def G1 (c : Dev nD) : S50000x128.Idx → EReal := fun i =>
  Spec.mlp2K (fun k => V c main_v22 (ix2 (i 0) k)) (fun k => V c main_v23 (ix2 (i 0) k))
    (fun a k => V c main_v25 (ix2 a k)) (fun a k => V c main_v27 (ix2 a k))
    (fun k => V c main_v29 (ix2 (0 : Fin 1) k)) (fun a k => V c main_v28 (ix2 a k)) (fun k => V c main_v30 (ix2 (0 : Fin 1) k)) (i 1)

/-! ## Where each window's block sits at a grid point -/

theorem zeroOffsets : (![0, 0] : Fin 2 → Nat) = fun _ => 0 := funext fun a => by fin_cases a <;> rfl

/-- The block indices over the five grid points: the node-feature, aggregate and output windows are at row-block t,
    column-block 0; the weight and bias windows stay at block (0, 0). -/
theorem blockIndices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-! ## The input blocks at a grid point, by their literal types -/

/-- The node-feature rows of point t. -/
abbrev nodeBlk (c : Dev nD) (t : Fin cfg1.N) : Vec Ideal S10000x128 .bf16 := iblk1 (F := Ideal) V c 0 t
/-- The aggregate rows of point t. -/
abbrev aggBlk (c : Dev nD) (t : Fin cfg1.N) : Vec Ideal S10000x128 .bf16 := iblk1 (F := Ideal) V c 1 t
/-- The first weight matrix's upper row-block. -/
abbrev w1aBlk (c : Dev nD) (t : Fin cfg1.N) : Vec Ideal S128x128 .bf16 := iblk1 (F := Ideal) V c 2 t
/-- The first weight matrix's lower row-block. -/
abbrev w1bBlk (c : Dev nD) (t : Fin cfg1.N) : Vec Ideal S128x128 .bf16 := iblk1 (F := Ideal) V c 3 t
/-- The first bias. -/
abbrev b1Blk (c : Dev nD) (t : Fin cfg1.N) : Vec Ideal S1x128 .f32 := iblk1 (F := Ideal) V c 4 t
/-- The second weight matrix. -/
abbrev w2Blk (c : Dev nD) (t : Fin cfg1.N) : Vec Ideal S128x128 .bf16 := iblk1 (F := Ideal) V c 5 t
/-- The second bias. -/
abbrev b2Blk (c : Dev nD) (t : Fin cfg1.N) : Vec Ideal S1x128 .f32 := iblk1 (F := Ideal) V c 6 t

/-- Row p of point t's node-feature block is row 10000 t + p of the node-feature array. -/
theorem nodeBlk_apply (c : Dev nD) (t : Fin cfg1.N) (p : Fin 10000) (k : Fin 128) (r : Fin 50000)
    (hr : r.val = t.val * 10000 + p.val) : nodeBlk V c t (ix2 p k) = V c main_v22 (ix2 r k) := by
  obtain ⟨e0, e1, -⟩ := blockIndices t
  show V c main_v22 (((cfg1.win 0).blk t).view.emb (ix2 p k)) = V c main_v22 (ix2 r k)
  have h : ((cfg1.win 0).blk t).view.emb (ix2 p k) = ix2 r k := by
    funext a; apply Fin.ext
    match a with
    | ⟨0, _⟩ => show win1_0.index t (0 : Fin 2) * 10000 + 1 * p.val = r.val; omega
    | ⟨1, _⟩ => show win1_0.index t (1 : Fin 2) * 128 + 1 * k.val = k.val; omega
  rw [h]

/-- Row p of point t's aggregate block is row 10000 t + p of the aggregate array. -/
theorem aggBlk_apply (c : Dev nD) (t : Fin cfg1.N) (p : Fin 10000) (k : Fin 128) (r : Fin 50000)
    (hr : r.val = t.val * 10000 + p.val) : aggBlk V c t (ix2 p k) = V c main_v23 (ix2 r k) := by
  obtain ⟨-, -, e0, e1, -⟩ := blockIndices t
  show V c main_v23 (((cfg1.win 1).blk t).view.emb (ix2 p k)) = V c main_v23 (ix2 r k)
  have h : ((cfg1.win 1).blk t).view.emb (ix2 p k) = ix2 r k := by
    funext a; apply Fin.ext
    match a with
    | ⟨0, _⟩ => show win1_1.index t (0 : Fin 2) * 10000 + 1 * p.val = r.val; omega
    | ⟨1, _⟩ => show win1_1.index t (1 : Fin 2) * 128 + 1 * k.val = k.val; omega
  rw [h]

/-- The upper row-block of the first weight matrix is read whole at every point. -/
theorem w1aBlk_apply (c : Dev nD) (t : Fin cfg1.N) (a k : Fin 128) : w1aBlk V c t (ix2 a k) = V c main_v25 (ix2 a k) := by
  obtain ⟨-, -, -, -, e0, e1, -⟩ := blockIndices t
  show V c main_v25 (((cfg1.win 2).blk t).view.emb (ix2 a k)) = V c main_v25 (ix2 a k)
  have h : ((cfg1.win 2).blk t).view.emb (ix2 a k) = ix2 a k := by
    funext d; apply Fin.ext
    match d with
    | ⟨0, _⟩ => show win1_2.index t (0 : Fin 2) * 128 + 1 * a.val = a.val; omega
    | ⟨1, _⟩ => show win1_2.index t (1 : Fin 2) * 128 + 1 * k.val = k.val; omega
  rw [h]

/-- The lower row-block of the first weight matrix is read whole at every point. -/
theorem w1bBlk_apply (c : Dev nD) (t : Fin cfg1.N) (a k : Fin 128) : w1bBlk V c t (ix2 a k) = V c main_v27 (ix2 a k) := by
  obtain ⟨-, -, -, -, -, -, e0, e1, -⟩ := blockIndices t
  show V c main_v27 (((cfg1.win 3).blk t).view.emb (ix2 a k)) = V c main_v27 (ix2 a k)
  have h : ((cfg1.win 3).blk t).view.emb (ix2 a k) = ix2 a k := by
    funext d; apply Fin.ext
    match d with
    | ⟨0, _⟩ => show win1_3.index t (0 : Fin 2) * 128 + 1 * a.val = a.val; omega
    | ⟨1, _⟩ => show win1_3.index t (1 : Fin 2) * 128 + 1 * k.val = k.val; omega
  rw [h]

/-- The first bias is read whole at every point. -/
theorem b1Blk_apply (c : Dev nD) (t : Fin cfg1.N) (a : Fin 1) (k : Fin 128) : b1Blk V c t (ix2 a k) = V c main_v29 (ix2 a k) := by
  obtain ⟨-, -, -, -, -, -, -, -, e0, e1, -⟩ := blockIndices t
  show V c main_v29 (((cfg1.win 4).blk t).view.emb (ix2 a k)) = V c main_v29 (ix2 a k)
  have h : ((cfg1.win 4).blk t).view.emb (ix2 a k) = ix2 a k := by
    funext d; apply Fin.ext
    match d with
    | ⟨0, _⟩ => show win1_4.index t (0 : Fin 2) * 1 + 1 * a.val = a.val; omega
    | ⟨1, _⟩ => show win1_4.index t (1 : Fin 2) * 128 + 1 * k.val = k.val; omega
  rw [h]

/-- The second weight matrix is read whole at every point. -/
theorem w2Blk_apply (c : Dev nD) (t : Fin cfg1.N) (a k : Fin 128) : w2Blk V c t (ix2 a k) = V c main_v28 (ix2 a k) := by
  obtain ⟨-, -, -, -, -, -, -, -, -, -, e0, e1, -⟩ := blockIndices t
  show V c main_v28 (((cfg1.win 5).blk t).view.emb (ix2 a k)) = V c main_v28 (ix2 a k)
  have h : ((cfg1.win 5).blk t).view.emb (ix2 a k) = ix2 a k := by
    funext d; apply Fin.ext
    match d with
    | ⟨0, _⟩ => show win1_5.index t (0 : Fin 2) * 128 + 1 * a.val = a.val; omega
    | ⟨1, _⟩ => show win1_5.index t (1 : Fin 2) * 128 + 1 * k.val = k.val; omega
  rw [h]

/-- The second bias is read whole at every point. -/
theorem b2Blk_apply (c : Dev nD) (t : Fin cfg1.N) (a : Fin 1) (k : Fin 128) : b2Blk V c t (ix2 a k) = V c main_v30 (ix2 a k) := by
  obtain ⟨-, -, -, -, -, -, -, -, -, -, -, -, e0, e1, -⟩ := blockIndices t
  show V c main_v30 (((cfg1.win 6).blk t).view.emb (ix2 a k)) = V c main_v30 (ix2 a k)
  have h : ((cfg1.win 6).blk t).view.emb (ix2 a k) = ix2 a k := by
    funext d; apply Fin.ext
    match d with
    | ⟨0, _⟩ => show win1_6.index t (0 : Fin 2) * 1 + 1 * a.val = a.val; omega
    | ⟨1, _⟩ => show win1_6.index t (1 : Fin 2) * 128 + 1 * k.val = k.val; omega
  rw [h]

/-! ## What a grid point writes back -/

/-- The update network's row on row p of point t's blocks is `G1` at row 10000 t + p. -/
theorem G1_at (c : Dev nD) (t : Fin cfg1.N) (p : Fin 10000) (q : Fin 128) (i : S50000x128.Idx)
    (h0 : (i 0).val = t.val * 10000 + p.val) (h1 : (i 1).val = q.val) :
    Spec.mlp2K (fun k => nodeBlk V c t (ix2 p k)) (fun k => aggBlk V c t (ix2 p k)) (fun a k => w1aBlk V c t (ix2 a k))
        (fun a k => w1bBlk V c t (ix2 a k)) (fun k => b1Blk V c t (ix2 (0 : Fin 1) k)) (fun a k => w2Blk V c t (ix2 a k))
        (fun k => b2Blk V c t (ix2 (0 : Fin 1) k)) q = G1 V c i := by
  have hq : q = i 1 := Fin.ext h1.symm
  subst hq
  unfold G1
  have e0 : (fun k => nodeBlk V c t (ix2 p k)) = fun k => V c main_v22 (ix2 (i 0) k) :=
    funext fun k => nodeBlk_apply V c t p k (i 0) h0
  have e1 : (fun k => aggBlk V c t (ix2 p k)) = fun k => V c main_v23 (ix2 (i 0) k) :=
    funext fun k => aggBlk_apply V c t p k (i 0) h0
  have e2 : (fun a k => w1aBlk V c t (ix2 a k)) = fun a k => V c main_v25 (ix2 a k) :=
    funext fun a => funext fun k => w1aBlk_apply V c t a k
  have e3 : (fun a k => w1bBlk V c t (ix2 a k)) = fun a k => V c main_v27 (ix2 a k) :=
    funext fun a => funext fun k => w1bBlk_apply V c t a k
  have e4 : (fun k => b1Blk V c t (ix2 (0 : Fin 1) k)) = fun k => V c main_v29 (ix2 (0 : Fin 1) k) :=
    funext fun k => b1Blk_apply V c t 0 k
  have e5 : (fun a k => w2Blk V c t (ix2 a k)) = fun a k => V c main_v28 (ix2 a k) :=
    funext fun a => funext fun k => w2Blk_apply V c t a k
  have e6 : (fun k => b2Blk V c t (ix2 (0 : Fin 1) k)) = fun k => V c main_v30 (ix2 (0 : Fin 1) k) :=
    funext fun k => b2Blk_apply V c t 0 k
  rw [e0, e1, e2, e3, e4, e5, e6]

/-- What point t writes back is block t of `G1`. -/
theorem flushed1_eq (c : Dev nD) (t : Fin cfg1.N) :
    (dat1 (F := Ideal) V c).flushed 7 t = ((cfg1.win 7).blk t).view.read (Elt Ideal) (G1 V c) := by
  show (cfg1.win 7).cut (grid1.coords t) ((dat1 V c).after 7 t) = _
  rw [after1_7]
  unfold out1_7
  rw [View.canon_unit_zero zeroOffsets]
  simp only [View.ld_unit_zero (S := S10000x128) zeroOffsets, View.ld_unit_zero (S := S128x128) zeroOffsets,
    View.ld_unit_zero (S := S1x128) zeroOffsets]
  obtain ⟨-, -, -, -, -, -, -, -, -, -, -, -, -, -, e0, e1⟩ := blockIndices t
  funext j
  obtain ⟨p, q, rfl⟩ : ∃ (p : Fin 10000) (q : Fin 128), j = ix2 p q := ⟨j 0, j 1, eq_ix2 j⟩
  show k1_pay1 (F := Ideal) (nodeBlk V c t) (aggBlk V c t) (w1aBlk V c t) (w1bBlk V c t) (b1Blk V c t) (w2Blk V c t)
      (b2Blk V c t) (ix2 p q) = G1 V c (((cfg1.win 7).blk t).view.emb (ix2 p q))
  refine (pay1_apply (nodeBlk V c t) (aggBlk V c t) (w1aBlk V c t) (w1bBlk V c t) (b1Blk V c t) (w2Blk V c t)
    (b2Blk V c t) p q).trans ?_
  refine G1_at V c t p q (((cfg1.win 7).blk t).view.emb (ix2 p q)) ?_ ?_
  · show win1_7.index t (0 : Fin 2) * 10000 + 1 * p.val = t.val * 10000 + p.val; omega
  · show win1_7.index t (1 : Fin 2) * 128 + 1 * q.val = q.val; omega

/-! ## The five blocks tile the array -/

/-- An index of the array is in point t's block iff each coordinate is in the block's range on its axis. -/
theorem mem_blk1 (t : Fin cfg1.N) (i : S50000x128.Idx) :
    i ∈ ((cfg1.win 7).blk t).view.set ↔ ∀ a : Fin 2, win1_7.index t a * S10000x128.size a ≤ (i a).val
      ∧ (i a).val < win1_7.index t a * S10000x128.size a + S10000x128.size a := by
  show i ∈ ((View.whole main_v31).slice (win1_7.rect t)).set ↔ _
  rw [View.set_slice_whole, Rect.mem_set_unit]
  exact Iff.rfl

/-- Row r is in the block of point r / 10000. -/
theorem covered1 (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have hN : cfg1.N = 5 := N_1
  have hlt : (i 0).val / 10000 < cfg1.N := by rw [hN]; omega
  obtain ⟨-, -, -, -, -, -, -, -, -, -, -, -, -, -, e0, e1⟩ := blockIndices ⟨(i 0).val / 10000, hlt⟩
  have e0' : win1_7.index ⟨(i 0).val / 10000, hlt⟩ (0 : Fin 2) = (i 0).val / 10000 := e0
  refine ⟨⟨(i 0).val / 10000, hlt⟩, flush1_7 _, ?_⟩
  rw [mem_blk1]
  intro a
  match a with
  | ⟨0, _⟩ =>
    show win1_7.index ⟨(i 0).val / 10000, hlt⟩ (0 : Fin 2) * 10000 ≤ (i 0).val
      ∧ (i 0).val < win1_7.index ⟨(i 0).val / 10000, hlt⟩ (0 : Fin 2) * 10000 + 10000
    omega
  | ⟨1, _⟩ =>
    show win1_7.index ⟨(i 0).val / 10000, hlt⟩ (1 : Fin 2) * 128 ≤ (i 1).val
      ∧ (i 1).val < win1_7.index ⟨(i 0).val / 10000, hlt⟩ (1 : Fin 2) * 128 + 128
    omega

/-- Region 1's output array after its 5 grid points is `G1`. -/
theorem arr1 (c : Dev nD) : (dat1 (F := Ideal) V c).arrAt 7 cfg1.N = G1 V c :=
  (dat1 (F := Ideal) V c).arrAt_eq_of_cover 7 (G1 V c) (fun t _ => flushed1_eq V c t) (covered1)

end Cert.KernelIdeal.KVal

end
-- ==== Proof.KValue.lean ====
/-
  The kernel program's run read back: the result buffer at the end of @main is `KValue.out` of the launch contents of
  the thirteen arguments — the host operations before, between and after the two regions composed with what each
  region leaves in its output array.
-/
import proofs.«419319_j7275674599845_1_alg».proof.Proof.KOut
import proofs.«419319_j7275674599845_1_alg».proof.Proof.KHost0
import proofs.«419319_j7275674599845_1_alg».proof.Proof.KHost1
import proofs.«419319_j7275674599845_1_alg».proof.Proof.KVal0
import proofs.«419319_j7275674599845_1_alg».proof.Proof.KVal1

set_option maxRecDepth 100000

noncomputable section
namespace Cert.KernelIdeal.KValue
open Idealize.ShloMosaic Idealize.ShloMosaic.StableHlo Idealize.ShloMosaic.TcCoe Idealize.ShloMosaic.ValueIdx Idealize.SL.Sem
open Cert.KernelIdeal Cert.KernelIdeal.Gen Cert.KernelIdeal.KHost

variable (m : (ℓ : Loc nD τ sig) → Buf (Elt Ideal) ℓ) (ρ : Dev nD → PrngReg)

/-! The launch contents of the thirteen arguments on core `c`, each at its array type. -/
abbrev A0 (c : Dev nD) : FVec Ideal S50000x128 .f32 := m ((c : Thread nD τ).loc main_arg0)
abbrev A1 (c : Dev nD) : IVec S2x600000 32 := m ((c : Thread nD τ).loc main_arg1)
abbrev A2 (c : Dev nD) : FVec Ideal S600000x128 .f32 := m ((c : Thread nD τ).loc main_arg2)
abbrev A3 (c : Dev nD) : FVec Ideal S384x128 .f32 := m ((c : Thread nD τ).loc main_arg3)
abbrev A4 (c : Dev nD) : FVec Ideal S128 .f32 := m ((c : Thread nD τ).loc main_arg4)
abbrev A5 (c : Dev nD) : FVec Ideal S128x128 .f32 := m ((c : Thread nD τ).loc main_arg5)
abbrev A6 (c : Dev nD) : FVec Ideal S128 .f32 := m ((c : Thread nD τ).loc main_arg6)
abbrev A7 (c : Dev nD) : FVec Ideal S256x128 .f32 := m ((c : Thread nD τ).loc main_arg7)
abbrev A8 (c : Dev nD) : FVec Ideal S128 .f32 := m ((c : Thread nD τ).loc main_arg8)
abbrev A9 (c : Dev nD) : FVec Ideal S128x128 .f32 := m ((c : Thread nD τ).loc main_arg9)
abbrev A10 (c : Dev nD) : FVec Ideal S128 .f32 := m ((c : Thread nD τ).loc main_arg10)
abbrev A11 (c : Dev nD) : FVec Ideal S128 .f32 := m ((c : Thread nD τ).loc main_arg11)
abbrev A12 (c : Dev nD) : FVec Ideal S128 .f32 := m ((c : Thread nD τ).loc main_arg12)

/-! ## What region 0 finds -/

theorem V4_v6 (c : Dev nD) : (V4 m ρ c main_v6 : FVec Ideal S600000x128 .bf16) = truncf .bf16 (St.take (A0 m c) (St.idxRow0 (A1 m c))) Facts₀.bitsLt_bf16_f32 := pre0_v6 (W0 m ρ c)
theorem V4_v7 (c : Dev nD) : (V4 m ρ c main_v7 : FVec Ideal S600000x128 .bf16) = truncf .bf16 (St.take (A0 m c) (St.idxRow1 (A1 m c))) Facts₀.bitsLt_bf16_f32 := pre0_v7 (W0 m ρ c)
theorem V4_v8 (c : Dev nD) : (V4 m ρ c main_v8 : FVec Ideal S600000x128 .bf16) = truncf .bf16 (A2 m c) Facts₀.bitsLt_bf16_f32 := pre0_v8 (W0 m ρ c)
theorem V4_v10 (c : Dev nD) : (V4 m ρ c main_v10 : FVec Ideal S128x128 .bf16) = truncf .bf16 (extractStridedSlice S128x128 ![0, 0] (A3 m c) Facts₀.slices_S384x128_S128x128_0_0) Facts₀.bitsLt_bf16_f32 := pre0_v10 (W0 m ρ c)
theorem V4_v12 (c : Dev nD) : (V4 m ρ c main_v12 : FVec Ideal S128x128 .bf16) = truncf .bf16 (extractStridedSlice S128x128 ![128, 0] (A3 m c) Facts₀.slices_S384x128_S128x128_128_0) Facts₀.bitsLt_bf16_f32 := pre0_v12 (W0 m ρ c)
theorem V4_v14 (c : Dev nD) : (V4 m ρ c main_v14 : FVec Ideal S128x128 .bf16) = truncf .bf16 (extractStridedSlice S128x128 ![256, 0] (A3 m c) Facts₀.slices_S384x128_S128x128_256_0) Facts₀.bitsLt_bf16_f32 := pre0_v14 (W0 m ρ c)
theorem V4_v15 (c : Dev nD) : (V4 m ρ c main_v15 : FVec Ideal S128x128 .bf16) = truncf .bf16 (A5 m c) Facts₀.bitsLt_bf16_f32 := pre0_v15 (W0 m ρ c)
theorem V4_v16 (c : Dev nD) : (V4 m ρ c main_v16 : FVec Ideal S1x128 .f32) = shapeCast S1x128 (A4 m c) Facts₀.shapeCasts_S128_S1x128 := pre0_v16 (W0 m ρ c)
theorem V4_v17 (c : Dev nD) : (V4 m ρ c main_v17 : FVec Ideal S1x128 .f32) = shapeCast S1x128 (A6 m c) Facts₀.shapeCasts_S128_S1x128 := pre0_v17 (W0 m ρ c)

/-- Region 0's output array is the message array of the arguments. -/
theorem W5_v18 (c : Dev nD) : (W5 m ρ c (Proc.devRef .tc main_v18) : FVec Ideal S600000x128 .f32) = (msgArr (A0 m c) (A1 m c) (A2 m c) (A3 m c) (A4 m c) (A5 m c) (A6 m c)) := by
  refine (W5_arr m ρ c 9).trans ((KVal.arr0 (V4 m ρ) c).trans ?_)
  funext i
  unfold KVal.G0 msgArr
  rw [V4_v6 m ρ c, V4_v7 m ρ c, V4_v8 m ρ c, V4_v10 m ρ c, V4_v12 m ρ c, V4_v14 m ρ c, V4_v15 m ρ c, V4_v16 m ρ c, V4_v17 m ρ c]
  simp only [truncf_apply]

/-! ## What region 1 finds -/

/-- A buffer no host operation before region 0 writes and that is no array of region 0 holds, when region 0 ends, what
    it held at launch. -/
theorem W5_keep (c : Dev nD) (b : Ref sig .tc) (hb : ∀ w, Pipeline.arrRef spec0 w ≠ b)
    (e : ∀ V0 : Valuation τ sig (Elt Ideal), pre0 V0 (Proc.devRef .tc b) = V0 (Proc.devRef .tc b)) :
    W5 m ρ c (Proc.devRef .tc b) = W0 m ρ c (Proc.devRef .tc b) :=
  (W5_of_ne m ρ c b hb).trans (e (W0 m ρ c))

theorem W5_arg0 (c : Dev nD) : (W5 m ρ c (Proc.devRef .tc main_arg0) : FVec Ideal S50000x128 .f32) = (A0 m c) := W5_keep m ρ c main_arg0 (by decide) pre0_arg0
theorem W5_arg7 (c : Dev nD) : (W5 m ρ c (Proc.devRef .tc main_arg7) : FVec Ideal S256x128 .f32) = (A7 m c) := W5_keep m ρ c main_arg7 (by decide) pre0_arg7
theorem W5_arg8 (c : Dev nD) : (W5 m ρ c (Proc.devRef .tc main_arg8) : FVec Ideal S128 .f32) = (A8 m c) := W5_keep m ρ c main_arg8 (by decide) pre0_arg8
theorem W5_arg9 (c : Dev nD) : (W5 m ρ c (Proc.devRef .tc main_arg9) : FVec Ideal S128x128 .f32) = (A9 m c) := W5_keep m ρ c main_arg9 (by decide) pre0_arg9
theorem W5_arg10 (c : Dev nD) : (W5 m ρ c (Proc.devRef .tc main_arg10) : FVec Ideal S128 .f32) = (A10 m c) := W5_keep m ρ c main_arg10 (by decide) pre0_arg10
theorem W5_arg11 (c : Dev nD) : (W5 m ρ c (Proc.devRef .tc main_arg11) : FVec Ideal S128 .f32) = (A11 m c) := W5_keep m ρ c main_arg11 (by decide) pre0_arg11
theorem W5_arg12 (c : Dev nD) : (W5 m ρ c (Proc.devRef .tc main_arg12) : FVec Ideal S128 .f32) = (A12 m c) := W5_keep m ρ c main_arg12 (by decide) pre0_arg12

/-- The index row the scatter reads is the first row of the edge list. -/
theorem W5_v1 (c : Dev nD) : (W5 m ρ c (Proc.devRef .tc main_v1) : IVec S600000 32) = St.idxRow0 (A1 m c) :=
  (W5_of_ne m ρ c main_v1 (by decide)).trans (pre0_v1 (W0 m ρ c))

theorem V6_v22 (c : Dev nD) : (V6 m ρ c main_v22 : FVec Ideal S50000x128 .bf16) = truncf .bf16 (A0 m c) Facts₀.bitsLt_bf16_f32 := by
  refine (mid_v22 (W5 m ρ c)).trans ?_
  rw [W5_arg0 m ρ c]
theorem V6_v23 (c : Dev nD) : (V6 m ρ c main_v23 : FVec Ideal S50000x128 .bf16) = truncf .bf16 (St.agg (F := Ideal) (msgArr (A0 m c) (A1 m c) (A2 m c) (A3 m c) (A4 m c) (A5 m c) (A6 m c)) (St.idxRow0 (A1 m c))) Facts₀.bitsLt_bf16_f32 := by
  refine (mid_v23 (W5 m ρ c)).trans ?_
  rw [W5_v18 m ρ c, W5_v1 m ρ c]
theorem V6_v25 (c : Dev nD) : (V6 m ρ c main_v25 : FVec Ideal S128x128 .bf16) = truncf .bf16 (extractStridedSlice S128x128 ![0, 0] (A7 m c) Facts₀.slices_S256x128_S128x128_0_0) Facts₀.bitsLt_bf16_f32 := by
  refine (mid_v25 (W5 m ρ c)).trans ?_
  rw [W5_arg7 m ρ c]
theorem V6_v27 (c : Dev nD) : (V6 m ρ c main_v27 : FVec Ideal S128x128 .bf16) = truncf .bf16 (extractStridedSlice S128x128 ![128, 0] (A7 m c) Facts₀.slices_S256x128_S128x128_128_0) Facts₀.bitsLt_bf16_f32 := by
  refine (mid_v27 (W5 m ρ c)).trans ?_
  rw [W5_arg7 m ρ c]
theorem V6_v28 (c : Dev nD) : (V6 m ρ c main_v28 : FVec Ideal S128x128 .bf16) = truncf .bf16 (A9 m c) Facts₀.bitsLt_bf16_f32 := by
  refine (mid_v28 (W5 m ρ c)).trans ?_
  rw [W5_arg9 m ρ c]
theorem V6_v29 (c : Dev nD) : (V6 m ρ c main_v29 : FVec Ideal S1x128 .f32) = shapeCast S1x128 (A8 m c) Facts₀.shapeCasts_S128_S1x128 := by
  refine (mid_v29 (W5 m ρ c)).trans ?_
  rw [W5_arg8 m ρ c]
theorem V6_v30 (c : Dev nD) : (V6 m ρ c main_v30 : FVec Ideal S1x128 .f32) = shapeCast S1x128 (A10 m c) Facts₀.shapeCasts_S128_S1x128 := by
  refine (mid_v30 (W5 m ρ c)).trans ?_
  rw [W5_arg10 m ρ c]

/-- Region 1's output array is the updated-node array of the arguments. -/
theorem W7_v31 (c : Dev nD) : (W7 m ρ c (Proc.devRef .tc main_v31) : FVec Ideal S50000x128 .f32)
    = updArr (A0 m c) (St.agg (F := Ideal) (msgArr (A0 m c) (A1 m c) (A2 m c) (A3 m c) (A4 m c) (A5 m c) (A6 m c)) (St.idxRow0 (A1 m c))) (A7 m c) (A8 m c) (A9 m c) (A10 m c) := by
  refine (W7_arr m ρ c 7).trans ((KVal.arr1 (V6 m ρ) c).trans ?_)
  funext i
  unfold KVal.G1 updArr
  rw [V6_v22 m ρ c, V6_v23 m ρ c, V6_v25 m ρ c, V6_v27 m ρ c, V6_v28 m ρ c, V6_v29 m ρ c, V6_v30 m ρ c]
  simp only [truncf_apply]

/-! ## The result -/

theorem W7_arg11 (c : Dev nD) : (W7 m ρ c (Proc.devRef .tc main_arg11) : FVec Ideal S128 .f32) = (A11 m c) :=
  (W7_of_ne m ρ c main_arg11 (by decide)).trans ((mid_arg11 (W5 m ρ c)).trans (W5_arg11 m ρ c))
theorem W7_arg12 (c : Dev nD) : (W7 m ρ c (Proc.devRef .tc main_arg12) : FVec Ideal S128 .f32) = (A12 m c) :=
  (W7_of_ne m ρ c main_arg12 (by decide)).trans ((mid_arg12 (W5 m ρ c)).trans (W5_arg12 m ρ c))

/-- THE RESULT: at the end of @main the result buffer holds `out` of the launch contents of the arguments. -/
theorem W10_v50 (c : Dev nD) : (W10 m ρ c (Proc.devRef .tc main_v50) : FVec Ideal S50000x128 .f32)
    = out (A0 m c) (A1 m c) (A2 m c) (A3 m c) (A4 m c) (A5 m c) (A6 m c) (A7 m c) (A8 m c) (A9 m c) (A10 m c) (A11 m c) (A12 m c) := by
  refine (post_v50 (W7 m ρ c)).trans ?_
  rw [W7_v31 m ρ c, W7_arg11 m ρ c, W7_arg12 m ρ c]
  rfl

end Cert.KernelIdeal.KValue
end
-- ==== Proof.RStages.lean ====
/-
  The reference's @main, stage by stage, as array functions of its arguments: the two index rows of the edge list,
  the negative-index wrap and the row gather, the message network (one product over the concatenated row, softplus,
  a second product), the scatter-add onto the source nodes, the update network over the node's features beside its
  aggregate, and batch normalisation over the node axis. `out` composes them in @main's order.
-/
import proofs.«419319_j7275674599845_1_alg».proof.ReferenceIdeal

noncomputable section

namespace Cert.ReferenceIdeal.St

open Idealize.ShloMosaic Cert.ReferenceIdeal Cert.ReferenceIdeal.Facts₀ Cert.ReferenceIdeal.Facts

variable {F : FTy → Type} [FloatOps F] [Facts]

/-- Row `r` of the edge list as a vector of 600000 node ids. -/
def idxRow0 (ei : IVec S2x600000 32) : IVec S600000 32 :=
  shapeCast S600000 (extractStridedSlice S1x600000 ![0, 0] ei slices_S2x600000_S1x600000_0_0) shapeCasts_S1x600000_S600000
def idxRow1 (ei : IVec S2x600000 32) : IVec S600000 32 :=
  shapeCast S600000 (extractStridedSlice S1x600000 ![1, 0] ei slices_S2x600000_S1x600000_1_0) shapeCasts_S1x600000_S600000

/-- A negative id counts from the end: `r + 50000` where `r < 0`; then one index column per edge. -/
def wrap (r : IVec S600000 32) : IVec S600000x1 32 :=
  broadcastInDim S600000x1 ![0] bcast_S600000_S600000x1_0
    (select (cmpi .slt r (broadcastInDim S600000 ![] bcast_S_S600000 (constantI S_ 32 0#32)))
      (addi r (broadcastInDim S600000 ![] bcast_S_S600000 (constantI S_ 32 50000#32))) r)

/-- The rows of the node features an id vector names. -/
def gath (nf : FVec F S50000x128 .f32) (r : IVec S600000 32) : FVec F S600000x128 .f32 :=
  Host.gather gather_S50000x128_S600000x1_S600000x128_1_0_n_n_0_1_1128 nf (wrap r)

/-- Softplus over 600000 × 128, as jax outlines it (its `x ≠ x` branch included). -/
def softplusE (x : FVec F S600000x128 .f32) : FVec F S600000x128 .f32 :=
  select (cmpf .une (subf x (broadcastInDim S600000x128 ![] bcast_S_S600000x128 (constant S_ .f32 0x00000000#32)))
      (subf x (broadcastInDim S600000x128 ![] bcast_S_S600000x128 (constant S_ .f32 0x00000000#32))))
    (addf x (broadcastInDim S600000x128 ![] bcast_S_S600000x128 (constant S_ .f32 0x00000000#32)))
    (addf (maximumf x (broadcastInDim S600000x128 ![] bcast_S_S600000x128 (constant S_ .f32 0x00000000#32)))
      (Host.log1p (Host.exp (Host.negf (Host.absf
        (subf x (broadcastInDim S600000x128 ![] bcast_S_S600000x128 (constant S_ .f32 0x00000000#32))))))))

/-- Softplus over 50000 × 128. -/
def softplusN (x : FVec F S50000x128 .f32) : FVec F S50000x128 .f32 :=
  select (cmpf .une (subf x (broadcastInDim S50000x128 ![] bcast_S_S50000x128 (constant S_ .f32 0x00000000#32)))
      (subf x (broadcastInDim S50000x128 ![] bcast_S_S50000x128 (constant S_ .f32 0x00000000#32))))
    (addf x (broadcastInDim S50000x128 ![] bcast_S_S50000x128 (constant S_ .f32 0x00000000#32)))
    (addf (maximumf x (broadcastInDim S50000x128 ![] bcast_S_S50000x128 (constant S_ .f32 0x00000000#32)))
      (Host.log1p (Host.exp (Host.negf (Host.absf
        (subf x (broadcastInDim S50000x128 ![] bcast_S_S50000x128 (constant S_ .f32 0x00000000#32))))))))

/-- The message network on every edge: `softplus([row | col | attr] · W1 + b1) · W2 + b2`. -/
def msg (rf cf ea : FVec F S600000x128 .f32) (W1 : FVec F S384x128 .f32) (b1 : FVec F S128 .f32)
    (W2 : FVec F S128x128 .f32) (b2 : FVec F S128 .f32) : FVec F S600000x128 .f32 :=
  addf (Host.dotGeneral dot_S600000x128_S128x128_S600000x128_1_0_0_1_n_n none
      (softplusE (addf (Host.dotGeneral dot_S600000x384_S384x128_S600000x128_1_0_0_1_n_n none
          (concatenate S600000x384 1 [⟨S600000x128, rf⟩, ⟨S600000x128, cf⟩, ⟨S600000x128, ea⟩]
            concatenates_S600000x128_S600000x128_S600000x128_S600000x384_d1) W1)
        (broadcastInDim S600000x128 ![0, 1] bcast_S1x128_S600000x128_0_1 (broadcastInDim S1x128 ![1] bcast_S128_S1x128_1 b1)))) W2)
    (broadcastInDim S600000x128 ![0, 1] bcast_S1x128_S600000x128_0_1 (broadcastInDim S1x128 ![1] bcast_S128_S1x128_1 b2))

/-- Messages summed onto their source nodes (an id outside the node range drops its message). -/
def agg (ms : FVec F S600000x128 .f32) (r : IVec S600000 32) : FVec F S50000x128 .f32 :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 r) ms

/-- The update network on every node: `softplus([features | aggregate] · U1 + ub1) · U2 + ub2`. -/
def upd (nf ag : FVec F S50000x128 .f32) (U1 : FVec F S256x128 .f32) (ub1 : FVec F S128 .f32)
    (U2 : FVec F S128x128 .f32) (ub2 : FVec F S128 .f32) : FVec F S50000x128 .f32 :=
  addf (Host.dotGeneral dot_S50000x128_S128x128_S50000x128_1_0_0_1_n_n none
      (softplusN (addf (Host.dotGeneral dot_S50000x256_S256x128_S50000x128_1_0_0_1_n_n none
          (concatenate S50000x256 1 [⟨S50000x128, nf⟩, ⟨S50000x128, ag⟩] concatenates_S50000x128_S50000x128_S50000x256_d1) U1)
        (broadcastInDim S50000x128 ![0, 1] bcast_S1x128_S50000x128_0_1 (broadcastInDim S1x128 ![1] bcast_S128_S1x128_1 ub1)))) U2)
    (broadcastInDim S50000x128 ![0, 1] bcast_S1x128_S50000x128_0_1 (broadcastInDim S1x128 ![1] bcast_S128_S1x128_1 ub2))

/-- The column means over the 50000 nodes. -/
def colMean (x : FVec F S50000x128 .f32) : FVec F S128 .f32 :=
  Host.divf (Host.reduceAdd x (constant S_ .f32 0x00000000#32) reducesTo_S50000x128_S128_d0 h_S_)
    (broadcastInDim S128 ![] bcast_S_S128 (constant S_ .f32 0x47435000#32))

/-- The biased column variances as `jnp.var` computes them (its guard on the divisor included). -/
def colVar (x : FVec F S50000x128 .f32) : FVec F S128 .f32 :=
  select (broadcastInDim S128 ![] bcast_S_S128
      (cmpf .ogt (subf (constant (F := F) S_ .f32 0x47435000#32) (sitofp (F := F) .f32 (constantI S_ 32 0#32))) (constant (F := F) S_ .f32 0x00000000#32)))
    (Host.divf
      (Host.reduceAdd
        (mulf
          (subf x (broadcastInDim S50000x128 ![0, 1] bcast_S1x128_S50000x128_0_1
            (Host.divf (broadcastInDim S1x128 ![1] bcast_S128_S1x128_1
                (Host.reduceAdd x (constant S_ .f32 0x00000000#32) reducesTo_S50000x128_S128_d0 h_S_))
              (broadcastInDim S1x128 ![] bcast_S_S1x128 (constant S_ .f32 0x47435000#32)))))
          (subf x (broadcastInDim S50000x128 ![0, 1] bcast_S1x128_S50000x128_0_1
            (Host.divf (broadcastInDim S1x128 ![1] bcast_S128_S1x128_1
                (Host.reduceAdd x (constant S_ .f32 0x00000000#32) reducesTo_S50000x128_S128_d0 h_S_))
              (broadcastInDim S1x128 ![] bcast_S_S1x128 (constant S_ .f32 0x47435000#32))))))
        (constant S_ .f32 0x00000000#32) reducesTo_S50000x128_S128_d0 h_S_)
      (broadcastInDim S128 ![] bcast_S_S128
        (subf (constant S_ .f32 0x47435000#32) (sitofp .f32 (constantI S_ 32 0#32)))))
    (broadcastInDim S128 ![] bcast_S_S128 (id (constant S_ .f32 0x7FC00000#32)))

/-- Batch normalisation over the node axis, then the affine map. -/
def bn (x : FVec F S50000x128 .f32) (gamma beta : FVec F S128 .f32) : FVec F S50000x128 .f32 :=
  addf
    (mulf
      (mulf
        (subf x (broadcastInDim S50000x128 ![0, 1] bcast_S1x128_S50000x128_0_1 (broadcastInDim S1x128 ![1] bcast_S128_S1x128_1 (colMean x))))
        (broadcastInDim S50000x128 ![0, 1] bcast_S1x128_S50000x128_0_1 (broadcastInDim S1x128 ![1] bcast_S128_S1x128_1
          (Host.rsqrt (addf (colVar x) (broadcastInDim S128 ![] bcast_S_S128 (constant S_ .f32 0x3727C5AC#32)))))))
      (broadcastInDim S50000x128 ![0, 1] bcast_S1x128_S50000x128_0_1 (broadcastInDim S1x128 ![1] bcast_S128_S1x128_1 gamma)))
    (broadcastInDim S50000x128 ![0, 1] bcast_S1x128_S50000x128_0_1 (broadcastInDim S1x128 ![1] bcast_S128_S1x128_1 beta))

/-- The reference's result as a function of its thirteen arguments. -/
def out (a0 : FVec F S50000x128 .f32) (a1 : IVec S2x600000 32) (a2 : FVec F S600000x128 .f32) (a3 : FVec F S384x128 .f32)
    (a4 : FVec F S128 .f32) (a5 : FVec F S128x128 .f32) (a6 : FVec F S128 .f32) (a7 : FVec F S256x128 .f32) (a8 : FVec F S128 .f32)
    (a9 : FVec F S128x128 .f32) (a10 : FVec F S128 .f32) (a11 : FVec F S128 .f32) (a12 : FVec F S128 .f32) : FVec F S50000x128 .f32 :=
  bn (upd a0 (agg (msg (gath a0 (idxRow0 a1)) (gath a0 (idxRow1 a1)) a2 a3 a4 a5 a6) (idxRow0 a1)) a7 a8 a9 a10) a11 a12

end Cert.ReferenceIdeal.St

end
-- ==== Proof.RefOps.lean ====
/-
  The reference program's @main as literal lists of its host operations, in order, each call's body written out
  over that call's buffers: 41, 27, 39, 9 operations in 4 consecutive windows (116 in all),
  a window ending after each of @main's first two calls and at the end of each of its two printed parts.
-/
import proofs.«419319_j7275674599845_1_alg».proof.Proof.Gen.ReferenceIdeal
import Idealize.ShloMosaic.Lib.StableHlo.Run

noncomputable section

namespace Cert.ReferenceIdeal.RefRun

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-- Window 0: 41 operations. -/
abbrev ops0 : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.nullary main_c (constantI S_ 32 0#32),
    StableHlo.unary main_c main_v4 (broadcastInDim S600000 ![] bcast_S_S600000 : (⟨S_, .i32⟩ : BufTy).Contents (Elt F) → (⟨S600000, .i32⟩ : BufTy).Contents (Elt F)),
    StableHlo.binary main_v1 main_v4 main_v5 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 50000#32),
    StableHlo.unary main_c_0 main_v6 (broadcastInDim S600000 ![] bcast_S_S600000 : (⟨S_, .i32⟩ : BufTy).Contents (Elt F) → (⟨S600000, .i32⟩ : BufTy).Contents (Elt F)),
    StableHlo.binary main_v1 main_v6 main_v7 (addi : (⟨S600000, .i32⟩ : BufTy).Contents (Elt F) → (⟨S600000, .i32⟩ : BufTy).Contents (Elt F) → (⟨S600000, .i32⟩ : BufTy).Contents (Elt F)),
    StableHlo.ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v8 main_v9 (broadcastInDim S600000x1 ![0] bcast_S600000_S600000x1_0 : (⟨S600000, .i32⟩ : BufTy).Contents (Elt F) → (⟨S600000x1, .i32⟩ : BufTy).Contents (Elt F)),
    StableHlo.binary main_arg0 main_v9 main_v10 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_c_1 (constantI S_ 32 0#32),
    StableHlo.unary main_c_1 main_v11 (broadcastInDim S600000 ![] bcast_S_S600000 : (⟨S_, .i32⟩ : BufTy).Contents (Elt F) → (⟨S600000, .i32⟩ : BufTy).Contents (Elt F)),
    StableHlo.binary main_v3 main_v11 main_v12 (cmpi .slt : (⟨S600000, .i32⟩ : BufTy).Contents (Elt F) → (⟨S600000, .i32⟩ : BufTy).Contents (Elt F) → (⟨S600000, .i1⟩ : BufTy).Contents (Elt F)),
    StableHlo.nullary main_c_2 (constantI S_ 32 50000#32),
    StableHlo.unary main_c_2 main_v13 (broadcastInDim S600000 ![] bcast_S_S600000 : (⟨S_, .i32⟩ : BufTy).Contents (Elt F) → (⟨S600000, .i32⟩ : BufTy).Contents (Elt F)),
    StableHlo.binary main_v3 main_v13 main_v14 (addi : (⟨S600000, .i32⟩ : BufTy).Contents (Elt F) → (⟨S600000, .i32⟩ : BufTy).Contents (Elt F) → (⟨S600000, .i32⟩ : BufTy).Contents (Elt F)),
    StableHlo.ternary main_v12 main_v14 main_v3 main_v15 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v15 main_v16 (broadcastInDim S600000x1 ![0] bcast_S600000_S600000x1_0 : (⟨S600000, .i32⟩ : BufTy).Contents (Elt F) → (⟨S600000x1, .i32⟩ : BufTy).Contents (Elt F)),
    StableHlo.binary main_arg0 main_v16 main_v17 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nary ![main_v10, main_v17, main_arg2] main_v18 (fun u => concatenate S600000x384 1 [⟨S600000x128, u 0⟩, ⟨S600000x128, u 1⟩, ⟨S600000x128, u 2⟩] concatenates_S600000x128_S600000x128_S600000x128_S600000x384_d1),
    StableHlo.binary main_v18 main_arg3 main_v19 ((fun l r => Host.dotGeneral dot_S600000x384_S384x128_S600000x128_1_0_0_1_n_n none l r) : (⟨S600000x384, .f32⟩ : BufTy).Contents (Elt F) → (⟨S384x128, .f32⟩ : BufTy).Contents (Elt F) → (⟨S600000x128, .f32⟩ : BufTy).Contents (Elt F)),
    StableHlo.unary main_arg4 main_v20 (broadcastInDim S1x128 ![1] bcast_S128_S1x128_1 : (⟨S128, .f32⟩ : BufTy).Contents (Elt F) → (⟨S1x128, .f32⟩ : BufTy).Contents (Elt F)),
    StableHlo.unary main_v20 main_v21 (broadcastInDim S600000x128 ![0, 1] bcast_S1x128_S600000x128_0_1 : (⟨S1x128, .f32⟩ : BufTy).Contents (Elt F) → (⟨S600000x128, .f32⟩ : BufTy).Contents (Elt F)),
    StableHlo.binary main_v19 main_v21 main_v22 (addf : (⟨S600000x128, .f32⟩ : BufTy).Contents (Elt F) → (⟨S600000x128, .f32⟩ : BufTy).Contents (Elt F) → (⟨S600000x128, .f32⟩ : BufTy).Contents (Elt F)),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S600000x128, .f32⟩) (broadcastInDim S600000x128 ![] bcast_S_S600000x128),
    StableHlo.TRef.binary (.of main_v22 : StableHlo.TRef sig ⟨S600000x128, .f32⟩) (.of main_call0_v0 : StableHlo.TRef sig ⟨S600000x128, .f32⟩) (.of main_call0_v1 : StableHlo.TRef sig ⟨S600000x128, .f32⟩) maximumf,
    StableHlo.TRef.unary (.of main_call0_cst : StableHlo.TRef sig ⟨S_, .f32⟩) (.of main_call0_v2 : StableHlo.TRef sig ⟨S600000x128, .f32⟩) (broadcastInDim S600000x128 ![] bcast_S_S600000x128),
    StableHlo.TRef.binary (.of main_v22 : StableHlo.TRef sig ⟨S600000x128, .f32⟩) (.of main_call0_v2 : StableHlo.TRef sig ⟨S600000x128, .f32⟩) (.of main_call0_v3 : StableHlo.TRef sig ⟨S600000x128, .f32⟩) subf,
    StableHlo.TRef.binary (.of main_call0_v3 : StableHlo.TRef sig ⟨S600000x128, .f32⟩) (.of main_call0_v3 : StableHlo.TRef sig ⟨S600000x128, .f32⟩) (.of main_call0_v4 : StableHlo.TRef sig ⟨S600000x128, .i1⟩) (cmpf .une),
    StableHlo.TRef.unary (.of main_call0_cst : StableHlo.TRef sig ⟨S_, .f32⟩) (.of main_call0_v5 : StableHlo.TRef sig ⟨S600000x128, .f32⟩) (broadcastInDim S600000x128 ![] bcast_S_S600000x128),
    StableHlo.TRef.binary (.of main_v22 : StableHlo.TRef sig ⟨S600000x128, .f32⟩) (.of main_call0_v5 : StableHlo.TRef sig ⟨S600000x128, .f32⟩) (.of main_call0_v6 : StableHlo.TRef sig ⟨S600000x128, .f32⟩) addf,
    StableHlo.TRef.unary (.of main_call0_v3 : StableHlo.TRef sig ⟨S600000x128, .f32⟩) (.of main_call0_v7 : StableHlo.TRef sig ⟨S600000x128, .f32⟩) Host.absf,
    StableHlo.TRef.unary (.of main_call0_v7 : StableHlo.TRef sig ⟨S600000x128, .f32⟩) (.of main_call0_v8 : StableHlo.TRef sig ⟨S600000x128, .f32⟩) Host.negf,
    StableHlo.TRef.unary (.of main_call0_v8 : StableHlo.TRef sig ⟨S600000x128, .f32⟩) (.of main_call0_v9 : StableHlo.TRef sig ⟨S600000x128, .f32⟩) Host.exp,
    StableHlo.TRef.unary (.of main_call0_v9 : StableHlo.TRef sig ⟨S600000x128, .f32⟩) (.of main_call0_v10 : StableHlo.TRef sig ⟨S600000x128, .f32⟩) Host.log1p,
    StableHlo.TRef.binary (.of main_call0_v1 : StableHlo.TRef sig ⟨S600000x128, .f32⟩) (.of main_call0_v10 : StableHlo.TRef sig ⟨S600000x128, .f32⟩) (.of main_call0_v11 : StableHlo.TRef sig ⟨S600000x128, .f32⟩) addf,
    StableHlo.TRef.ternary (.of main_call0_v4 : StableHlo.TRef sig ⟨S600000x128, .i1⟩) (.of main_call0_v6 : StableHlo.TRef sig ⟨S600000x128, .f32⟩) (.of main_call0_v11 : StableHlo.TRef sig ⟨S600000x128, .f32⟩) (.of main_v23 : StableHlo.TRef sig ⟨S600000x128, .f32⟩) select ]

/-- Window 1: 27 operations. -/
abbrev ops1 : List (HloOp τ sig (Elt F)) :=
  [ StableHlo.binary main_v23 main_arg5 main_v24 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    StableHlo.unary main_arg6 main_v25 (broadcastInDim S1x128 ![1] bcast_S128_S1x128_1 : (⟨S128, .f32⟩ : BufTy).Contents (Elt F) → (⟨S1x128, .f32⟩ : BufTy).Contents (Elt F)),
    StableHlo.unary main_v25 main_v26 (broadcastInDim S600000x128 ![0, 1] bcast_S1x128_S600000x128_0_1 : (⟨S1x128, .f32⟩ : BufTy).Contents (Elt F) → (⟨S600000x128, .f32⟩ : BufTy).Contents (Elt F)),
    StableHlo.binary main_v24 main_v26 main_v27 (addf : (⟨S600000x128, .f32⟩ : BufTy).Contents (Elt F) → (⟨S600000x128, .f32⟩ : BufTy).Contents (Elt F) → (⟨S600000x128, .f32⟩ : BufTy).Contents (Elt F)),
    StableHlo.nullary main_cst (constant S_ .f32 0x00000000#32),
    StableHlo.unary main_cst main_v28 (broadcastInDim S50000x128 ![] bcast_S_S50000x128 : (⟨S_, .f32⟩ : BufTy).Contents (Elt F) → (⟨S50000x128, .f32⟩ : BufTy).Contents (Elt F)),
    StableHlo.unary main_v1 main_v29 (broadcastInDim S600000x1 ![0] bcast_S600000_S600000x1_0 : (⟨S600000, .i32⟩ : BufTy).Contents (Elt F) → (⟨S600000x1, .i32⟩ : BufTy).Contents (Elt F)),
    StableHlo.ternary main_v28 main_v29 main_v27 main_v30 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_arg0 main_v30 main_v31 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    StableHlo.binary main_v31 main_arg7 main_v32 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg8 main_v33 (broadcastInDim S1x128 ![1] bcast_S128_S1x128_1 : (⟨S128, .f32⟩ : BufTy).Contents (Elt F) → (⟨S1x128, .f32⟩ : BufTy).Contents (Elt F)),
    StableHlo.unary main_v33 main_v34 (broadcastInDim S50000x128 ![0, 1] bcast_S1x128_S50000x128_0_1 : (⟨S1x128, .f32⟩ : BufTy).Contents (Elt F) → (⟨S50000x128, .f32⟩ : BufTy).Contents (Elt F)),
    StableHlo.binary main_v32 main_v34 main_v35 (addf : (⟨S50000x128, .f32⟩ : BufTy).Contents (Elt F) → (⟨S50000x128, .f32⟩ : BufTy).Contents (Elt F) → (⟨S50000x128, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S50000x128, .f32⟩) (broadcastInDim S50000x128 ![] bcast_S_S50000x128),
    StableHlo.TRef.binary (.of main_v35 : StableHlo.TRef sig ⟨S50000x128, .f32⟩) (.of main_call1_v0 : StableHlo.TRef sig ⟨S50000x128, .f32⟩) (.of main_call1_v1 : StableHlo.TRef sig ⟨S50000x128, .f32⟩) maximumf,
    StableHlo.TRef.unary (.of main_call1_cst : StableHlo.TRef sig ⟨S_, .f32⟩) (.of main_call1_v2 : StableHlo.TRef sig ⟨S50000x128, .f32⟩) (broadcastInDim S50000x128 ![] bcast_S_S50000x128),
    StableHlo.TRef.binary (.of main_v35 : StableHlo.TRef sig ⟨S50000x128, .f32⟩) (.of main_call1_v2 : StableHlo.TRef sig ⟨S50000x128, .f32⟩) (.of main_call1_v3 : StableHlo.TRef sig ⟨S50000x128, .f32⟩) subf,
    StableHlo.TRef.binary (.of main_call1_v3 : StableHlo.TRef sig ⟨S50000x128, .f32⟩) (.of main_call1_v3 : StableHlo.TRef sig ⟨S50000x128, .f32⟩) (.of main_call1_v4 : StableHlo.TRef sig ⟨S50000x128, .i1⟩) (cmpf .une),
    StableHlo.TRef.unary (.of main_call1_cst : StableHlo.TRef sig ⟨S_, .f32⟩) (.of main_call1_v5 : StableHlo.TRef sig ⟨S50000x128, .f32⟩) (broadcastInDim S50000x128 ![] bcast_S_S50000x128),
    StableHlo.TRef.binary (.of main_v35 : StableHlo.TRef sig ⟨S50000x128, .f32⟩) (.of main_call1_v5 : StableHlo.TRef sig ⟨S50000x128, .f32⟩) (.of main_call1_v6 : StableHlo.TRef sig ⟨S50000x128, .f32⟩) addf,
    StableHlo.TRef.unary (.of main_call1_v3 : StableHlo.TRef sig ⟨S50000x128, .f32⟩) (.of main_call1_v7 : StableHlo.TRef sig ⟨S50000x128, .f32⟩) Host.absf,
    StableHlo.TRef.unary (.of main_call1_v7 : StableHlo.TRef sig ⟨S50000x128, .f32⟩) (.of main_call1_v8 : StableHlo.TRef sig ⟨S50000x128, .f32⟩) Host.negf,
    StableHlo.TRef.unary (.of main_call1_v8 : StableHlo.TRef sig ⟨S50000x128, .f32⟩) (.of main_call1_v9 : StableHlo.TRef sig ⟨S50000x128, .f32⟩) Host.exp,
    StableHlo.TRef.unary (.of main_call1_v9 : StableHlo.TRef sig ⟨S50000x128, .f32⟩) (.of main_call1_v10 : StableHlo.TRef sig ⟨S50000x128, .f32⟩) Host.log1p,
    StableHlo.TRef.binary (.of main_call1_v1 : StableHlo.TRef sig ⟨S50000x128, .f32⟩) (.of main_call1_v10 : StableHlo.TRef sig ⟨S50000x128, .f32⟩) (.of main_call1_v11 : StableHlo.TRef sig ⟨S50000x128, .f32⟩) addf,
    StableHlo.TRef.ternary (.of main_call1_v4 : StableHlo.TRef sig ⟨S50000x128, .i1⟩) (.of main_call1_v6 : StableHlo.TRef sig ⟨S50000x128, .f32⟩) (.of main_call1_v11 : StableHlo.TRef sig ⟨S50000x128, .f32⟩) (.of main_v36 : StableHlo.TRef sig ⟨S50000x128, .f32⟩) select ]

/-- Window 2: 39 operations. -/
abbrev ops2 : List (HloOp τ sig (Elt F)) :=
  [ StableHlo.binary main_v36 main_arg9 main_v37 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg10 main_v38 (broadcastInDim S1x128 ![1] bcast_S128_S1x128_1 : (⟨S128, .f32⟩ : BufTy).Contents (Elt F) → (⟨S1x128, .f32⟩ : BufTy).Contents (Elt F)),
    StableHlo.unary main_v38 main_v39 (broadcastInDim S50000x128 ![0, 1] bcast_S1x128_S50000x128_0_1 : (⟨S1x128, .f32⟩ : BufTy).Contents (Elt F) → (⟨S50000x128, .f32⟩ : BufTy).Contents (Elt F)),
    StableHlo.binary main_v37 main_v39 main_v40 (addf : (⟨S50000x128, .f32⟩ : BufTy).Contents (Elt F) → (⟨S50000x128, .f32⟩ : BufTy).Contents (Elt F) → (⟨S50000x128, .f32⟩ : BufTy).Contents (Elt F)),
    StableHlo.nullary main_cst_3 (constant S_ .f32 0x00000000#32),
    StableHlo.binary main_v40 main_cst_3 main_v41 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_4 (constant S_ .f32 0x47435000#32),
    StableHlo.unary main_cst_4 main_v42 (broadcastInDim S128 ![] bcast_S_S128 : (⟨S_, .f32⟩ : BufTy).Contents (Elt F) → (⟨S128, .f32⟩ : BufTy).Contents (Elt F)),
    StableHlo.binary main_v41 main_v42 main_v43 (Host.divf : (⟨S128, .f32⟩ : BufTy).Contents (Elt F) → (⟨S128, .f32⟩ : BufTy).Contents (Elt F) → (⟨S128, .f32⟩ : BufTy).Contents (Elt F)),
    StableHlo.nullary main_c_5 (constantI S_ 32 0#32),
    StableHlo.TRef.nullary (.of main_call2_cst : StableHlo.TRef sig ⟨S_, .f32⟩) (constant S_ .f32 0x00000000#32),
    StableHlo.TRef.binary (.of main_v40 : StableHlo.TRef sig ⟨S50000x128, .f32⟩) (.of main_call2_cst : StableHlo.TRef sig ⟨S_, .f32⟩) (.of main_call2_v0 : StableHlo.TRef sig ⟨S128, .f32⟩) (fun x v => Host.reduceAdd x v reducesTo_S50000x128_S128_d0 h_S_),
    StableHlo.TRef.unary (.of main_call2_v0 : StableHlo.TRef sig ⟨S128, .f32⟩) (.of main_call2_v1 : StableHlo.TRef sig ⟨S1x128, .f32⟩) (broadcastInDim S1x128 ![1] bcast_S128_S1x128_1),
    StableHlo.TRef.nullary (.of main_call2_cst_0 : StableHlo.TRef sig ⟨S_, .f32⟩) (constant S_ .f32 0x47435000#32),
    StableHlo.TRef.unary (.of main_call2_cst_0 : StableHlo.TRef sig ⟨S_, .f32⟩) (.of main_call2_v2 : StableHlo.TRef sig ⟨S1x128, .f32⟩) (broadcastInDim S1x128 ![] bcast_S_S1x128),
    StableHlo.TRef.binary (.of main_call2_v1 : StableHlo.TRef sig ⟨S1x128, .f32⟩) (.of main_call2_v2 : StableHlo.TRef sig ⟨S1x128, .f32⟩) (.of main_call2_v3 : StableHlo.TRef sig ⟨S1x128, .f32⟩) Host.divf,
    StableHlo.TRef.unary (.of main_call2_v3 : StableHlo.TRef sig ⟨S1x128, .f32⟩) (.of main_call2_v4 : StableHlo.TRef sig ⟨S50000x128, .f32⟩) (broadcastInDim S50000x128 ![0, 1] bcast_S1x128_S50000x128_0_1),
    StableHlo.TRef.binary (.of main_v40 : StableHlo.TRef sig ⟨S50000x128, .f32⟩) (.of main_call2_v4 : StableHlo.TRef sig ⟨S50000x128, .f32⟩) (.of main_call2_v5 : StableHlo.TRef sig ⟨S50000x128, .f32⟩) subf,
    StableHlo.TRef.binary (.of main_call2_v5 : StableHlo.TRef sig ⟨S50000x128, .f32⟩) (.of main_call2_v5 : StableHlo.TRef sig ⟨S50000x128, .f32⟩) (.of main_call2_v6 : StableHlo.TRef sig ⟨S50000x128, .f32⟩) mulf,
    StableHlo.TRef.unary (.of main_c_5 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47435000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S50000x128, .f32⟩) (.of main_call2_cst_2 : StableHlo.TRef sig ⟨S_, .f32⟩) (.of main_call2_v9 : StableHlo.TRef sig ⟨S128, .f32⟩) (fun x v => Host.reduceAdd x v reducesTo_S50000x128_S128_d0 h_S_),
    StableHlo.TRef.unary (.of main_call2_v8 : StableHlo.TRef sig ⟨S_, .f32⟩) (.of main_call2_v10 : StableHlo.TRef sig ⟨S128, .f32⟩) (broadcastInDim S128 ![] bcast_S_S128),
    StableHlo.TRef.binary (.of main_call2_v9 : StableHlo.TRef sig ⟨S128, .f32⟩) (.of main_call2_v10 : StableHlo.TRef sig ⟨S128, .f32⟩) (.of main_call2_v11 : StableHlo.TRef sig ⟨S128, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S128, .f32⟩) (broadcastInDim S128 ![] bcast_S_S128),
    StableHlo.TRef.ternary (.of main_call2_v12 : StableHlo.TRef sig ⟨S_, .i1⟩) (.of main_call2_v11 : StableHlo.TRef sig ⟨S128, .f32⟩) (.of main_call2_call0_v1 : StableHlo.TRef sig ⟨S128, .f32⟩) (.of main_v44 : StableHlo.TRef sig ⟨S128, .f32⟩) (fun p a b => select (broadcastInDim S128 ![] bcast_S_S128 p) a b),
    StableHlo.unary main_v43 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S50000x128 ![0, 1] bcast_S1x128_S50000x128_0_1 : (⟨S1x128, .f32⟩ : BufTy).Contents (Elt F) → (⟨S50000x128, .f32⟩ : BufTy).Contents (Elt F)),
    StableHlo.binary main_v40 main_v46 main_v47 (subf : (⟨S50000x128, .f32⟩ : BufTy).Contents (Elt F) → (⟨S50000x128, .f32⟩ : BufTy).Contents (Elt F) → (⟨S50000x128, .f32⟩ : BufTy).Contents (Elt F)),
    StableHlo.nullary main_cst_6 (constant S_ .f32 0x3727C5AC#32),
    StableHlo.unary main_cst_6 main_v48 (broadcastInDim S128 ![] bcast_S_S128 : (⟨S_, .f32⟩ : BufTy).Contents (Elt F) → (⟨S128, .f32⟩ : BufTy).Contents (Elt F)),
    StableHlo.binary main_v44 main_v48 main_v49 (addf : (⟨S128, .f32⟩ : BufTy).Contents (Elt F) → (⟨S128, .f32⟩ : BufTy).Contents (Elt F) → (⟨S128, .f32⟩ : BufTy).Contents (Elt F)),
    StableHlo.unary main_v49 main_v50 (Host.rsqrt : (⟨S128, .f32⟩ : BufTy).Contents (Elt F) → (⟨S128, .f32⟩ : BufTy).Contents (Elt F)) ]

/-- Window 3: 9 operations. -/
abbrev ops3 : List (HloOp τ sig (Elt F)) :=
  [ StableHlo.unary main_v50 main_v51 (broadcastInDim S1x128 ![1] bcast_S128_S1x128_1 : (⟨S128, .f32⟩ : BufTy).Contents (Elt F) → (⟨S1x128, .f32⟩ : BufTy).Contents (Elt F)),
    StableHlo.unary main_v51 main_v52 (broadcastInDim S50000x128 ![0, 1] bcast_S1x128_S50000x128_0_1 : (⟨S1x128, .f32⟩ : BufTy).Contents (Elt F) → (⟨S50000x128, .f32⟩ : BufTy).Contents (Elt F)),
    StableHlo.binary main_v47 main_v52 main_v53 (mulf : (⟨S50000x128, .f32⟩ : BufTy).Contents (Elt F) → (⟨S50000x128, .f32⟩ : BufTy).Contents (Elt F) → (⟨S50000x128, .f32⟩ : BufTy).Contents (Elt F)),
    StableHlo.unary main_arg11 main_v54 (broadcastInDim S1x128 ![1] bcast_S128_S1x128_1 : (⟨S128, .f32⟩ : BufTy).Contents (Elt F) → (⟨S1x128, .f32⟩ : BufTy).Contents (Elt F)),
    StableHlo.unary main_v54 main_v55 (broadcastInDim S50000x128 ![0, 1] bcast_S1x128_S50000x128_0_1 : (⟨S1x128, .f32⟩ : BufTy).Contents (Elt F) → (⟨S50000x128, .f32⟩ : BufTy).Contents (Elt F)),
    StableHlo.binary main_v53 main_v55 main_v56 (mulf : (⟨S50000x128, .f32⟩ : BufTy).Contents (Elt F) → (⟨S50000x128, .f32⟩ : BufTy).Contents (Elt F) → (⟨S50000x128, .f32⟩ : BufTy).Contents (Elt F)),
    StableHlo.unary main_arg12 main_v57 (broadcastInDim S1x128 ![1] bcast_S128_S1x128_1 : (⟨S128, .f32⟩ : BufTy).Contents (Elt F) → (⟨S1x128, .f32⟩ : BufTy).Contents (Elt F)),
    StableHlo.unary main_v57 main_v58 (broadcastInDim S50000x128 ![0, 1] bcast_S1x128_S50000x128_0_1 : (⟨S1x128, .f32⟩ : BufTy).Contents (Elt F) → (⟨S50000x128, .f32⟩ : BufTy).Contents (Elt F)),
    StableHlo.binary main_v56 main_v58 main_v59 (addf : (⟨S50000x128, .f32⟩ : BufTy).Contents (Elt F) → (⟨S50000x128, .f32⟩ : BufTy).Contents (Elt F) → (⟨S50000x128, .f32⟩ : BufTy).Contents (Elt F)) ]

end Cert.ReferenceIdeal.RefRun

end
-- ==== Proof.RefRun.lean ====
/-
  The reference program's run read back. @main is a straight line of host operations once its three calls (the two
  softplus functions and the column variance, which itself calls the select-or-default function) are written out over
  their own buffers: `ops`, four consecutive windows of the literal lists of the operations module. `main_eq` says the
  printed program IS that line; `run` that every weakly fair execution ends with the result buffer at `St.out` of the
  thirteen arguments' launch contents and the arguments as launched.
-/
import proofs.«419319_j7275674599845_1_alg».proof.ReferenceIdeal
import proofs.«419319_j7275674599845_1_alg».proof.Proof.Gen.ReferenceIdeal
import proofs.«419319_j7275674599845_1_alg».proof.Proof.RStages
import proofs.«419319_j7275674599845_1_alg».proof.Proof.RefOps
import Idealize.ShloMosaic.Lib.StableHlo.Run
import Idealize.ShloMosaic.Lib.Pipeline.Frame

noncomputable section

namespace Cert.ReferenceIdeal.RefRun

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-- @main's 116 operations, in order: the four windows one after the other. -/
abbrev ops : List (HloOp τ sig (Elt F)) := ops0 ++ ops1 ++ ops2 ++ ops3

/-! ## The program is the line

Each printed part is a chain of `hlo` steps, a call contributing its callee's chain followed by the rest: binding a
chain that ends in `pure` to a continuation grafts the continuation at its end, by computation. -/

set_option maxRecDepth 16384 in
set_option maxHeartbeats 4000000 in
theorem main_part0_eq (c : Dev nD) : main_part0 (F := F) c = seq (ops0 ++ ops1 ++ ops2) := rfl

set_option maxRecDepth 8192 in
theorem main_part1_eq (c : Dev nD) : main_part1 (F := F) c = seq ops3 := rfl

set_option maxRecDepth 8192 in
theorem main_eq (c : Dev nD) : main (F := F) c = seq ops := by
  rw [ops, seq_append (ops0 ++ ops1 ++ ops2) ops3, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only -/

set_option maxRecDepth 8192 in
theorem ops0_sub : (ops0 : List (HloOp τ sig (Elt F))).Forall fun op => op.bufs ⊆ tcRefs τ sig := by
  simp only [List.Forall, nullary_bufs_sub, unary_bufs_sub, binary_bufs_sub, ternary_bufs_sub, reshape_bufs_sub,
    nary_bufs_sub, and_self]

set_option maxRecDepth 8192 in
theorem ops1_sub : (ops1 : List (HloOp τ sig (Elt F))).Forall fun op => op.bufs ⊆ tcRefs τ sig := by
  simp only [List.Forall, nullary_bufs_sub, unary_bufs_sub, binary_bufs_sub, ternary_bufs_sub, reshape_bufs_sub,
    nary_bufs_sub, and_self]

set_option maxRecDepth 8192 in
theorem ops2_sub : (ops2 : List (HloOp τ sig (Elt F))).Forall fun op => op.bufs ⊆ tcRefs τ sig := by
  simp only [List.Forall, nullary_bufs_sub, unary_bufs_sub, binary_bufs_sub, ternary_bufs_sub, reshape_bufs_sub,
    nary_bufs_sub, and_self]

set_option maxRecDepth 8192 in
theorem ops3_sub : (ops3 : List (HloOp τ sig (Elt F))).Forall fun op => op.bufs ⊆ tcRefs τ sig := by
  simp only [List.Forall, nullary_bufs_sub, unary_bufs_sub, binary_bufs_sub, ternary_bufs_sub, reshape_bufs_sub,
    nary_bufs_sub, and_self]

theorem ops_sub : (ops : List (HloOp τ sig (Elt F))).Forall fun op => op.bufs ⊆ tcRefs τ sig :=
  List.forall_iff_forall_mem.mpr fun op h => by
    simp only [ops, List.mem_append] at h
    rcases h with ((h | h) | h) | h
    exacts [List.forall_iff_forall_mem.mp ops0_sub op h, List.forall_iff_forall_mem.mp ops1_sub op h,
      List.forall_iff_forall_mem.mp ops2_sub op h, List.forall_iff_forall_mem.mp ops3_sub op h]

/-! ## The run, over every buffer -/

set_option maxRecDepth 16384 in
set_option maxHeartbeats 4000000 in
/-- Every weakly fair execution of @main terminates with each TensorCore buffer at the operations' fold over the
    launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## What each window computes, from any contents

Window `k`'s fold is named (`runK`), and read at the buffers a later window or the caller still needs: the thirteen
arguments, which no operation writes, and the results that cross a boundary — the first index row and the message
network's hidden layer after window 0, the update network's hidden layer after window 1, the centred features and
the reciprocal standard deviation after window 2, the result after window 3. -/

-- kept folded while two terms are compared: their bodies are folds over the operand's elements, which no equation here looks into
attribute [local irreducible] Host.gather Host.scatterAdd Host.reduceAdd concatenate

/-- The contents after window 0's operations, from contents `W`; likewise the other three. -/
def run0 (W : Valuation τ sig (Elt F)) : Valuation τ sig (Elt F) := after ops0 W
@[inherit_doc run0] def run1 (W : Valuation τ sig (Elt F)) : Valuation τ sig (Elt F) := after ops1 W
@[inherit_doc run0] def run2 (W : Valuation τ sig (Elt F)) : Valuation τ sig (Elt F) := after ops2 W
@[inherit_doc run0] def run3 (W : Valuation τ sig (Elt F)) : Valuation τ sig (Elt F) := after ops3 W

/-- The whole line's fold is the four windows' in turn. -/
theorem after_ops (V : Valuation τ sig (Elt F)) : after ops V = run3 (run2 (run1 (run0 V))) := by
  simp only [ops, after_append]
  rfl

/-- The thirteen argument buffers. -/
abbrev argRefs : List (Ref sig .tc) := [main_arg0, main_arg1, main_arg2, main_arg3, main_arg4, main_arg5, main_arg6, main_arg7, main_arg8, main_arg9, main_arg10, main_arg11, main_arg12]

set_option maxRecDepth 8192 in
set_option maxHeartbeats 2000000 in
theorem run0_arg (W : Valuation τ sig (Elt F)) (r : Ref sig .tc) (h : r ∈ argRefs) :
    run0 W (no_index (Proc.devRef .tc r)) = W (Proc.devRef .tc r) := by
  simp only [argRefs, List.mem_cons, List.not_mem_nil, or_false] at h
  unfold run0
  simp only [ops0]
  rcases h with rfl | rfl | rfl | rfl | rfl | rfl | rfl | rfl | rfl | rfl | rfl | rfl | rfl
  all_goals after_results_simp

set_option maxRecDepth 8192 in
set_option maxHeartbeats 2000000 in
theorem run1_arg (W : Valuation τ sig (Elt F)) (r : Ref sig .tc) (h : r ∈ argRefs) :
    run1 W (no_index (Proc.devRef .tc r)) = W (Proc.devRef .tc r) := by
  simp only [argRefs, List.mem_cons, List.not_mem_nil, or_false] at h
  unfold run1
  simp only [ops1]
  rcases h with rfl | rfl | rfl | rfl | rfl | rfl | rfl | rfl | rfl | rfl | rfl | rfl | rfl
  all_goals after_results_simp

set_option maxRecDepth 8192 in
set_option maxHeartbeats 2000000 in
theorem run2_arg (W : Valuation τ sig (Elt F)) (r : Ref sig .tc) (h : r ∈ argRefs) :
    run2 W (no_index (Proc.devRef .tc r)) = W (Proc.devRef .tc r) := by
  simp only [argRefs, List.mem_cons, List.not_mem_nil, or_false] at h
  unfold run2
  simp only [ops2]
  rcases h with rfl | rfl | rfl | rfl | rfl | rfl | rfl | rfl | rfl | rfl | rfl | rfl | rfl
  all_goals after_results_simp

set_option maxRecDepth 8192 in
set_option maxHeartbeats 2000000 in
theorem run3_arg (W : Valuation τ sig (Elt F)) (r : Ref sig .tc) (h : r ∈ argRefs) :
    run3 W (no_index (Proc.devRef .tc r)) = W (Proc.devRef .tc r) := by
  simp only [argRefs, List.mem_cons, List.not_mem_nil, or_false] at h
  unfold run3
  simp only [ops3]
  rcases h with rfl | rfl | rfl | rfl | rfl | rfl | rfl | rfl | rfl | rfl | rfl | rfl | rfl
  all_goals after_results_simp

set_option maxRecDepth 8192 in
set_option maxHeartbeats 2000000 in
/-- Window 0 leaves the edge list's first row in `main_v1`. -/
theorem run0_v1 (W : Valuation τ sig (Elt F)) :
    run0 W (no_index (Proc.devRef .tc main_v1)) = St.idxRow0 (W (Proc.devRef .tc main_arg1)) := by
  unfold run0
  simp only [ops0]
  after_results_simp <;> rfl

set_option maxRecDepth 8192 in
set_option maxHeartbeats 4000000 in
/-- Window 0 leaves the message network's hidden layer in `main_v23`: softplus of the first product over the gathered
    rows beside the edge attributes, plus its bias. -/
theorem run0_v23 (W : Valuation τ sig (Elt F)) :
    run0 W (no_index (Proc.devRef .tc main_v23))
      = St.softplusE (addf (Host.dotGeneral dot_S600000x384_S384x128_S600000x128_1_0_0_1_n_n none
          (concatenate S600000x384 1 [⟨S600000x128, St.gath (W (Proc.devRef .tc main_arg0)) (St.idxRow0 (W (Proc.devRef .tc main_arg1)))⟩,
              ⟨S600000x128, St.gath (W (Proc.devRef .tc main_arg0)) (St.idxRow1 (W (Proc.devRef .tc main_arg1)))⟩, ⟨S600000x128, (W (Proc.devRef .tc main_arg2))⟩]
            concatenates_S600000x128_S600000x128_S600000x128_S600000x384_d1) (W (Proc.devRef .tc main_arg3)))
        (broadcastInDim S600000x128 ![0, 1] bcast_S1x128_S600000x128_0_1 (broadcastInDim S1x128 ![1] bcast_S128_S1x128_1 (W (Proc.devRef .tc main_arg4))))) := by
  unfold run0
  simp only [ops0]
  after_results_simp
  try dsimp only [Matrix.cons_val]
  try after_results_simp
  all_goals rfl

set_option maxRecDepth 8192 in
set_option maxHeartbeats 4000000 in
/-- Window 1 leaves the update network's hidden layer in `main_v36`: the messages (the second product of the hidden layer
    it finds in `main_v23`, plus its bias) summed onto the nodes `main_v1` names, set beside the features, through the
    first product, bias and softplus. -/
theorem run1_v36 (W : Valuation τ sig (Elt F)) :
    run1 W (no_index (Proc.devRef .tc main_v36))
      = St.softplusN (addf (Host.dotGeneral dot_S50000x256_S256x128_S50000x128_1_0_0_1_n_n none
          (concatenate S50000x256 1 [⟨S50000x128, (W (Proc.devRef .tc main_arg0))⟩,
              ⟨S50000x128, St.agg (addf (Host.dotGeneral dot_S600000x128_S128x128_S600000x128_1_0_0_1_n_n none (W (Proc.devRef .tc main_v23)) (W (Proc.devRef .tc main_arg5)))
                (broadcastInDim S600000x128 ![0, 1] bcast_S1x128_S600000x128_0_1 (broadcastInDim S1x128 ![1] bcast_S128_S1x128_1 (W (Proc.devRef .tc main_arg6))))) (W (Proc.devRef .tc main_v1))⟩]
            concatenates_S50000x128_S50000x128_S50000x256_d1) (W (Proc.devRef .tc main_arg7)))
        (broadcastInDim S50000x128 ![0, 1] bcast_S1x128_S50000x128_0_1 (broadcastInDim S1x128 ![1] bcast_S128_S1x128_1 (W (Proc.devRef .tc main_arg8))))) := by
  unfold run1
  simp only [ops1]
  after_results_simp <;> rfl

set_option maxRecDepth 8192 in
set_option maxHeartbeats 4000000 in
/-- Window 2 leaves in `main_v47` the updated features (the second product of the hidden layer it finds in `main_v36`,
    plus its bias) less their column means. -/
theorem run2_v47 (W : Valuation τ sig (Elt F)) :
    run2 W (no_index (Proc.devRef .tc main_v47))
      = subf (addf (Host.dotGeneral dot_S50000x128_S128x128_S50000x128_1_0_0_1_n_n none (W (Proc.devRef .tc main_v36)) (W (Proc.devRef .tc main_arg9)))
        (broadcastInDim S50000x128 ![0, 1] bcast_S1x128_S50000x128_0_1 (broadcastInDim S1x128 ![1] bcast_S128_S1x128_1 (W (Proc.devRef .tc main_arg10)))))
          (broadcastInDim S50000x128 ![0, 1] bcast_S1x128_S50000x128_0_1 (broadcastInDim S1x128 ![1] bcast_S128_S1x128_1 (St.colMean (addf (Host.dotGeneral dot_S50000x128_S128x128_S50000x128_1_0_0_1_n_n none (W (Proc.devRef .tc main_v36)) (W (Proc.devRef .tc main_arg9)))
        (broadcastInDim S50000x128 ![0, 1] bcast_S1x128_S50000x128_0_1 (broadcastInDim S1x128 ![1] bcast_S128_S1x128_1 (W (Proc.devRef .tc main_arg10)))))))) := by
  unfold run2
  simp only [ops2]
  after_results_simp <;> rfl

set_option maxRecDepth 8192 in
set_option maxHeartbeats 4000000 in
/-- Window 2 leaves in `main_v50` the reciprocal square root of the updated features' column variances plus epsilon. -/
theorem run2_v50 (W : Valuation τ sig (Elt F)) :
    run2 W (no_index (Proc.devRef .tc main_v50))
      = Host.rsqrt (addf (St.colVar (addf (Host.dotGeneral dot_S50000x128_S128x128_S50000x128_1_0_0_1_n_n none (W (Proc.devRef .tc main_v36)) (W (Proc.devRef .tc main_arg9)))
        (broadcastInDim S50000x128 ![0, 1] bcast_S1x128_S50000x128_0_1 (broadcastInDim S1x128 ![1] bcast_S128_S1x128_1 (W (Proc.devRef .tc main_arg10))))))
          (broadcastInDim S128 ![] bcast_S_S128 (constant S_ .f32 0x3727C5AC#32))) := by
  unfold run2
  simp only [ops2]
  after_results_simp <;> rfl

set_option maxRecDepth 8192 in
/-- Window 3 scales the centred features by the reciprocal deviation and by gamma, and adds beta. -/
theorem run3_v59 (W : Valuation τ sig (Elt F)) :
    run3 W (no_index (Proc.devRef .tc main_v59))
      = addf (mulf (mulf (W (Proc.devRef .tc main_v47)) (broadcastInDim S50000x128 ![0, 1] bcast_S1x128_S50000x128_0_1 (broadcastInDim S1x128 ![1] bcast_S128_S1x128_1 (W (Proc.devRef .tc main_v50)))))
          (broadcastInDim S50000x128 ![0, 1] bcast_S1x128_S50000x128_0_1 (broadcastInDim S1x128 ![1] bcast_S128_S1x128_1 (W (Proc.devRef .tc main_arg11)))))
        (broadcastInDim S50000x128 ![0, 1] bcast_S1x128_S50000x128_0_1 (broadcastInDim S1x128 ![1] bcast_S128_S1x128_1 (W (Proc.devRef .tc main_arg12)))) := by
  unfold run3
  simp only [ops3]
  after_results_simp <;> rfl

/-! ## The result and the arguments after the whole line -/

set_option maxRecDepth 8192 in
/-- The result buffer ends at the stages' composition of the thirteen arguments. -/
theorem out_eq (V : Valuation τ sig (Elt F)) :
    after ops V (main_v59 : DevRef τ sig)
      = St.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  -- the windows' results in turn, then each argument read back through the windows before the one that reads it
  rw [after_ops, run3_v59, run2_v47, run2_v50, run1_v36, run0_v23, run0_v1,
    run2_arg _ main_arg11 (by decide), run2_arg _ main_arg12 (by decide),
    run1_arg _ main_arg9 (by decide), run1_arg _ main_arg10 (by decide), run1_arg _ main_arg11 (by decide),
    run1_arg _ main_arg12 (by decide),
    run0_arg _ main_arg0 (by decide), run0_arg _ main_arg5 (by decide), run0_arg _ main_arg6 (by decide),
    run0_arg _ main_arg7 (by decide), run0_arg _ main_arg8 (by decide), run0_arg _ main_arg9 (by decide),
    run0_arg _ main_arg10 (by decide), run0_arg _ main_arg11 (by decide), run0_arg _ main_arg12 (by decide)]
  -- what is left is the stages' composition written out
  unfold St.out St.bn St.upd St.msg
  rfl

theorem arg0_eq (V : Valuation τ sig (Elt F)) : after ops V (main_arg0 : DevRef τ sig) = V (main_arg0 : DevRef τ sig) := by
  rw [after_ops, run3_arg _ _ (by decide), run2_arg _ _ (by decide), run1_arg _ _ (by decide), run0_arg _ _ (by decide)]

theorem arg1_eq (V : Valuation τ sig (Elt F)) : after ops V (main_arg1 : DevRef τ sig) = V (main_arg1 : DevRef τ sig) := by
  rw [after_ops, run3_arg _ _ (by decide), run2_arg _ _ (by decide), run1_arg _ _ (by decide), run0_arg _ _ (by decide)]

theorem arg2_eq (V : Valuation τ sig (Elt F)) : after ops V (main_arg2 : DevRef τ sig) = V (main_arg2 : DevRef τ sig) := by
  rw [after_ops, run3_arg _ _ (by decide), run2_arg _ _ (by decide), run1_arg _ _ (by decide), run0_arg _ _ (by decide)]

theorem arg3_eq (V : Valuation τ sig (Elt F)) : after ops V (main_arg3 : DevRef τ sig) = V (main_arg3 : DevRef τ sig) := by
  rw [after_ops, run3_arg _ _ (by decide), run2_arg _ _ (by decide), run1_arg _ _ (by decide), run0_arg _ _ (by decide)]

theorem arg4_eq (V : Valuation τ sig (Elt F)) : after ops V (main_arg4 : DevRef τ sig) = V (main_arg4 : DevRef τ sig) := by
  rw [after_ops, run3_arg _ _ (by decide), run2_arg _ _ (by decide), run1_arg _ _ (by decide), run0_arg _ _ (by decide)]

theorem arg5_eq (V : Valuation τ sig (Elt F)) : after ops V (main_arg5 : DevRef τ sig) = V (main_arg5 : DevRef τ sig) := by
  rw [after_ops, run3_arg _ _ (by decide), run2_arg _ _ (by decide), run1_arg _ _ (by decide), run0_arg _ _ (by decide)]

theorem arg6_eq (V : Valuation τ sig (Elt F)) : after ops V (main_arg6 : DevRef τ sig) = V (main_arg6 : DevRef τ sig) := by
  rw [after_ops, run3_arg _ _ (by decide), run2_arg _ _ (by decide), run1_arg _ _ (by decide), run0_arg _ _ (by decide)]

theorem arg7_eq (V : Valuation τ sig (Elt F)) : after ops V (main_arg7 : DevRef τ sig) = V (main_arg7 : DevRef τ sig) := by
  rw [after_ops, run3_arg _ _ (by decide), run2_arg _ _ (by decide), run1_arg _ _ (by decide), run0_arg _ _ (by decide)]

theorem arg8_eq (V : Valuation τ sig (Elt F)) : after ops V (main_arg8 : DevRef τ sig) = V (main_arg8 : DevRef τ sig) := by
  rw [after_ops, run3_arg _ _ (by decide), run2_arg _ _ (by decide), run1_arg _ _ (by decide), run0_arg _ _ (by decide)]

theorem arg9_eq (V : Valuation τ sig (Elt F)) : after ops V (main_arg9 : DevRef τ sig) = V (main_arg9 : DevRef τ sig) := by
  rw [after_ops, run3_arg _ _ (by decide), run2_arg _ _ (by decide), run1_arg _ _ (by decide), run0_arg _ _ (by decide)]

theorem arg10_eq (V : Valuation τ sig (Elt F)) : after ops V (main_arg10 : DevRef τ sig) = V (main_arg10 : DevRef τ sig) := by
  rw [after_ops, run3_arg _ _ (by decide), run2_arg _ _ (by decide), run1_arg _ _ (by decide), run0_arg _ _ (by decide)]

theorem arg11_eq (V : Valuation τ sig (Elt F)) : after ops V (main_arg11 : DevRef τ sig) = V (main_arg11 : DevRef τ sig) := by
  rw [after_ops, run3_arg _ _ (by decide), run2_arg _ _ (by decide), run1_arg _ _ (by decide), run0_arg _ _ (by decide)]

theorem arg12_eq (V : Valuation τ sig (Elt F)) : after ops V (main_arg12 : DevRef τ sig) = V (main_arg12 : DevRef τ sig) := by
  rw [after_ops, run3_arg _ _ (by decide), run2_arg _ _ (by decide), run1_arg _ _ (by decide), run0_arg _ _ (by decide)]

/-! ## The run -/

/-- On every device, for any float values, from any memory with zero counters: every weakly fair execution of @main
    terminates with the result buffer at the stages' composition of the arguments' launch contents and the thirteen
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v59) = St.out (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v59).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c)),
      (h c main_arg10).trans (arg10_eq (launchContents m c)),
      (h c main_arg11).trans (arg11_eq (launchContents m c)),
      (h c main_arg12).trans (arg12_eq (launchContents m c))⟩)
    (run_all m ρ)

end Cert.ReferenceIdeal.RefRun

end
-- ==== Proof.KTake.lean ====
/-
  Where every id of a row of the edge list is a node id, `jnp.take`'s fill mask is all ones: the take is the plain
  gather of the wrapped ids (and the wrap itself leaves a non-negative id as it is).
-/
import proofs.«419319_j7275674599845_1_alg».proof.Proof.KStages
import proofs.«419319_j7275674599845_1_alg».proof.Proof.Gen.KernelIdeal
import Idealize.ShloMosaic.Lib.ReduceAll
import Idealize.ShloMosaic.Lib.ValueIdx
import Idealize.ShloMosaic.Lib.StableHlo.Predicate

noncomputable section
namespace Cert.KernelIdeal.KTake
open Idealize.ShloMosaic Idealize.ShloMosaic.ValueIdx Idealize.ShloMosaic.StableHlo.Predicate Cert.KernelIdeal Cert.KernelIdeal.Facts₀ Cert.KernelIdeal.Facts
variable {F : FTy → Type} [FloatOps F]

/-- A left fold by `and` from 1 over words that are all 1 is 1. -/
theorem foldl_andi_ones {ι : Type} (f : ι → BitVec 1) (l : List ι) (hf : ∀ n ∈ l, f n = 1#1) :
    l.foldl (fun r n => IntOp.andi r (f n)) 1#1 = 1#1 := by
  induction l with
  | nil => rfl
  | cons a l ih =>
    rw [List.foldl_cons, hf a (List.mem_cons_self ..)]
    have e : IntOp.andi (1#1 : BitVec 1) 1#1 = 1#1 := by decide
    rw [e]
    exact ih fun n hn => hf n (List.mem_cons_of_mem _ hn)

/-- An `and`-reduction from 1 of an array of ones is 1 at every index. -/
theorem reduce_andi_ones {s t u : Shape} {axes : List (Fin s.rank)} (x : s.Idx → BitVec 1) (init : u.Idx → BitVec 1)
    (h : s.ReducesTo axes t) (hu : 0 < u.numel) (j : t.Idx) (hx : ∀ i, x i = 1#1) (hi : ∀ k, init k = 1#1) :
    Host.reduce IntOp.andi x init h hu j = 1#1 := by
  unfold Host.reduce
  rw [hi]
  exact foldl_andi_ones (fun n => x (s.rowMajor.symm n)) _ fun n _ => hx _

/-- The wrap leaves a non-negative id as it is. -/
theorem wrap_apply (r : IVec S600000 32) (p : Fin 600000) (h : 0 ≤ (r (Shape.Idx.ofFin p)).toInt) :
    St.wrap r (ixP p) = r (Shape.Idx.ofFin p) := by
  unfold St.wrap
  rw [bcast_col1]
  show Scalar.select (IntOp.cmpi .slt (r (Shape.Idx.ofFin p)) 0#32) _ _ = _
  have hc : IntOp.cmpi .slt (r (Shape.Idx.ofFin p)) 0#32 = 0#1 := by
    apply ValueIdx.eq_zero_of_ne_one
    intro h1
    have h2 := IntOp.cmpi_slt.1 h1
    have h0 : (0#32 : BitVec 32).toInt = 0 := by decide
    omega
  rw [hc, ValueIdx.select_zero]

/-- Where every id of the row is a node id, the fill mask is one on every edge. -/
theorem inRange_one (r : IVec S600000 32) (hr : ∀ e : S600000.Idx, 0 ≤ (r e).toInt ∧ (r e).toInt < 50000)
    (e : S600000.Idx) : St.inRange r e = 1#1 := by
  unfold St.inRange
  refine reduce_andi_ones _ _ _ _ e (fun i => ?_) (fun _ => rfl)
  have hi : i = ixP (i 0) := by
    funext a
    match a with
    | ⟨0, _⟩ => rfl
    | ⟨1, h1⟩ =>
      apply Fin.ext
      have hlt : (i ⟨1, h1⟩).val < 1 := (i ⟨1, h1⟩).isLt
      show (i ⟨1, h1⟩).val = 0
      omega
  rw [hi]
  show IntOp.andi (IntOp.cmpi .sge (St.wrap r (ixP (i 0))) 0#32) (IntOp.cmpi .sle (St.wrap r (ixP (i 0))) 49999#32) = 1#1
  rw [wrap_apply r (i 0) (hr _).1]
  have h0 : (0#32 : BitVec 32).toInt = 0 := by decide
  have h9 : (49999#32 : BitVec 32).toInt = 49999 := by decide
  have h := hr (Shape.Idx.ofFin (i 0))
  refine IntOp.andi_eq_one.2 ⟨IntOp.cmpi_sge.2 ?_, IntOp.cmpi_sle.2 ?_⟩ <;> omega

/-- Where every id of the row is a node id, the take is the gather of the wrapped ids. -/
theorem take_eq (nf : FVec F S50000x128 .f32) (r : IVec S600000 32)
    (hr : ∀ e : S600000.Idx, 0 ≤ (r e).toInt ∧ (r e).toInt < 50000) :
    St.take nf r = Host.gather gather_S50000x128_S600000x1_S600000x128_1_0_n_n_0_1_1128 nf (St.wrap r) := by
  funext i
  unfold St.take
  show Scalar.select (St.inRange r _) _ _ = _
  rw [inRange_one r hr, ValueIdx.select_one]

end Cert.KernelIdeal.KTake
end
-- ==== Proof.RRead.lean ====
/-
  The reference's message stage and update stage read at one index, on the extended reals: entry (e, j) of the
  message array is the two-layer perceptron of Spec applied to edge e's concatenated row, entry (n, j) of the update
  array the same perceptron applied to node n's features beside its aggregate.
-/
import proofs.«419319_j7275674599845_1_alg».proof.Proof.RStages
import proofs.«419319_j7275674599845_1_alg».proof.Proof.Gen.ReferenceIdeal
import proofs.«419319_j7275674599845_1_alg».proof.Proof.Spec
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws

noncomputable section

namespace Cert.ReferenceIdeal.Read

open Idealize.ShloMosaic Idealize.ShloMosaic.ValueIdx Cert.ReferenceIdeal Cert.ReferenceIdeal.Facts₀ Cert.ReferenceIdeal.Facts

/-! ## Softplus at an element -/

/-- On the extended reals nothing differs from itself: the guard of jax's softplus reads 0. -/
theorem une_self (d : EReal) : Ideal.cmp .une d d = 0#1 := by
  simp [Ideal.cmp]

/-- Softplus over the edges, at an element. -/
theorem softplusE_apply (x : FVec Ideal S600000x128 .f32) (i : S600000x128.Idx) :
    St.softplusE x i = Spec.sp (x i) := by
  unfold St.softplusE
  rw [select_apply, cmpf_apply, Ideal.cmpf_def, une_self, select_zero]
  show max (x i) (Ideal.ofBits .f32 0x00000000#32)
      + Ideal.log1p (Ideal.exp (-(max (x i - Ideal.ofBits .f32 0x00000000#32) (-(x i - Ideal.ofBits .f32 0x00000000#32))))) = _
  rw [Ideal.ofBits_zero_f32]
  rfl

/-- Softplus over the nodes, at an element. -/
theorem softplusN_apply (x : FVec Ideal S50000x128 .f32) (i : S50000x128.Idx) :
    St.softplusN x i = Spec.sp (x i) := by
  unfold St.softplusN
  rw [select_apply, cmpf_apply, Ideal.cmpf_def, une_self, select_zero]
  show max (x i) (Ideal.ofBits .f32 0x00000000#32)
      + Ideal.log1p (Ideal.exp (-(max (x i - Ideal.ofBits .f32 0x00000000#32) (-(x i - Ideal.ofBits .f32 0x00000000#32))))) = _
  rw [Ideal.ofBits_zero_f32]
  rfl

/-! ## A bias row under every row -/

/-- The bias broadcast over the edges, at (e, j), is entry j of the bias. -/
theorem biasE_apply (b : FVec Ideal S128 .f32) (e : Fin 600000) (j : Fin 128) :
    broadcastInDim S600000x128 ![0, 1] bcast_S1x128_S600000x128_0_1 (broadcastInDim S1x128 ![1] bcast_S128_S1x128_1 b) (ix2 e j)
      = b (ix1 j) := by
  unfold broadcastInDim
  refine congrArg b (funext fun a => Fin.ext ?_)
  match a with
  | ⟨0, _⟩ => rfl

/-- The bias broadcast over the nodes, at (n, j), is entry j of the bias. -/
theorem biasN_apply (b : FVec Ideal S128 .f32) (n : Fin 50000) (j : Fin 128) :
    broadcastInDim S50000x128 ![0, 1] bcast_S1x128_S50000x128_0_1 (broadcastInDim S1x128 ![1] bcast_S128_S1x128_1 b) (ix2 n j)
      = b (ix1 j) := by
  unfold broadcastInDim
  refine congrArg b (funext fun a => Fin.ext ?_)
  match a with
  | ⟨0, _⟩ => rfl

/-! ## The four products at an index -/

/-- Each of the four products is a plain rows-by-columns product; entry (r, c) is the sum over the contracted
    coordinate of the products of the entries. The first layer over the edges: 384 features. -/
theorem dotE1_apply (x : FVec Ideal S600000x384 .f32) (W : FVec Ideal S384x128 .f32) (e : Fin 600000) (k : Fin 128) :
    Host.dotGeneral (F := Ideal) dot_S600000x384_S384x128_S600000x128_1_0_0_1_n_n none x W (ix2 e k) = ∑ i : Fin 384, x (ix2 e i) * W (ix2 i k) :=
  StackMember.dotGeneral_plain_apply (m := 600000) (n := 128) (k := 384) none x W e k

/-- The second layer over the edges: 128 features. -/
theorem dotE2_apply (x : FVec Ideal S600000x128 .f32) (W : FVec Ideal S128x128 .f32) (e : Fin 600000) (k : Fin 128) :
    Host.dotGeneral (F := Ideal) dot_S600000x128_S128x128_S600000x128_1_0_0_1_n_n none x W (ix2 e k) = ∑ i : Fin 128, x (ix2 e i) * W (ix2 i k) :=
  StackMember.dotGeneral_plain_apply (m := 600000) (n := 128) (k := 128) none x W e k

/-- The first layer over the nodes: 256 features. -/
theorem dotN1_apply (x : FVec Ideal S50000x256 .f32) (W : FVec Ideal S256x128 .f32) (n : Fin 50000) (k : Fin 128) :
    Host.dotGeneral (F := Ideal) dot_S50000x256_S256x128_S50000x128_1_0_0_1_n_n none x W (ix2 n k) = ∑ i : Fin 256, x (ix2 n i) * W (ix2 i k) :=
  StackMember.dotGeneral_plain_apply (m := 50000) (n := 128) (k := 256) none x W n k

/-- The second layer over the nodes: 128 features. -/
theorem dotN2_apply (x : FVec Ideal S50000x128 .f32) (W : FVec Ideal S128x128 .f32) (n : Fin 50000) (k : Fin 128) :
    Host.dotGeneral (F := Ideal) dot_S50000x128_S128x128_S50000x128_1_0_0_1_n_n none x W (ix2 n k) = ∑ i : Fin 128, x (ix2 n i) * W (ix2 i k) :=
  StackMember.dotGeneral_plain_apply (m := 50000) (n := 128) (k := 128) none x W n k

/-! ## The concatenated rows at an index -/

/-- The three edge arrays side by side, at (e, i): block `i / 128` at (e, i mod 128). -/
theorem catE_apply (rf cf ea : FVec Ideal S600000x128 .f32) (e : Fin 600000) (i : Fin 384) :
    concatenate S600000x384 1 [⟨S600000x128, rf⟩, ⟨S600000x128, cf⟩, ⟨S600000x128, ea⟩]
        concatenates_S600000x128_S600000x128_S600000x128_S600000x384_d1 (ix2 e i)
      = Spec.cat3 (fun k => rf (ix2 e k)) (fun k => cf (ix2 e k)) (fun k => ea (ix2 e k)) i := by
  simp only [Spec.cat3]
  split
  · next h1 =>
    exact concatenate_apply_piece (t := S600000x384) (a := 1)
      (xs := [⟨S600000x128, rf⟩, ⟨S600000x128, cf⟩, ⟨S600000x128, ea⟩])
      concatenates_S600000x128_S600000x128_S600000x128_S600000x384_d1 (ix2 e i) 0 (by simp) S600000x128 rf rfl rfl 0 rfl
      (ix2 e ⟨i.val, h1⟩)
      (fun b hb => by
        match b with
        | ⟨0, _⟩ => rfl
        | ⟨1, _⟩ => exact absurd rfl hb)
      (by show 0 + i.val = i.val; omega)
  · next h1 =>
    split
    · next h2 =>
      exact concatenate_apply_piece (t := S600000x384) (a := 1)
        (xs := [⟨S600000x128, rf⟩, ⟨S600000x128, cf⟩, ⟨S600000x128, ea⟩])
        concatenates_S600000x128_S600000x128_S600000x128_S600000x384_d1 (ix2 e i) 1 (by simp) S600000x128 cf rfl rfl 128 rfl
        (ix2 e ⟨i.val - 128, by omega⟩)
        (fun b hb => by
          match b with
          | ⟨0, _⟩ => rfl
          | ⟨1, _⟩ => exact absurd rfl hb)
        (by show 128 + (i.val - 128) = i.val; omega)
    · next h2 =>
      exact concatenate_apply_piece (t := S600000x384) (a := 1)
        (xs := [⟨S600000x128, rf⟩, ⟨S600000x128, cf⟩, ⟨S600000x128, ea⟩])
        concatenates_S600000x128_S600000x128_S600000x128_S600000x384_d1 (ix2 e i) 2 (by simp) S600000x128 ea rfl rfl 256 rfl
        (ix2 e ⟨i.val - 256, by omega⟩)
        (fun b hb => by
          match b with
          | ⟨0, _⟩ => rfl
          | ⟨1, _⟩ => exact absurd rfl hb)
        (by show 256 + (i.val - 256) = i.val; omega)

/-- The node features beside the aggregate, at (n, i): block `i / 128` at (n, i mod 128). -/
theorem catN_apply (nf ag : FVec Ideal S50000x128 .f32) (n : Fin 50000) (i : Fin 256) :
    concatenate S50000x256 1 [⟨S50000x128, nf⟩, ⟨S50000x128, ag⟩] concatenates_S50000x128_S50000x128_S50000x256_d1 (ix2 n i)
      = Spec.cat2 (fun k => nf (ix2 n k)) (fun k => ag (ix2 n k)) i := by
  simp only [Spec.cat2]
  split
  · next h1 =>
    exact concatenate_apply_piece (t := S50000x256) (a := 1) (xs := [⟨S50000x128, nf⟩, ⟨S50000x128, ag⟩])
      concatenates_S50000x128_S50000x128_S50000x256_d1 (ix2 n i) 0 (by simp) S50000x128 nf rfl rfl 0 rfl
      (ix2 n ⟨i.val, h1⟩)
      (fun b hb => by
        match b with
        | ⟨0, _⟩ => rfl
        | ⟨1, _⟩ => exact absurd rfl hb)
      (by show 0 + i.val = i.val; omega)
  · next h1 =>
    exact concatenate_apply_piece (t := S50000x256) (a := 1) (xs := [⟨S50000x128, nf⟩, ⟨S50000x128, ag⟩])
      concatenates_S50000x128_S50000x128_S50000x256_d1 (ix2 n i) 1 (by simp) S50000x128 ag rfl rfl 128 rfl
      (ix2 n ⟨i.val - 128, by omega⟩)
      (fun b hb => by
        match b with
        | ⟨0, _⟩ => rfl
        | ⟨1, _⟩ => exact absurd rfl hb)
      (by show 128 + (i.val - 128) = i.val; omega)

/-! ## The two stages at an index -/

/-- Entry (e, j) of the message array: the perceptron of edge e's concatenated row. -/
theorem msg_apply (rf cf ea : FVec Ideal S600000x128 .f32) (W1 : FVec Ideal S384x128 .f32) (b1 : FVec Ideal S128 .f32)
    (W2 : FVec Ideal S128x128 .f32) (b2 : FVec Ideal S128 .f32) (e : Fin 600000) (j : Fin 128) :
    St.msg rf cf ea W1 b1 W2 b2 (ix2 e j)
      = Spec.mlpR (Spec.cat3 (fun k => rf (ix2 e k)) (fun k => cf (ix2 e k)) (fun k => ea (ix2 e k)))
          (fun i k => W1 (ix2 i k)) (fun k => b1 (ix1 k)) (fun a k => W2 (ix2 a k)) (fun k => b2 (ix1 k)) j := by
  unfold St.msg Spec.mlpR
  rw [addf_apply, biasE_apply, dotE2_apply]
  congr 1
  refine Finset.sum_congr rfl fun k _ => ?_
  rw [softplusE_apply, addf_apply, biasE_apply, dotE1_apply]
  simp only [catE_apply]

/-- Entry (n, j) of the update array: the perceptron of node n's features beside its aggregate. -/
theorem upd_apply (nf ag : FVec Ideal S50000x128 .f32) (U1 : FVec Ideal S256x128 .f32) (ub1 : FVec Ideal S128 .f32)
    (U2 : FVec Ideal S128x128 .f32) (ub2 : FVec Ideal S128 .f32) (n : Fin 50000) (j : Fin 128) :
    St.upd nf ag U1 ub1 U2 ub2 (ix2 n j)
      = Spec.mlpR (Spec.cat2 (fun k => nf (ix2 n k)) (fun k => ag (ix2 n k)))
          (fun i k => U1 (ix2 i k)) (fun k => ub1 (ix1 k)) (fun a k => U2 (ix2 a k)) (fun k => ub2 (ix1 k)) j := by
  unfold St.upd Spec.mlpR
  rw [addf_apply, biasN_apply, dotN2_apply]
  congr 1
  refine Finset.sum_congr rfl fun k _ => ?_
  rw [softplusN_apply, addf_apply, biasN_apply, dotN1_apply]
  simp only [catN_apply]

end Cert.ReferenceIdeal.Read

end
-- ==== Proof.Bridge.lean ====
/-
  The kernel program's result function and the reference's are one function of the thirteen arguments, wherever every
  id of the edge list is a node id: the two programs share the index rows, the gather, the scatter-add and the batch
  normalisation word for word, and on every edge (every node) the kernel's row of the message (update) network, a sum
  of three (two) partial products, is the reference's one product over the concatenated row.
-/
import proofs.«419319_j7275674599845_1_alg».proof.Proof.KOut
import proofs.«419319_j7275674599845_1_alg».proof.Proof.KTake
import proofs.«419319_j7275674599845_1_alg».proof.Proof.RRead
import proofs.«419319_j7275674599845_1_alg».proof.Proof.RStages
import proofs.«419319_j7275674599845_1_alg».proof.Proof.Gen.KernelIdeal
import proofs.«419319_j7275674599845_1_alg».proof.Proof.Gen.ReferenceIdeal
import Idealize.ShloMosaic.PureOps.Ideal
import Idealize.ShloMosaic.Lib.ValueIdx
import Idealize.ShloMosaic.Lib.ValueLayout
import Idealize.ShloMosaic.Lib.Pipeline.Value

noncomputable section

namespace Cert.Bridge

open Idealize.ShloMosaic Idealize.ShloMosaic.ValueIdx

/-! ## The stages the two programs spell alike -/

theorem bn_eq (x : FVec Ideal Cert.KernelIdeal.S50000x128 .f32) (g b : FVec Ideal Cert.KernelIdeal.S128 .f32) :
    Cert.KernelIdeal.St.bn (F := Ideal) x g b = Cert.ReferenceIdeal.St.bn (F := Ideal) x g b := rfl
theorem agg_eq (ms : FVec Ideal Cert.KernelIdeal.S600000x128 .f32) (r : IVec Cert.KernelIdeal.S600000 32) :
    Cert.KernelIdeal.St.agg (F := Ideal) ms r = Cert.ReferenceIdeal.St.agg (F := Ideal) ms r := rfl
theorem idxRow0_eq (ei : IVec Cert.KernelIdeal.S2x600000 32) : Cert.KernelIdeal.St.idxRow0 ei = Cert.ReferenceIdeal.St.idxRow0 ei := rfl
theorem idxRow1_eq (ei : IVec Cert.KernelIdeal.S2x600000 32) : Cert.KernelIdeal.St.idxRow1 ei = Cert.ReferenceIdeal.St.idxRow1 ei := rfl
theorem gath_eq (nf : FVec Ideal Cert.KernelIdeal.S50000x128 .f32) (r : IVec Cert.KernelIdeal.S600000 32) :
    Host.gather Cert.KernelIdeal.gather_S50000x128_S600000x1_S600000x128_1_0_n_n_0_1_1128 nf (Cert.KernelIdeal.St.wrap r)
      = Cert.ReferenceIdeal.St.gath (F := Ideal) nf r := rfl

/-! ## The index rows hold node ids -/

/-- Every entry of an index row is an entry of the edge list. -/
theorem idxRow0_range (a1 : IVec Cert.KernelIdeal.S2x600000 32)
    (hr : ∀ i : Cert.KernelIdeal.S2x600000.Idx, 0 ≤ (a1 i).toInt ∧ (a1 i).toInt < 50000) (e : Cert.KernelIdeal.S600000.Idx) :
    0 ≤ (Cert.KernelIdeal.St.idxRow0 a1 e).toInt ∧ (Cert.KernelIdeal.St.idxRow0 a1 e).toInt < 50000 :=
  hr _
theorem idxRow1_range (a1 : IVec Cert.KernelIdeal.S2x600000 32)
    (hr : ∀ i : Cert.KernelIdeal.S2x600000.Idx, 0 ≤ (a1 i).toInt ∧ (a1 i).toInt < 50000) (e : Cert.KernelIdeal.S600000.Idx) :
    0 ≤ (Cert.KernelIdeal.St.idxRow1 a1 e).toInt ∧ (Cert.KernelIdeal.St.idxRow1 a1 e).toInt < 50000 :=
  hr _

/-- Under that hypothesis the kernel's take of an index row is the reference's gather of it. -/
theorem take0_eq (a0 : FVec Ideal Cert.KernelIdeal.S50000x128 .f32) (a1 : IVec Cert.KernelIdeal.S2x600000 32)
    (hr : ∀ i : Cert.KernelIdeal.S2x600000.Idx, 0 ≤ (a1 i).toInt ∧ (a1 i).toInt < 50000) :
    Cert.KernelIdeal.St.take a0 (Cert.KernelIdeal.St.idxRow0 a1)
      = Cert.ReferenceIdeal.St.gath (F := Ideal) a0 (Cert.ReferenceIdeal.St.idxRow0 a1) :=
  (Cert.KernelIdeal.KTake.take_eq a0 _ (idxRow0_range a1 hr)).trans (gath_eq a0 _)
theorem take1_eq (a0 : FVec Ideal Cert.KernelIdeal.S50000x128 .f32) (a1 : IVec Cert.KernelIdeal.S2x600000 32)
    (hr : ∀ i : Cert.KernelIdeal.S2x600000.Idx, 0 ≤ (a1 i).toInt ∧ (a1 i).toInt < 50000) :
    Cert.KernelIdeal.St.take a0 (Cert.KernelIdeal.St.idxRow1 a1)
      = Cert.ReferenceIdeal.St.gath (F := Ideal) a0 (Cert.ReferenceIdeal.St.idxRow1 a1) :=
  (Cert.KernelIdeal.KTake.take_eq a0 _ (idxRow1_range a1 hr)).trans (gath_eq a0 _)

/-! ## The kernel's weight blocks and bias rows -/

/-- A block of 128 rows cut from a taller matrix at row `o`, at (a, k), is the matrix at (o + a, k). -/
theorem wblock_apply {N : Nat} (o : Nat) (W : (⟨2, ![N, 128]⟩ : Shape).Idx → EReal)
    (h : (⟨2, ![N, 128]⟩ : Shape).Slices ![o, 0] ⟨2, ![128, 128]⟩) (a k : Fin 128) (hlt : o + a.val < N) :
    extractStridedSlice ⟨2, ![128, 128]⟩ ![o, 0] W h (ix2 a k) = W (ix2 ⟨o + a.val, hlt⟩ k) :=
  slice2_axis0_apply o W h a k ⟨o + a.val, hlt⟩ rfl

/-- The three row-blocks of the message network's first weight matrix, and the two of the update network's. -/
theorem w3_0 (a3 : FVec Ideal Cert.KernelIdeal.S384x128 .f32) (a k : Fin 128) :
    extractStridedSlice Cert.KernelIdeal.S128x128 ![0, 0] a3 Cert.KernelIdeal.Facts₀.slices_S384x128_S128x128_0_0 (ix2 a k)
      = a3 (ix2 ⟨a.val, by omega⟩ k) :=
  slice2_axis0_apply 0 a3 _ a k ⟨a.val, by omega⟩ (Nat.zero_add _).symm
theorem w3_1 (a3 : FVec Ideal Cert.KernelIdeal.S384x128 .f32) (a k : Fin 128) :
    extractStridedSlice Cert.KernelIdeal.S128x128 ![128, 0] a3 Cert.KernelIdeal.Facts₀.slices_S384x128_S128x128_128_0 (ix2 a k)
      = a3 (ix2 ⟨128 + a.val, by omega⟩ k) :=
  wblock_apply 128 a3 _ a k (by omega)
theorem w3_2 (a3 : FVec Ideal Cert.KernelIdeal.S384x128 .f32) (a k : Fin 128) :
    extractStridedSlice Cert.KernelIdeal.S128x128 ![256, 0] a3 Cert.KernelIdeal.Facts₀.slices_S384x128_S128x128_256_0 (ix2 a k)
      = a3 (ix2 ⟨256 + a.val, by omega⟩ k) :=
  wblock_apply 256 a3 _ a k (by omega)
theorem w2_0 (a7 : FVec Ideal Cert.KernelIdeal.S256x128 .f32) (a k : Fin 128) :
    extractStridedSlice Cert.KernelIdeal.S128x128 ![0, 0] a7 Cert.KernelIdeal.Facts₀.slices_S256x128_S128x128_0_0 (ix2 a k)
      = a7 (ix2 ⟨a.val, by omega⟩ k) :=
  slice2_axis0_apply 0 a7 _ a k ⟨a.val, by omega⟩ (Nat.zero_add _).symm
theorem w2_1 (a7 : FVec Ideal Cert.KernelIdeal.S256x128 .f32) (a k : Fin 128) :
    extractStridedSlice Cert.KernelIdeal.S128x128 ![128, 0] a7 Cert.KernelIdeal.Facts₀.slices_S256x128_S128x128_128_0 (ix2 a k)
      = a7 (ix2 ⟨128 + a.val, by omega⟩ k) :=
  wblock_apply 128 a7 _ a k (by omega)

/-- A bias laid out as one row, at (0, k), is the bias at k. -/
theorem brow_apply (b : (⟨1, ![128]⟩ : Shape).Idx → EReal) (h : (⟨1, ![128]⟩ : Shape).ShapeCasts ⟨2, ![1, 128]⟩) (k : Fin 128) :
    shapeCast ⟨2, ![1, 128]⟩ b h (ix2 (0 : Fin 1) k) = b (ix1 k) :=
  shapeCast_a_1a_apply b h 0 k

/-! ## The message arrays, the update arrays, the results -/

/-- On every edge the kernel's message row is the reference's. -/
theorem msg_eq (a0 : FVec Ideal Cert.KernelIdeal.S50000x128 .f32) (a1 : IVec Cert.KernelIdeal.S2x600000 32)
    (a2 : FVec Ideal Cert.KernelIdeal.S600000x128 .f32) (a3 : FVec Ideal Cert.KernelIdeal.S384x128 .f32)
    (a4 : FVec Ideal Cert.KernelIdeal.S128 .f32) (a5 : FVec Ideal Cert.KernelIdeal.S128x128 .f32) (a6 : FVec Ideal Cert.KernelIdeal.S128 .f32)
    (hr : ∀ i : Cert.KernelIdeal.S2x600000.Idx, 0 ≤ (a1 i).toInt ∧ (a1 i).toInt < 50000) :
    Cert.KernelIdeal.KValue.msgArr a0 a1 a2 a3 a4 a5 a6
      = Cert.ReferenceIdeal.St.msg (F := Ideal) (Cert.ReferenceIdeal.St.gath a0 (Cert.ReferenceIdeal.St.idxRow0 a1))
          (Cert.ReferenceIdeal.St.gath a0 (Cert.ReferenceIdeal.St.idxRow1 a1)) a2 a3 a4 a5 a6 := by
  funext i
  obtain ⟨e, j, rfl⟩ : ∃ (e : Fin 600000) (j : Fin 128), i = ix2 e j := ⟨i 0, i 1, eq_ix2 i⟩
  rw [Cert.ReferenceIdeal.Read.msg_apply, Cert.Spec.mlpR_cat3]
  unfold Cert.KernelIdeal.KValue.msgArr
  rw [take0_eq a0 a1 hr, take1_eq a0 a1 hr]
  simp only [w3_0, w3_1, w3_2, brow_apply]

/-- On every node the kernel's update row is the reference's. -/
theorem upd_eq (a0 ag : FVec Ideal Cert.KernelIdeal.S50000x128 .f32) (a7 : FVec Ideal Cert.KernelIdeal.S256x128 .f32)
    (a8 : FVec Ideal Cert.KernelIdeal.S128 .f32) (a9 : FVec Ideal Cert.KernelIdeal.S128x128 .f32) (a10 : FVec Ideal Cert.KernelIdeal.S128 .f32) :
    Cert.KernelIdeal.KValue.updArr a0 ag a7 a8 a9 a10 = Cert.ReferenceIdeal.St.upd (F := Ideal) a0 ag a7 a8 a9 a10 := by
  funext i
  obtain ⟨n, j, rfl⟩ : ∃ (n : Fin 50000) (j : Fin 128), i = ix2 n j := ⟨i 0, i 1, eq_ix2 i⟩
  rw [Cert.ReferenceIdeal.Read.upd_apply, Cert.Spec.mlpR_cat2]
  unfold Cert.KernelIdeal.KValue.updArr
  simp only [w2_0, w2_1, brow_apply]

/-- The kernel program's result is the reference's, wherever every id of the edge list is a node id. -/
theorem out_eq (a0 : FVec Ideal Cert.KernelIdeal.S50000x128 .f32) (a1 : IVec Cert.KernelIdeal.S2x600000 32) (a2 : FVec Ideal Cert.KernelIdeal.S600000x128 .f32) (a3 : FVec Ideal Cert.KernelIdeal.S384x128 .f32) (a4 : FVec Ideal Cert.KernelIdeal.S128 .f32) (a5 : FVec Ideal Cert.KernelIdeal.S128x128 .f32) (a6 : FVec Ideal Cert.KernelIdeal.S128 .f32) (a7 : FVec Ideal Cert.KernelIdeal.S256x128 .f32) (a8 : FVec Ideal Cert.KernelIdeal.S128 .f32) (a9 : FVec Ideal Cert.KernelIdeal.S128x128 .f32) (a10 a11 a12 : FVec Ideal Cert.KernelIdeal.S128 .f32)
    (hr : ∀ i : Cert.KernelIdeal.S2x600000.Idx, 0 ≤ (a1 i).toInt ∧ (a1 i).toInt < 50000) :
    Cert.KernelIdeal.KValue.out a0 a1 a2 a3 a4 a5 a6 a7 a8 a9 a10 a11 a12 = Cert.ReferenceIdeal.St.out (F := Ideal) a0 a1 a2 a3 a4 a5 a6 a7 a8 a9 a10 a11 a12 := by
  unfold Cert.KernelIdeal.KValue.out Cert.ReferenceIdeal.St.out
  rw [msg_eq a0 a1 a2 a3 a4 a5 a6 hr, upd_eq, agg_eq, idxRow0_eq, bn_eq]

end Cert.Bridge

end
-- ==== Proof.Pre.lean ====
/-
  The precondition read back: besides the finiteness of the float inputs it states that every entry of the edge list is
  a node id, `0 ≤ id < 50000`, as one `and`-reduction over the 2 × 600000 comparisons.
-/
import proofs.«419319_j7275674599845_1_alg».proof.Pre_finite_inputs
import Idealize.ShloMosaic.Lib.ReduceAll
import Idealize.ShloMosaic.Lib.ValueIdx

noncomputable section
namespace Cert.Pre_finite_inputs.Decode
open Idealize.ShloMosaic Cert.Pre_finite_inputs Cert.Pre_finite_inputs.Facts
variable [Facts] {F : FTy → Type} [FloatOps F]

instance : Subsingleton S_.Idx := ⟨fun a b => funext fun d => d.elim0⟩

/-- Where the precondition holds, every entry of the edge list is in `[0, 50000)` as a signed word. -/
theorem idx_range (a0 : FVec F S50000x128 .f32) (a1 : IVec S2x600000 32) (a2 : FVec F S600000x128 .f32) (a3 : FVec F S384x128 .f32)
    (a4 : FVec F S128 .f32) (a5 : FVec F S128x128 .f32) (a6 : FVec F S128 .f32) (a7 : FVec F S256x128 .f32) (a8 : FVec F S128 .f32)
    (a9 : FVec F S128x128 .f32) (a10 : FVec F S128 .f32) (a11 : FVec F S128 .f32) (a12 : FVec F S128 .f32)
    (h : fn (F := F) a0 a1 a2 a3 a4 a5 a6 a7 a8 a9 a10 a11 a12 = fun _ => 1#1) (i : S2x600000.Idx) :
    0 ≤ (a1 i).toInt ∧ (a1 i).toInt < 50000 := by
  have h0 := congrFun h ValueIdx.ix0
  dsimp only [fn, fn_part1, fn_part2, fn_part3] at h0
  have h1 := (IntOp.andi_eq_one.1 h0).2
  have h2 := Host.reduce_andi_all _ _ _ _ _ h1 i
  obtain ⟨h3, h4⟩ := IntOp.andi_eq_one.1 h2
  have h5 := IntOp.cmpi_sge.1 h3
  have h6 := IntOp.cmpi_slt.1 h4
  exact ⟨h5, h6⟩

end Cert.Pre_finite_inputs.Decode
end
-- ==== Proof.lean ====
/-
  The certificate of the graph convolution kernel against its jnp reference, over the extended reals.

  Both programs gather the node features at each edge's two endpoints, run the message network (a linear map, softplus,
  a second linear map) on every edge, add the messages onto the source nodes, run the update network on every node over
  its features beside its aggregate, and normalise over the node axis. They differ in three places. The kernel program
  reads the endpoints with `jnp.take`, which fills an out-of-range read, where the reference indexes; on node ids
  `0 ≤ id < 50000` — the stated domain of the edge list — the fill mask is all ones and the two reads are one gather.
  The kernel takes each network's first linear map as a sum of partial products over blocks of 128 features against the
  matching row-blocks of the weight matrix, where the reference multiplies the concatenated row by the whole matrix: a
  finite sum split into its blocks, by commutativity and associativity of addition alone. And the kernel changes float
  format on the way into its products, which is the identity here. The scatter-add and the normalisation are the same
  operations on both sides and are never opened.

  The three frames: the two kernel programs' by their generated frame certificates, the reference's by its run read
  back. The idealization rewrote nothing, so `preserves` is trivial.
-/
import proofs.«419319_j7275674599845_1_alg».proof.Defs
import proofs.«419319_j7275674599845_1_alg».proof.Proof.Gen.Kernel
import proofs.«419319_j7275674599845_1_alg».proof.Proof.Gen.Kernel.Frame
import proofs.«419319_j7275674599845_1_alg».proof.Proof.Gen.KernelIdeal
import proofs.«419319_j7275674599845_1_alg».proof.Proof.Gen.KernelIdeal.Frame
import proofs.«419319_j7275674599845_1_alg».proof.Proof.Gen.ReferenceIdeal
import proofs.«419319_j7275674599845_1_alg».proof.Proof.Gen.Pre_finite_inputs
import proofs.«419319_j7275674599845_1_alg».proof.Proof.KRun
import proofs.«419319_j7275674599845_1_alg».proof.Proof.KValue
import proofs.«419319_j7275674599845_1_alg».proof.Proof.RefRun
import proofs.«419319_j7275674599845_1_alg».proof.Proof.Bridge
import proofs.«419319_j7275674599845_1_alg».proof.Proof.Pre
import Idealize.ShloMosaic.Adequacy
import Idealize.ShloMosaic.Init

noncomputable section

namespace Cert.Proof

open Idealize.ShloMosaic Idealize.SL.Sem

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run (F := Ideal) m ρ)

/-- From memories agreeing on the arguments both programs end with the kernel program's result function of the
    arguments: the kernel program by its run read back, the reference by its run and the algebra joining the two
    result functions on the stated domain of the edge list. -/
theorem algebraic : Cert.algebraic_KernelIdeal_ReferenceIdeal := by
  intro m ρ m' ρ' hpre hagree
  refine ⟨fun c => Cert.KernelIdeal.KValue.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.KValue.W10_v50 m ρ c), (h c).2⟩)
      (Cert.KernelIdeal.RunV.run_main (F := Ideal) m ρ)
  · refine (θ_run Cert.ReferenceIdeal.defs _ _).mono (fun r h c => ⟨(h c).1.trans ?_, (h c).2⟩)
      (Cert.ReferenceIdeal.RefRun.run (F := Ideal) m' ρ')
    obtain ⟨e0, e1, e2, e3, e4, e5, e6, e7, e8, e9, e10, e11, e12⟩ := hagree c
    rw [e0, e1, e2, e3, e4, e5, e6, e7, e8, e9, e10, e11, e12]
    exact (Cert.Bridge.out_eq _ _ _ _ _ _ _ _ _ _ _ _ _
      (Cert.Pre_finite_inputs.Decode.idx_range _ _ _ _ _ _ _ _ _ _ _ _ _ (hpre c))).symm

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
